-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x32 : Shape := ⟨4, ![8, 64, 64, 32]⟩
abbrev S288x10 : Shape := ⟨2, ![288, 10]⟩
abbrev S_ : Shape := ⟨0, ![]⟩

class Facts : Prop where
  bcast_S_S8x64x64x32 : S_.BroadcastsInDim S8x64x64x32 (![] : Fin 0 → Fin S8x64x64x32.rank)
  reducesTo_S8x64x64x32_S_d0_1_2_3 : S8x64x64x32.ReducesTo [0, 1, 2, 3] S_
  h_S_ : 0 < S_.numel
  bcast_S_S288x10 : S_.BroadcastsInDim S288x10 (![] : Fin 0 → Fin S288x10.rank)
  reducesTo_S288x10_S_d0_1 : S288x10.ReducesTo [0, 1] S_

variable [Facts]

def fn_part2 {F : FTy → Type} [FloatOps F] (main_arg7 : FVec F S288x10 .f32) (main_arg8 : FVec F S288x10 .f32) (main_v33 : IVec S_ 1) : IVec S_ 1 :=
  let main_v34 : FVec F S288x10 .f32 := Host.absf main_arg7
  let main_cst_12 : FVec F S_ .f32 := constant S_ .f32 0x7F800000#32
  let main_v35 : FVec F S288x10 .f32 := broadcastInDim S288x10 ![] bcast_S_S288x10 main_cst_12
  let main_v36 : IVec S288x10 1 := cmpf .olt main_v34 main_v35
  let main_c_13 : IVec S_ 1 := constantI S_ 1 1#1
  let main_v37 : IVec S_ 1 := (fun x v => Host.reduce IntOp.andi x v reducesTo_S288x10_S_d0_1 h_S_) main_v36 main_c_13
  let main_v38 : IVec S_ 1 := andi main_v33 main_v37
  let main_v39 : FVec F S288x10 .f32 := Host.absf main_arg8
  let main_cst_14 : FVec F S_ .f32 := constant S_ .f32 0x7F800000#32
  let main_v40 : FVec F S288x10 .f32 := broadcastInDim S288x10 ![] bcast_S_S288x10 main_cst_14
  let main_v41 : IVec S288x10 1 := cmpf .olt main_v39 main_v40
  let main_c_15 : IVec S_ 1 := constantI S_ 1 1#1
  let main_v42 : IVec S_ 1 := (fun x v => Host.reduce IntOp.andi x v reducesTo_S288x10_S_d0_1 h_S_) main_v41 main_c_15
  let main_v43 : IVec S_ 1 := andi main_v38 main_v42
  main_v43

def fn_part1 {F : FTy → Type} [FloatOps F] (main_arg4 : FVec F S288x10 .f32) (main_arg5 : FVec F S288x10 .f32) (main_arg6 : FVec F S288x10 .f32) (main_arg7 : FVec F S288x10 .f32) (main_arg8 : FVec F S288x10 .f32) (main_v13 : IVec S_ 1) (main_v16 : IVec S288x10 1) : IVec S_ 1 :=
  let main_c_5 : IVec S_ 1 := constantI S_ 1 1#1
  let main_v17 : IVec S_ 1 := (fun x v => Host.reduce IntOp.andi x v reducesTo_S288x10_S_d0_1 h_S_) main_v16 main_c_5
  let main_v18 : IVec S_ 1 := andi main_v13 main_v17
  let main_v19 : FVec F S288x10 .f32 := Host.absf main_arg4
  let main_cst_6 : FVec F S_ .f32 := constant S_ .f32 0x7F800000#32
  let main_v20 : FVec F S288x10 .f32 := broadcastInDim S288x10 ![] bcast_S_S288x10 main_cst_6
  let main_v21 : IVec S288x10 1 := cmpf .olt main_v19 main_v20
  let main_c_7 : IVec S_ 1 := constantI S_ 1 1#1
  let main_v22 : IVec S_ 1 := (fun x v => Host.reduce IntOp.andi x v reducesTo_S288x10_S_d0_1 h_S_) main_v21 main_c_7
  let main_v23 : IVec S_ 1 := andi main_v18 main_v22
  let main_v24 : FVec F S288x10 .f32 := Host.absf main_arg5
  let main_cst_8 : FVec F S_ .f32 := constant S_ .f32 0x7F800000#32
  let main_v25 : FVec F S288x10 .f32 := broadcastInDim S288x10 ![] bcast_S_S288x10 main_cst_8
  let main_v26 : IVec S288x10 1 := cmpf .olt main_v24 main_v25
  let main_c_9 : IVec S_ 1 := constantI S_ 1 1#1
  let main_v27 : IVec S_ 1 := (fun x v => Host.reduce IntOp.andi x v reducesTo_S288x10_S_d0_1 h_S_) main_v26 main_c_9
  let main_v28 : IVec S_ 1 := andi main_v23 main_v27
  let main_v29 : FVec F S288x10 .f32 := Host.absf main_arg6
  let main_cst_10 : FVec F S_ .f32 := constant S_ .f32 0x7F800000#32
  let main_v30 : FVec F S288x10 .f32 := broadcastInDim S288x10 ![] bcast_S_S288x10 main_cst_10
  let main_v31 : IVec S288x10 1 := cmpf .olt main_v29 main_v30
  let main_c_11 : IVec S_ 1 := constantI S_ 1 1#1
  let main_v32 : IVec S_ 1 := (fun x v => Host.reduce IntOp.andi x v reducesTo_S288x10_S_d0_1 h_S_) main_v31 main_c_11
  let main_v33 : IVec S_ 1 := andi main_v28 main_v32
  fn_part2 (F := F) main_arg7 main_arg8 main_v33

def fn {F : FTy → Type} [FloatOps F] (main_arg0 : FVec F S8x64x64x32 .f32) (main_arg1 : FVec F S288x10 .f32) (main_arg2 : FVec F S288x10 .f32) (main_arg3 : FVec F S288x10 .f32) (main_arg4 : FVec F S288x10 .f32) (main_arg5 : FVec F S288x10 .f32) (main_arg6 : FVec F S288x10 .f32) (main_arg7 : FVec F S288x10 .f32) (main_arg8 : FVec F S288x10 .f32) : IVec S_ 1 :=
  let main_v0 : FVec F S8x64x64x32 .f32 := Host.absf main_arg0
  let main_cst : FVec F S_ .f32 := constant S_ .f32 0x7F800000#32
  let main_v1 : FVec F S8x64x64x32 .f32 := broadcastInDim S8x64x64x32 ![] bcast_S_S8x64x64x32 main_cst
  let main_v2 : IVec S8x64x64x32 1 := cmpf .olt main_v0 main_v1
  let main_c : IVec S_ 1 := constantI S_ 1 1#1
  let main_v3 : IVec S_ 1 := (fun x v => Host.reduce IntOp.andi x v reducesTo_S8x64x64x32_S_d0_1_2_3 h_S_) main_v2 main_c
  let main_v4 : FVec F S288x10 .f32 := Host.absf main_arg1
  let main_cst_0 : FVec F S_ .f32 := constant S_ .f32 0x7F800000#32
  let main_v5 : FVec F S288x10 .f32 := broadcastInDim S288x10 ![] bcast_S_S288x10 main_cst_0
  let main_v6 : IVec S288x10 1 := cmpf .olt main_v4 main_v5
  let main_c_1 : IVec S_ 1 := constantI S_ 1 1#1
  let main_v7 : IVec S_ 1 := (fun x v => Host.reduce IntOp.andi x v reducesTo_S288x10_S_d0_1 h_S_) main_v6 main_c_1
  let main_v8 : IVec S_ 1 := andi main_v3 main_v7
  let main_v9 : FVec F S288x10 .f32 := Host.absf main_arg2
  let main_cst_2 : FVec F S_ .f32 := constant S_ .f32 0x7F800000#32
  let main_v10 : FVec F S288x10 .f32 := broadcastInDim S288x10 ![] bcast_S_S288x10 main_cst_2
  let main_v11 : IVec S288x10 1 := cmpf .olt main_v9 main_v10
  let main_c_3 : IVec S_ 1 := constantI S_ 1 1#1
  let main_v12 : IVec S_ 1 := (fun x v => Host.reduce IntOp.andi x v reducesTo_S288x10_S_d0_1 h_S_) main_v11 main_c_3
  let main_v13 : IVec S_ 1 := andi main_v8 main_v12
  let main_v14 : FVec F S288x10 .f32 := Host.absf main_arg3
  let main_cst_4 : FVec F S_ .f32 := constant S_ .f32 0x7F800000#32
  let main_v15 : FVec F S288x10 .f32 := broadcastInDim S288x10 ![] bcast_S_S288x10 main_cst_4
  let main_v16 : IVec S288x10 1 := cmpf .olt main_v14 main_v15
  fn_part1 (F := F) main_arg4 main_arg5 main_arg6 main_arg7 main_arg8 main_v13 main_v16
-- ==== Kernel.lean ====
abbrev S8x64x64x32 : Shape := ⟨4, ![8, 64, 64, 32]⟩
abbrev S288x10 : Shape := ⟨2, ![288, 10]⟩
abbrev S9x32x10 : Shape := ⟨3, ![9, 32, 10]⟩
abbrev S9x32x70 : Shape := ⟨3, ![9, 32, 70]⟩
abbrev S_ : Shape := ⟨0, ![]⟩
abbrev S9x32x12 : Shape := ⟨3, ![9, 32, 12]⟩
abbrev S9x32x3x4 : Shape := ⟨4, ![9, 32, 3, 4]⟩
abbrev S9x3x4x32 : Shape := ⟨4, ![9, 3, 4, 32]⟩
abbrev S9x3x128 : Shape := ⟨3, ![9, 3, 128]⟩
abbrev S128 : Shape := ⟨1, ![128]⟩
abbrev S128x1 : Shape := ⟨2, ![128, 1]⟩
abbrev S1x4 : Shape := ⟨2, ![1, 4]⟩
abbrev S128x4 : Shape := ⟨2, ![128, 4]⟩
abbrev S10 : Shape := ⟨1, ![10]⟩
abbrev S1x10 : Shape := ⟨2, ![1, 10]⟩
abbrev S8x64x64x80 : Shape := ⟨4, ![8, 64, 64, 80]⟩
abbrev S1x64x64x32 : Shape := ⟨4, ![1, 64, 64, 32]⟩
abbrev S1x64x64x80 : Shape := ⟨4, ![1, 64, 64, 80]⟩
abbrev S66x66x32 : Shape := ⟨3, ![66, 66, 32]⟩
abbrev S64x64x70 : Shape := ⟨3, ![64, 64, 70]⟩
abbrev S64x64x12 : Shape := ⟨3, ![64, 64, 12]⟩
abbrev S1x66x32 : Shape := ⟨3, ![1, 66, 32]⟩
abbrev S64x1x32 : Shape := ⟨3, ![64, 1, 32]⟩
abbrev S64x64x32 : Shape := ⟨3, ![64, 64, 32]⟩
abbrev S64x64x1 : Shape := ⟨3, ![64, 64, 1]⟩
abbrev S64x64 : Shape := ⟨2, ![64, 64]⟩
abbrev S1x32x70 : Shape := ⟨3, ![1, 32, 70]⟩
abbrev S32x70 : Shape := ⟨2, ![32, 70]⟩
abbrev S4096x32 : Shape := ⟨2, ![4096, 32]⟩
abbrev S4096x70 : Shape := ⟨2, ![4096, 70]⟩
abbrev S64x64x128 : Shape := ⟨3, ![64, 64, 128]⟩
abbrev S1x1x128 : Shape := ⟨3, ![1, 1, 128]⟩
abbrev S4096x128 : Shape := ⟨2, ![4096, 128]⟩
abbrev S4096x4 : Shape := ⟨2, ![4096, 4]⟩
abbrev S64x64x4 : Shape := ⟨3, ![64, 64, 4]⟩
abbrev S64x64x10 : Shape := ⟨3, ![64, 64, 10]⟩
abbrev S1x1x10 : Shape := ⟨3, ![1, 1, 10]⟩
abbrev S64x64x80 : Shape := ⟨3, ![64, 64, 80]⟩

abbrev nBuf : Space → Nat
  | .hbm => 58
  | .vmem => 12
  | .smem => 0
  | _ => 0

abbrev bufTy : (tb : Table) → Fin (tcTables nBuf tb) → BufTy
  | .hbm, ⟨0, _⟩ => ⟨S8x64x64x32, .f32⟩
  | .hbm, ⟨1, _⟩ => ⟨S288x10, .f32⟩
  | .hbm, ⟨2, _⟩ => ⟨S288x10, .f32⟩
  | .hbm, ⟨3, _⟩ => ⟨S288x10, .f32⟩
  | .hbm, ⟨4, _⟩ => ⟨S288x10, .f32⟩
  | .hbm, ⟨5, _⟩ => ⟨S288x10, .f32⟩
  | .hbm, ⟨6, _⟩ => ⟨S288x10, .f32⟩
  | .hbm, ⟨7, _⟩ => ⟨S288x10, .f32⟩
  | .hbm, ⟨8, _⟩ => ⟨S288x10, .f32⟩
  | .hbm, ⟨9, _⟩ => ⟨S9x32x10, .f32⟩
  | .hbm, ⟨10, _⟩ => ⟨S9x32x10, .f32⟩
  | .hbm, ⟨11, _⟩ => ⟨S9x32x10, .f32⟩
  | .hbm, ⟨12, _⟩ => ⟨S9x32x10, .f32⟩
  | .hbm, ⟨13, _⟩ => ⟨S9x32x10, .f32⟩
  | .hbm, ⟨14, _⟩ => ⟨S9x32x10, .f32⟩
  | .hbm, ⟨15, _⟩ => ⟨S9x32x10, .f32⟩
  | .hbm, ⟨16, _⟩ => ⟨S9x32x70, .f32⟩
  | .hbm, ⟨17, _⟩ => ⟨S9x32x10, .f32⟩
  | .hbm, ⟨18, _⟩ => ⟨S_, .i32⟩
  | .hbm, ⟨19, _⟩ => ⟨S_, .f32⟩
  | .hbm, ⟨20, _⟩ => ⟨S9x32x12, .f32⟩
  | .hbm, ⟨21, _⟩ => ⟨S9x32x3x4, .f32⟩
  | .hbm, ⟨22, _⟩ => ⟨S9x3x4x32, .f32⟩
  | .hbm, ⟨23, _⟩ => ⟨S9x3x128, .f32⟩
  | .hbm, ⟨24, _⟩ => ⟨S128, .i32⟩
  | .hbm, ⟨25, _⟩ => ⟨S_, .i32⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S128, .i32⟩
  | .hbm, ⟨34, _⟩ => ⟨S128, .i32⟩
  | .hbm, ⟨35, _⟩ => ⟨S_, .i32⟩
  | .hbm, ⟨36, _⟩ => ⟨S128, .i32⟩
  | .hbm, ⟨37, _⟩ => ⟨S128, .i1⟩
  | .hbm, ⟨38, _⟩ => ⟨S128, .i1⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S128x1, .i32⟩
  | .hbm, ⟨44, _⟩ => ⟨S1x4, .i32⟩
  | .hbm, ⟨45, _⟩ => ⟨S128x4, .i32⟩
  | .hbm, ⟨46, _⟩ => ⟨S128x4, .i32⟩
  | .hbm, ⟨47, _⟩ => ⟨S128x4, .i1⟩
  | .hbm, ⟨48, _⟩ => ⟨S128x4, .f32⟩
  | .hbm, ⟨49, _⟩ => ⟨S288x10, .f32⟩
  | .hbm, ⟨50, _⟩ => ⟨S_, .f32⟩
  | .hbm, ⟨51, _⟩ => ⟨S10, .f32⟩
  | .hbm, ⟨52, _⟩ => ⟨S1x10, .f32⟩
  | .hbm, ⟨53, _⟩ => ⟨S288x10, .f32⟩
  | .hbm, ⟨54, _⟩ => ⟨S_, .f32⟩
  | .hbm, ⟨55, _⟩ => ⟨S10, .f32⟩
  | .hbm, ⟨56, _⟩ => ⟨S1x10, .f32⟩
  | .hbm, ⟨57, _⟩ => ⟨S8x64x64x80, .f32⟩
  | .local _ .vmem, ⟨0, _⟩ => ⟨S1x64x64x32, .f32⟩
  | .local _ .vmem, ⟨1, _⟩ => ⟨S1x64x64x32, .f32⟩
  | .local _ .vmem, ⟨2, _⟩ => ⟨S9x32x70, .f32⟩
  | .local _ .vmem, ⟨3, _⟩ => ⟨S9x3x128, .f32⟩
  | .local _ .vmem, ⟨4, _⟩ => ⟨S128x4, .f32⟩
  | .local _ .vmem, ⟨5, _⟩ => ⟨S1x10, .f32⟩
  | .local _ .vmem, ⟨6, _⟩ => ⟨S1x10, .f32⟩
  | .local _ .vmem, ⟨7, _⟩ => ⟨S1x64x64x80, .f32⟩
  | .local _ .vmem, ⟨8, _⟩ => ⟨S1x64x64x80, .f32⟩
  | .local _ .vmem, ⟨9, _⟩ => ⟨S66x66x32, .f32⟩
  | .local _ .vmem, ⟨10, _⟩ => ⟨S64x64x70, .f32⟩
  | .local _ .vmem, ⟨11, _⟩ => ⟨S64x64x12, .f32⟩
  | _, _ => ⟨S8x64x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v14 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v15 : Ref sig .tc := ⟨.hbm, 48, rfl⟩
abbrev main_v16 : Ref sig .tc := ⟨.hbm, 49, rfl⟩
abbrev main_cst : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst_1 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x32x70 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x64x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S288x10_S9x32x10 : S288x10.ShapeCasts S9x32x10
  concatenates_S9x32x10_S9x32x10_S9x32x10_S9x32x10_S9x32x10_S9x32x10_S9x32x10_S9x32x70_d2 : Shape.Concatenates [S9x32x10, S9x32x10, S9x32x10, S9x32x10, S9x32x10, S9x32x10, S9x32x10] S9x32x70 2
  pads_S9x32x10_S9x32x12_000_000_020 : S9x32x10.Pads (![0, 0, 0] : Fin 3 → Nat) ![0, 0, 2] ![0, 0, 0] S9x32x12
  h_S_ : 0 < S_.numel
  shapeCasts_S9x32x12_S9x32x3x4 : S9x32x12.ShapeCasts S9x32x3x4
  transposes_S9x32x3x4_S9x3x4x32_0_2_3_1 : S9x32x3x4.Transposes [0, 2, 3, 1] S9x3x4x32
  shapeCasts_S9x3x4x32_S9x3x128 : S9x3x4x32.ShapeCasts S9x3x128
  bcast_S_S128 : S_.BroadcastsInDim S128 (![] : Fin 0 → Fin S128.rank)
  bcast_S128_S128x1_0 : S128.BroadcastsInDim S128x1 (![0] : Fin 1 → Fin S128x1.rank)
  bcast_S128x1_S128x4_0_1 : S128x1.BroadcastsInDim S128x4 (![0, 1] : Fin 2 → Fin S128x4.rank)
  bcast_S1x4_S128x4_0_1 : S1x4.BroadcastsInDim S128x4 (![0, 1] : Fin 2 → Fin S128x4.rank)
  reducesTo_S288x10_S10_d0 : S288x10.ReducesTo [0] S10
  shapeCasts_S10_S1x10 : S10.ShapeCasts S1x10
  inb_S66x66x32_S1x66x32_0_0_0 : ∀ a, (![0, 0, 0] : Fin 3 → Nat) a + S1x66x32.size a ≤ S66x66x32.size a
  h_S1x66x32 : 0 < S1x66x32.numel
  shapeCasts_S1x66x32_S1x66x32 : S1x66x32.ShapeCasts S1x66x32
  inb_S66x66x32_S1x66x32_65_0_0 : ∀ a, (![65, 0, 0] : Fin 3 → Nat) a + S1x66x32.size a ≤ S66x66x32.size a
  inb_S66x66x32_S64x1x32_1_0_0 : ∀ a, (![1, 0, 0] : Fin 3 → Nat) a + S64x1x32.size a ≤ S66x66x32.size a
  h_S64x1x32 : 0 < S64x1x32.numel
  shapeCasts_S64x1x32_S64x1x32 : S64x1x32.ShapeCasts S64x1x32
  inb_S66x66x32_S64x1x32_1_65_0 : ∀ a, (![1, 65, 0] : Fin 3 → Nat) a + S64x1x32.size a ≤ S66x66x32.size a
  inb_S1x64x64x32_S1x64x64x32_0_0_0_0 : ∀ a, (![0, 0, 0, 0] : Fin 4 → Nat) a + S1x64x64x32.size a ≤ S1x64x64x32.size a
  h_S1x64x64x32 : 0 < S1x64x64x32.numel
  shapeCasts_S1x64x64x32_S64x64x32 : S1x64x64x32.ShapeCasts S64x64x32
  inb_S66x66x32_S64x64x32_1_1_0 : ∀ a, (![1, 1, 0] : Fin 3 → Nat) a + S64x64x32.size a ≤ S66x66x32.size a
  h_S64x64x32 : 0 < S64x64x32.numel
  shapeCasts_S64x64x32_S64x64x32 : S64x64x32.ShapeCasts S64x64x32
  inb_S64x64x70_S64x64x70_0_0_0 : ∀ a, (![0, 0, 0] : Fin 3 → Nat) a + S64x64x70.size a ≤ S64x64x70.size a
  h_S64x64x70 : 0 < S64x64x70.numel
  shapeCasts_S64x64x70_S64x64x70 : S64x64x70.ShapeCasts S64x64x70
  inb_S64x64x12_S64x64x12_0_0_0 : ∀ a, (![0, 0, 0] : Fin 3 → Nat) a + S64x64x12.size a ≤ S64x64x12.size a
  h_S64x64x12 : 0 < S64x64x12.numel
  shapeCasts_S64x64x12_S64x64x12 : S64x64x12.ShapeCasts S64x64x12
  inb_S128x4_S128x4_0_0 : ∀ a, (![0, 0] : Fin 2 → Nat) a + S128x4.size a ≤ S128x4.size a
  h_S128x4 : 0 < S128x4.numel
  shapeCasts_S128x4_S128x4 : S128x4.ShapeCasts S128x4
  bitsLt_bf16_f32 : FTy.bits .bf16 < FTy.bits .f32
  inb_S66x66x32_S64x64x32_0_0_0 : ∀ a, (![0, 0, 0] : Fin 3 → Nat) a + S64x64x32.size a ≤ S66x66x32.size a
  reduces_S64x64x32_S64x64 : S64x64x32.Reduces [2] S64x64
  shapeCasts_S64x64_S64x64x1 : S64x64.ShapeCasts S64x64x1
  inb_S9x32x70_S1x32x70_0_0_0 : ∀ a, (![0, 0, 0] : Fin 3 → Nat) a + S1x32x70.size a ≤ S9x32x70.size a
  h_S1x32x70 : 0 < S1x32x70.numel
  shapeCasts_S1x32x70_S32x70 : S1x32x70.ShapeCasts S32x70
  shapeCasts_S64x64x32_S4096x32 : S64x64x32.ShapeCasts S4096x32
  shapeCasts_S4096x70_S64x64x70 : S4096x70.ShapeCasts S64x64x70
  concatenates_S64x64x32_S64x64x32_S64x64x32_S64x64x32_S64x64x128_d2 : Shape.Concatenates [S64x64x32, S64x64x32, S64x64x32, S64x64x32] S64x64x128 2
  inb_S9x3x128_S1x1x128_0_0_0 : ∀ a, (![0, 0, 0] : Fin 3 → Nat) a + S1x1x128.size a ≤ S9x3x128.size a
  h_S1x1x128 : 0 < S1x1x128.numel
  shapeCasts_S1x1x128_S128 : S1x1x128.ShapeCasts S128
  shapeCasts_S128_S1x1x128 : S128.ShapeCasts S1x1x128
  broadcasts_S1x1x128_S64x64x128 : S1x1x128.Broadcasts S64x64x128
  shapeCasts_S64x64x128_S4096x128 : S64x64x128.ShapeCasts S4096x128
  shapeCasts_S4096x4_S64x64x4 : S4096x4.ShapeCasts S64x64x4
  inb_S64x64x12_S64x64x4_0_0_0 : ∀ a, (![0, 0, 0] : Fin 3 → Nat) a + S64x64x4.size a ≤ S64x64x12.size a
  h_S64x64x4 : 0 < S64x64x4.numel
  shapeCasts_S64x64x4_S64x64x4 : S64x64x4.ShapeCasts S64x64x4
  inb_S9x3x128_S1x1x128_0_1_0 : ∀ a, (![0, 1, 0] : Fin 3 → Nat) a + S1x1x128.size a ≤ S9x3x128.size a
  inb_S64x64x12_S64x64x4_0_0_4 : ∀ a, (![0, 0, 4] : Fin 3 → Nat) a + S64x64x4.size a ≤ S64x64x12.size a
  inb_S9x3x128_S1x1x128_0_2_0 : ∀ a, (![0, 2, 0] : Fin 3 → Nat) a + S1x1x128.size a ≤ S9x3x128.size a
  inb_S64x64x12_S64x64x4_0_0_8 : ∀ a, (![0, 0, 8] : Fin 3 → Nat) a + S64x64x4.size a ≤ S64x64x12.size a
  inb_S66x66x32_S64x64x32_0_1_0 : ∀ a, (![0, 1, 0] : Fin 3 → Nat) a + S64x64x32.size a ≤ S66x66x32.size a
  inb_S9x32x70_S1x32x70_1_0_0 : ∀ a, (![1, 0, 0] : Fin 3 → Nat) a + S1x32x70.size a ≤ S9x32x70.size a
  inb_S9x3x128_S1x1x128_1_0_0 : ∀ a, (![1, 0, 0] : Fin 3 → Nat) a + S1x1x128.size a ≤ S9x3x128.size a
  inb_S9x3x128_S1x1x128_1_1_0 : ∀ a, (![1, 1, 0] : Fin 3 → Nat) a + S1x1x128.size a ≤ S9x3x128.size a
  inb_S9x3x128_S1x1x128_1_2_0 : ∀ a, (![1, 2, 0] : Fin 3 → Nat) a + S1x1x128.size a ≤ S9x3x128.size a
  inb_S66x66x32_S64x64x32_0_2_0 : ∀ a, (![0, 2, 0] : Fin 3 → Nat) a + S64x64x32.size a ≤ S66x66x32.size a
  inb_S9x32x70_S1x32x70_2_0_0 : ∀ a, (![2, 0, 0] : Fin 3 → Nat) a + S1x32x70.size a ≤ S9x32x70.size a
  inb_S9x3x128_S1x1x128_2_0_0 : ∀ a, (![2, 0, 0] : Fin 3 → Nat) a + S1x1x128.size a ≤ S9x3x128.size a
  inb_S9x3x128_S1x1x128_2_1_0 : ∀ a, (![2, 1, 0] : Fin 3 → Nat) a + S1x1x128.size a ≤ S9x3x128.size a
  inb_S9x3x128_S1x1x128_2_2_0 : ∀ a, (![2, 2, 0] : Fin 3 → Nat) a + S1x1x128.size a ≤ S9x3x128.size a
  inb_S66x66x32_S64x64x32_1_0_0 : ∀ a, (![1, 0, 0] : Fin 3 → Nat) a + S64x64x32.size a ≤ S66x66x32.size a
  inb_S9x32x70_S1x32x70_3_0_0 : ∀ a, (![3, 0, 0] : Fin 3 → Nat) a + S1x32x70.size a ≤ S9x32x70.size a
  inb_S9x3x128_S1x1x128_3_0_0 : ∀ a, (![3, 0, 0] : Fin 3 → Nat) a + S1x1x128.size a ≤ S9x3x128.size a
  inb_S9x3x128_S1x1x128_3_1_0 : ∀ a, (![3, 1, 0] : Fin 3 → Nat) a + S1x1x128.size a ≤ S9x3x128.size a
  inb_S9x3x128_S1x1x128_3_2_0 : ∀ a, (![3, 2, 0] : Fin 3 → Nat) a + S1x1x128.size a ≤ S9x3x128.size a
  inb_S9x32x70_S1x32x70_4_0_0 : ∀ a, (![4, 0, 0] : Fin 3 → Nat) a + S1x32x70.size a ≤ S9x32x70.size a
  inb_S9x3x128_S1x1x128_4_0_0 : ∀ a, (![4, 0, 0] : Fin 3 → Nat) a + S1x1x128.size a ≤ S9x3x128.size a
  inb_S9x3x128_S1x1x128_4_1_0 : ∀ a, (![4, 1, 0] : Fin 3 → Nat) a + S1x1x128.size a ≤ S9x3x128.size a
  inb_S9x3x128_S1x1x128_4_2_0 : ∀ a, (![4, 2, 0] : Fin 3 → Nat) a + S1x1x128.size a ≤ S9x3x128.size a
  inb_S66x66x32_S64x64x32_1_2_0 : ∀ a, (![1, 2, 0] : Fin 3 → Nat) a + S64x64x32.size a ≤ S66x66x32.size a
  inb_S9x32x70_S1x32x70_5_0_0 : ∀ a, (![5, 0, 0] : Fin 3 → Nat) a + S1x32x70.size a ≤ S9x32x70.size a
  inb_S9x3x128_S1x1x128_5_0_0 : ∀ a, (![5, 0, 0] : Fin 3 → Nat) a + S1x1x128.size a ≤ S9x3x128.size a
  inb_S9x3x128_S1x1x128_5_1_0 : ∀ a, (![5, 1, 0] : Fin 3 → Nat) a + S1x1x128.size a ≤ S9x3x128.size a
  inb_S9x3x128_S1x1x128_5_2_0 : ∀ a, (![5, 2, 0] : Fin 3 → Nat) a + S1x1x128.size a ≤ S9x3x128.size a
  inb_S66x66x32_S64x64x32_2_0_0 : ∀ a, (![2, 0, 0] : Fin 3 → Nat) a + S64x64x32.size a ≤ S66x66x32.size a
  inb_S9x32x70_S1x32x70_6_0_0 : ∀ a, (![6, 0, 0] : Fin 3 → Nat) a + S1x32x70.size a ≤ S9x32x70.size a
  inb_S9x3x128_S1x1x128_6_0_0 : ∀ a, (![6, 0, 0] : Fin 3 → Nat) a + S1x1x128.size a ≤ S9x3x128.size a
  inb_S9x3x128_S1x1x128_6_1_0 : ∀ a, (![6, 1, 0] : Fin 3 → Nat) a + S1x1x128.size a ≤ S9x3x128.size a
  inb_S9x3x128_S1x1x128_6_2_0 : ∀ a, (![6, 2, 0] : Fin 3 → Nat) a + S1x1x128.size a ≤ S9x3x128.size a
  inb_S66x66x32_S64x64x32_2_1_0 : ∀ a, (![2, 1, 0] : Fin 3 → Nat) a + S64x64x32.size a ≤ S66x66x32.size a
  inb_S9x32x70_S1x32x70_7_0_0 : ∀ a, (![7, 0, 0] : Fin 3 → Nat) a + S1x32x70.size a ≤ S9x32x70.size a
  inb_S9x3x128_S1x1x128_7_0_0 : ∀ a, (![7, 0, 0] : Fin 3 → Nat) a + S1x1x128.size a ≤ S9x3x128.size a
  inb_S9x3x128_S1x1x128_7_1_0 : ∀ a, (![7, 1, 0] : Fin 3 → Nat) a + S1x1x128.size a ≤ S9x3x128.size a
  inb_S9x3x128_S1x1x128_7_2_0 : ∀ a, (![7, 2, 0] : Fin 3 → Nat) a + S1x1x128.size a ≤ S9x3x128.size a
  inb_S66x66x32_S64x64x32_2_2_0 : ∀ a, (![2, 2, 0] : Fin 3 → Nat) a + S64x64x32.size a ≤ S66x66x32.size a
  inb_S9x32x70_S1x32x70_8_0_0 : ∀ a, (![8, 0, 0] : Fin 3 → Nat) a + S1x32x70.size a ≤ S9x32x70.size a
  inb_S9x3x128_S1x1x128_8_0_0 : ∀ a, (![8, 0, 0] : Fin 3 → Nat) a + S1x1x128.size a ≤ S9x3x128.size a
  inb_S9x3x128_S1x1x128_8_1_0 : ∀ a, (![8, 1, 0] : Fin 3 → Nat) a + S1x1x128.size a ≤ S9x3x128.size a
  inb_S9x3x128_S1x1x128_8_2_0 : ∀ a, (![8, 2, 0] : Fin 3 → Nat) a + S1x1x128.size a ≤ S9x3x128.size a
  slices_S64x64x12_o0_0_0_S64x64x10 : S64x64x12.Slices ![0, 0, 0] S64x64x10
  slices_S64x64x70_o0_0_0_S64x64x10 : S64x64x70.Slices ![0, 0, 0] S64x64x10
  slices_S64x64x70_o0_0_10_S64x64x10 : S64x64x70.Slices ![0, 0, 10] S64x64x10
  slices_S64x64x70_o0_0_20_S64x64x10 : S64x64x70.Slices ![0, 0, 20] S64x64x10
  slices_S64x64x70_o0_0_30_S64x64x10 : S64x64x70.Slices ![0, 0, 30] S64x64x10
  slices_S64x64x70_o0_0_40_S64x64x10 : S64x64x70.Slices ![0, 0, 40] S64x64x10
  slices_S64x64x70_o0_0_50_S64x64x10 : S64x64x70.Slices ![0, 0, 50] S64x64x10
  slices_S64x64x70_o0_0_60_S64x64x10 : S64x64x70.Slices ![0, 0, 60] S64x64x10
  inb_S1x10_S1x10_0_0 : ∀ a, (![0, 0] : Fin 2 → Nat) a + S1x10.size a ≤ S1x10.size a
  h_S1x10 : 0 < S1x10.numel
  shapeCasts_S1x10_S10 : S1x10.ShapeCasts S10
  broadcasts_S64x64x1_S64x64x10 : S64x64x1.Broadcasts S64x64x10
  shapeCasts_S10_S1x1x10 : S10.ShapeCasts S1x1x10
  broadcasts_S1x1x10_S64x64x10 : S1x1x10.Broadcasts S64x64x10
  concatenates_S64x64x10_S64x64x10_S64x64x10_S64x64x10_S64x64x10_S64x64x10_S64x64x10_S64x64x10_S64x64x80_d2 : Shape.Concatenates [S64x64x10, S64x64x10, S64x64x10, S64x64x10, S64x64x10, S64x64x10, S64x64x10, S64x64x10] S64x64x80 2
  inb_S1x64x64x80_S1x64x64x80_0_0_0_0 : ∀ a, (![0, 0, 0, 0] : Fin 4 → Nat) a + S1x64x64x80.size a ≤ S1x64x64x80.size a
  h_S1x64x64x80 : 0 < S1x64x64x80.numel
  shapeCasts_S1x64x64x80_S64x64x80 : S1x64x64x80.ShapeCasts S64x64x80
  shapeCasts_S64x64x80_S1x64x64x80 : S64x64x80.ShapeCasts S1x64x64x80
  dot_S4096x32_S32x70_S4096x70_1_0_0_1_n_n_wf : DotDims.WF S4096x32 S32x70 S4096x70 [1] [0] [0] [1] [] []
  dot_S4096x128_S128x4_S4096x4_1_0_0_1_n_n_wf : DotDims.WF S4096x128 S128x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x32.size a ≤ S8x64x64x32.size a
  hwx0_0 : ∀ i : grid0.Coords, EltTy.bits .f32 = 32 ∨ (Rect.block (s := S8x64x64x32) S1x64x64x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x32x70.size a ≤ S9x32x70.size a
  hwx0_1 : ∀ i : grid0.Coords, EltTy.bits .f32 = 32 ∨ (Rect.block (s := S9x32x70) S9x32x70.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x3x128.size a ≤ S9x3x128.size a
  hwx0_2 : ∀ i : grid0.Coords, EltTy.bits .f32 = 32 ∨ (Rect.block (s := S9x3x128) S9x3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x4.size a ≤ S128x4.size a
  hwx0_3 : ∀ i : grid0.Coords, EltTy.bits .f32 = 32 ∨ (Rect.block (s := S128x4) S128x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x10.size a ≤ S1x10.size a
  hwx0_5 : ∀ i : grid0.Coords, EltTy.bits .f32 = 32 ∨ (Rect.block (s := S1x10) S1x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x64x80.size a ≤ S8x64x64x80.size a
  hwx0_6 : ∀ i : grid0.Coords, EltTy.bits .f32 = 32 ∨ (Rect.block (s := S8x64x64x80) S1x64x64x80.size (cc0_transform_6 i) (hinb0_6 i)).WholeWords (EltTy.packing .f32)

variable [Facts₀]

def dot_S4096x32_S32x70_S4096x70_1_0_0_1_n_n : DotDims S4096x32 S32x70 S4096x70 where
  lhsContracting := [1]
  rhsContracting := [0]
  lhsNonContracting := [0]
  rhsNonContracting := [1]
  lhsBatch := []
  rhsBatch := []
  wf := dot_S4096x32_S32x70_S4096x70_1_0_0_1_n_n_wf
def dot_S4096x128_S128x4_S4096x4_1_0_0_1_n_n : DotDims S4096x128 S128x4 S4096x4 where
  lhsContracting := [1]
  rhsContracting := [0]
  lhsNonContracting := [0]
  rhsNonContracting := [1]
  lhsBatch := []
  rhsBatch := []
  wf := dot_S4096x128_S128x4_S4096x4_1_0_0_1_n_n_wf

abbrev win0_0 : Pipeline.Window sig grid0 :=
  Pipeline.Window.ofSpec (Memref.whole main_arg0) S1x64x64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S9x32x70.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S9x3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x64x64x80.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x64x64x32 : Shape := ⟨4, ![8, 64, 64, 32]⟩
abbrev S288x10 : Shape := ⟨2, ![288, 10]⟩
abbrev S_ : Shape := ⟨0, ![]⟩
abbrev S8x66x66x32 : Shape := ⟨4, ![8, 66, 66, 32]⟩
abbrev S8x64x64x288 : Shape := ⟨4, ![8, 64, 64, 288]⟩
abbrev S8x64x64 : Shape := ⟨3, ![8, 64, 64]⟩
abbrev S8x64x64x1 : Shape := ⟨4, ![8, 64, 64, 1]⟩
abbrev S8x64x64x10 : Shape := ⟨4, ![8, 64, 64, 10]⟩
abbrev S8x64x64x288x1 : Shape := ⟨5, ![8, 64, 64, 288, 1]⟩
abbrev S1x1x1x288x10 : Shape := ⟨5, ![1, 1, 1, 288, 10]⟩
abbrev S8x64x64x288x10 : Shape := ⟨5, ![8, 64, 64, 288, 10]⟩
abbrev S10 : Shape := ⟨1, ![10]⟩
abbrev S1x1x1x10 : Shape := ⟨4, ![1, 1, 1, 10]⟩
abbrev S8x64x64x80 : Shape := ⟨4, ![8, 64, 64, 80]⟩

abbrev nBuf : Space → Nat
  | .hbm => 94
  | .vmem => 0
  | .smem => 0
  | _ => 0

abbrev bufTy : (tb : Table) → Fin (tcTables nBuf tb) → BufTy
  | .hbm, ⟨0, _⟩ => ⟨S8x64x64x32, .f32⟩
  | .hbm, ⟨1, _⟩ => ⟨S288x10, .f32⟩
  | .hbm, ⟨2, _⟩ => ⟨S288x10, .f32⟩
  | .hbm, ⟨3, _⟩ => ⟨S288x10, .f32⟩
  | .hbm, ⟨4, _⟩ => ⟨S288x10, .f32⟩
  | .hbm, ⟨5, _⟩ => ⟨S288x10, .f32⟩
  | .hbm, ⟨6, _⟩ => ⟨S288x10, .f32⟩
  | .hbm, ⟨7, _⟩ => ⟨S288x10, .f32⟩
  | .hbm, ⟨8, _⟩ => ⟨S288x10, .f32⟩
  | .hbm, ⟨9, _⟩ => ⟨S_, .i32⟩
  | .hbm, ⟨10, _⟩ => ⟨S_, .f32⟩
  | .hbm, ⟨11, _⟩ => ⟨S8x66x66x32, .f32⟩
  | .hbm, ⟨12, _⟩ => ⟨S8x64x64x32, .f32⟩
  | .hbm, ⟨13, _⟩ => ⟨S8x64x64x32, .f32⟩
  | .hbm, ⟨14, _⟩ => ⟨S8x64x64x32, .f32⟩
  | .hbm, ⟨15, _⟩ => ⟨S8x64x64x32, .f32⟩
  | .hbm, ⟨16, _⟩ => ⟨S8x64x64x32, .f32⟩
  | .hbm, ⟨17, _⟩ => ⟨S8x64x64x32, .f32⟩
  | .hbm, ⟨18, _⟩ => ⟨S8x64x64x32, .f32⟩
  | .hbm, ⟨19, _⟩ => ⟨S8x64x64x32, .f32⟩
  | .hbm, ⟨20, _⟩ => ⟨S8x64x64x32, .f32⟩
  | .hbm, ⟨21, _⟩ => ⟨S8x64x64x288, .f32⟩
  | .hbm, ⟨22, _⟩ => ⟨S8x64x64x288, .f32⟩
  | .hbm, ⟨23, _⟩ => ⟨S_, .f32⟩
  | .hbm, ⟨24, _⟩ => ⟨S8x64x64, .f32⟩
  | .hbm, ⟨25, _⟩ => ⟨S8x64x64x1, .f32⟩
  | .hbm, ⟨26, _⟩ => ⟨S8x64x64x10, .f32⟩
  | .hbm, ⟨27, _⟩ => ⟨S8x64x64x288x1, .f32⟩
  | .hbm, ⟨28, _⟩ => ⟨S1x1x1x288x10, .f32⟩
  | .hbm, ⟨29, _⟩ => ⟨S8x64x64x288x10, .f32⟩
  | .hbm, ⟨30, _⟩ => ⟨S8x64x64x288x10, .f32⟩
  | .hbm, ⟨31, _⟩ => ⟨S8x64x64x288x10, .f32⟩
  | .hbm, ⟨32, _⟩ => ⟨S8x64x64x288x10, .f32⟩
  | .hbm, ⟨33, _⟩ => ⟨S_, .f32⟩
  | .hbm, ⟨34, _⟩ => ⟨S8x64x64x10, .f32⟩
  | .hbm, ⟨35, _⟩ => ⟨S8x64x64x10, .f32⟩
  | .hbm, ⟨36, _⟩ => ⟨S_, .f32⟩
  | .hbm, ⟨37, _⟩ => ⟨S8x64x64x10, .f32⟩
  | .hbm, ⟨38, _⟩ => ⟨S8x64x64x10, .f32⟩
  | .hbm, ⟨39, _⟩ => ⟨S8x64x64x10, .f32⟩
  | .hbm, ⟨40, _⟩ => ⟨S8x64x64x10, .f32⟩
  | .hbm, ⟨41, _⟩ => ⟨S288x10, .f32⟩
  | .hbm, ⟨42, _⟩ => ⟨S_, .f32⟩
  | .hbm, ⟨43, _⟩ => ⟨S10, .f32⟩
  | .hbm, ⟨44, _⟩ => ⟨S1x1x1x10, .f32⟩
  | .hbm, ⟨45, _⟩ => ⟨S8x64x64x10, .f32⟩
  | .hbm, ⟨46, _⟩ => ⟨S8x64x64x10, .f32⟩
  | .hbm, ⟨47, _⟩ => ⟨S_, .f32⟩
  | .hbm, ⟨48, _⟩ => ⟨S8x64x64x10, .f32⟩
  | .hbm, ⟨49, _⟩ => ⟨S8x64x64x10, .f32⟩
  | .hbm, ⟨50, _⟩ => ⟨S8x64x64x10, .f32⟩
  | .hbm, ⟨51, _⟩ => ⟨S8x64x64x10, .f32⟩
  | .hbm, ⟨52, _⟩ => ⟨S8x64x64x10, .f32⟩
  | .hbm, ⟨53, _⟩ => ⟨S8x64x64x10, .f32⟩
  | .hbm, ⟨54, _⟩ => ⟨S_, .f32⟩
  | .hbm, ⟨55, _⟩ => ⟨S8x64x64x10, .f32⟩
  | .hbm, ⟨56, _⟩ => ⟨S8x64x64x10, .f32⟩
  | .hbm, ⟨57, _⟩ => ⟨S8x64x64x10, .f32⟩
  | .hbm, ⟨58, _⟩ => ⟨S8x64x64x10, .f32⟩
  | .hbm, ⟨59, _⟩ => ⟨S288x10, .f32⟩
  | .hbm, ⟨60, _⟩ => ⟨S_, .f32⟩
  | .hbm, ⟨61, _⟩ => ⟨S10, .f32⟩
  | .hbm, ⟨62, _⟩ => ⟨S1x1x1x10, .f32⟩
  | .hbm, ⟨63, _⟩ => ⟨S8x64x64x10, .f32⟩
  | .hbm, ⟨64, _⟩ => ⟨S8x64x64x10, .f32⟩
  | .hbm, ⟨65, _⟩ => ⟨S_, .f32⟩
  | .hbm, ⟨66, _⟩ => ⟨S8x64x64x10, .f32⟩
  | .hbm, ⟨67, _⟩ => ⟨S8x64x64x10, .f32⟩
  | .hbm, ⟨68, _⟩ => ⟨S_, .f32⟩
  | .hbm, ⟨69, _⟩ => ⟨S8x64x64x10, .f32⟩
  | .hbm, ⟨70, _⟩ => ⟨S8x64x64x10, .f32⟩
  | .hbm, ⟨71, _⟩ => ⟨S8x64x64x10, .f32⟩
  | .hbm, ⟨72, _⟩ => ⟨S8x64x64x10, .f32⟩
  | .hbm, ⟨73, _⟩ => ⟨S_, .f32⟩
  | .hbm, ⟨74, _⟩ => ⟨S8x64x64x10, .f32⟩
  | .hbm, ⟨75, _⟩ => ⟨S8x64x64x10, .f32⟩
  | .hbm, ⟨76, _⟩ => ⟨S_, .f32⟩
  | .hbm, ⟨77, _⟩ => ⟨S8x64x64x10, .f32⟩
  | .hbm, ⟨78, _⟩ => ⟨S8x64x64x10, .f32⟩
  | .hbm, ⟨79, _⟩ => ⟨S8x64x64x10, .f32⟩
  | .hbm, ⟨80, _⟩ => ⟨S_, .f32⟩
  | .hbm, ⟨81, _⟩ => ⟨S8x64x64x10, .f32⟩
  | .hbm, ⟨82, _⟩ => ⟨S8x64x64x10, .f32⟩
  | .hbm, ⟨83, _⟩ => ⟨S_, .f32⟩
  | .hbm, ⟨84, _⟩ => ⟨S8x64x64x10, .f32⟩
  | .hbm, ⟨85, _⟩ => ⟨S8x64x64x10, .f32⟩
  | .hbm, ⟨86, _⟩ => ⟨S8x64x64x10, .f32⟩
  | .hbm, ⟨87, _⟩ => ⟨S_, .f32⟩
  | .hbm, ⟨88, _⟩ => ⟨S8x64x64x10, .f32⟩
  | .hbm, ⟨89, _⟩ => ⟨S8x64x64x10, .f32⟩
  | .hbm, ⟨90, _⟩ => ⟨S_, .f32⟩
  | .hbm, ⟨91, _⟩ => ⟨S8x64x64x10, .f32⟩
  | .hbm, ⟨92, _⟩ => ⟨S8x64x64x10, .f32⟩
  | .hbm, ⟨93, _⟩ => ⟨S8x64x64x80, .f32⟩
  | _, _ => ⟨S8x64x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]

class Facts₀ : Prop where
  pads_S8x64x64x32_S8x66x66x32_000_110_110_000 : S8x64x64x32.Pads (![0, 1, 1, 0] : Fin 4 → Nat) ![0, 1, 1, 0] ![0, 0, 0, 0] S8x66x66x32
  h_S_ : 0 < S_.numel
  slices_S8x66x66x32_S8x64x64x32_0_0_0_0 : S8x66x66x32.Slices ![0, 0, 0, 0] S8x64x64x32
  slices_S8x66x66x32_S8x64x64x32_0_0_1_0 : S8x66x66x32.Slices ![0, 0, 1, 0] S8x64x64x32
  slices_S8x66x66x32_S8x64x64x32_0_0_2_0 : S8x66x66x32.Slices ![0, 0, 2, 0] S8x64x64x32
  slices_S8x66x66x32_S8x64x64x32_0_1_0_0 : S8x66x66x32.Slices ![0, 1, 0, 0] S8x64x64x32
  slices_S8x66x66x32_S8x64x64x32_0_1_1_0 : S8x66x66x32.Slices ![0, 1, 1, 0] S8x64x64x32
  slices_S8x66x66x32_S8x64x64x32_0_1_2_0 : S8x66x66x32.Slices ![0, 1, 2, 0] S8x64x64x32
  slices_S8x66x66x32_S8x64x64x32_0_2_0_0 : S8x66x66x32.Slices ![0, 2, 0, 0] S8x64x64x32
  slices_S8x66x66x32_S8x64x64x32_0_2_1_0 : S8x66x66x32.Slices ![0, 2, 1, 0] S8x64x64x32
  slices_S8x66x66x32_S8x64x64x32_0_2_2_0 : S8x66x66x32.Slices ![0, 2, 2, 0] S8x64x64x32
  concatenates_S8x64x64x32_S8x64x64x32_S8x64x64x32_S8x64x64x32_S8x64x64x32_S8x64x64x32_S8x64x64x32_S8x64x64x32_S8x64x64x32_S8x64x64x288_d3 : Shape.Concatenates [S8x64x64x32, S8x64x64x32, S8x64x64x32, S8x64x64x32, S8x64x64x32, S8x64x64x32, S8x64x64x32, S8x64x64x32, S8x64x64x32] S8x64x64x288 3
  reducesTo_S8x64x64x288_S8x64x64_d3 : S8x64x64x288.ReducesTo [3] S8x64x64
  bcast_S8x64x64_S8x64x64x1_0_1_2 : S8x64x64.BroadcastsInDim S8x64x64x1 (![0, 1, 2] : Fin 3 → Fin S8x64x64x1.rank)
  bcast_S8x64x64x288_S8x64x64x288x1_0_1_2_3 : S8x64x64x288.BroadcastsInDim S8x64x64x288x1 (![0, 1, 2, 3] : Fin 4 → Fin S8x64x64x288x1.rank)
  bcast_S288x10_S1x1x1x288x10_3_4 : S288x10.BroadcastsInDim S1x1x1x288x10 (![3, 4] : Fin 2 → Fin S1x1x1x288x10.rank)
  bcast_S8x64x64x288x1_S8x64x64x288x10_0_1_2_3_4 : S8x64x64x288x1.BroadcastsInDim S8x64x64x288x10 (![0, 1, 2, 3, 4] : Fin 5 → Fin S8x64x64x288x10.rank)
  bcast_S1x1x1x288x10_S8x64x64x288x10_0_1_2_3_4 : S1x1x1x288x10.BroadcastsInDim S8x64x64x288x10 (![0, 1, 2, 3, 4] : Fin 5 → Fin S8x64x64x288x10.rank)
  reducesTo_S8x64x64x288x10_S8x64x64x10_d3 : S8x64x64x288x10.ReducesTo [3] S8x64x64x10
  bcast_S_S8x64x64x10 : S_.BroadcastsInDim S8x64x64x10 (![] : Fin 0 → Fin S8x64x64x10.rank)
  bcast_S8x64x64x1_S8x64x64x10_0_1_2_3 : S8x64x64x1.BroadcastsInDim S8x64x64x10 (![0, 1, 2, 3] : Fin 4 → Fin S8x64x64x10.rank)
  reducesTo_S288x10_S10_d0 : S288x10.ReducesTo [0] S10
  bcast_S10_S1x1x1x10_3 : S10.BroadcastsInDim S1x1x1x10 (![3] : Fin 1 → Fin S1x1x1x10.rank)
  bcast_S1x1x1x10_S8x64x64x10_0_1_2_3 : S1x1x1x10.BroadcastsInDim S8x64x64x10 (![0, 1, 2, 3] : Fin 4 → Fin S8x64x64x10.rank)
  concatenates_S8x64x64x10_S8x64x64x10_S8x64x64x10_S8x64x64x10_S8x64x64x10_S8x64x64x10_S8x64x64x10_S8x64x64x10_S8x64x64x80_d3 : Shape.Concatenates [S8x64x64x10, S8x64x64x10, S8x64x64x10, S8x64x64x10, S8x64x64x10, S8x64x64x10, S8x64x64x10, S8x64x64x10] S8x64x64x80 3
  dot_S8x64x64x288_S288x10_S8x64x64x10_3_0_012_1_n_n_wf : DotDims.WF S8x64x64x288 S288x10 S8x64x64x10 [3] [0] [0, 1, 2] [1] [] []

variable [Facts₀]

def dot_S8x64x64x288_S288x10_S8x64x64x10_3_0_012_1_n_n : DotDims S8x64x64x288 S288x10 S8x64x64x10 where
  lhsContracting := [3]
  rhsContracting := [0]
  lhsNonContracting := [0, 1, 2]
  rhsNonContracting := [1]
  lhsBatch := []
  rhsBatch := []
  wf := dot_S8x64x64x288_S288x10_S8x64x64x10_3_0_012_1_n_n_wf

class Facts : Prop extends Facts₀ where

variable [Facts]
-- ==== Proof.BitsEntry.lean ====
/-
  The program up to its one region, and what the region finds.

  Before the region the program only rearranges the filters: it reshapes the seven linear filter banks to 9×32×10 and
  concatenates them to 9×32×70, pads, reshapes and transposes the eighth bank into three 128-lane groups per offset,
  builds the 128×4 selector of lane groups from an iota, and sums the squares of two banks over their 288 rows. None
  of these operations writes an argument array, so the region finds the nine arguments as launched; each input
  window's staging buffer holds its block of the array the region finds at every grid point; and a run ending in the
  launch theorem's post leaves the nine arguments unchanged.
-/
import proofs.«416126_j12043088298095_3_alg».proof.Proof.Gen.Kernel.Launch
import proofs.«416126_j12043088298095_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after the six stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

/-- The program is the six stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- From a run ending in the launch theorem's post, for proof data whose arrays are the region-entry contents: every
    argument array ends as launched (the image by the staged-input clause, the filter banks — staged by no window —
    by the bypass clause). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

end Cert.Kernel.Entry

end
-- ==== Proof.BitsPointRun.lean ====
/-
  One grid point of the convolution-bank kernel, run once on symbolic whole staging memrefs.

  The point's body pads one image (66×66×32, a zero border around the 64×64×32 block), and for each of the
  nine 3×3 offsets adds to three accumulators: the window's squared norm per pixel, the window's product with
  the 32×70 slab of the seven packed linear filters, and — lane-tiled four times, in three groups — the sum of
  absolute differences against four filters at once through a 0/1 selector product. It then slices the
  accumulators into the eight branches, applies each branch's pointwise function and stores the 64×64×80 block.

  Stated here: from the six input buffers at their contents and the output and scratch buffers at anything, the
  body runs to its return, faulting nowhere, the inputs as they were, the scratch at something, and the output
  buffer overwritten by the pieces the run finds (the witness).
-/
import proofs.«416126_j12043088298095_3_alg».proof.Proof.Gen.Kernel.Launch
import proofs.«416126_j12043088298095_3_alg».proof.Proof.Gen.Kernel.Skeleton
import proofs.«416126_j12043088298095_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Point

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging memref (last first), with the proof that the body
    runs from the inputs at `x0 … x5`, the output and the three scratch buffers at anything. -/
noncomputable def pointRun (c : Dev nD) (i : grid0.Coords) (arg1 : Memref sig .tc .vmem S1x64x64x32 .f32) (harg1 : arg1.IsWhole) (arg2 : Memref sig .tc .vmem S9x32x70 .f32) (harg2 : arg2.IsWhole) (arg3 : Memref sig .tc .vmem S9x3x128 .f32) (harg3 : arg3.IsWhole) (arg4 : Memref sig .tc .vmem S128x4 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S1x64x64x80 .f32) (harg7 : arg7.IsWhole) (arg8 : Memref sig .tc .vmem S66x66x32 .f32) (harg8 : arg8.IsWhole) (arg9 : Memref sig .tc .vmem S64x64x70 .f32) (harg9 : arg9.IsWhole) (arg10 : Memref sig .tc .vmem S64x64x12 .f32) (harg10 : arg10.IsWhole)
    (x0 : Vec F S1x64x64x32 .f32) (x1 : Vec F S9x32x70 .f32) (x2 : Vec F S9x3x128 .f32) (x3 : Vec F S128x4 .f32) (x4 : Vec F S1x10 .f32) (x5 : Vec F S1x10 .f32) :
    { L7 : List (View.Piece (Elt F) S1x64x64x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7)
                ∗ (∃ d, owns (c : Thread nD τ) arg8 fullShare d) ∗ (∃ d, owns (c : Thread nD τ) arg9 fullShare d)
                ∗ (∃ d, owns (c : Thread nD τ) arg10 fullShare d)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%d6, %f6, -, H6⟩, ⟨%d7, %f7, -, H7⟩, ⟨%d8, %f8, -, H8⟩, ⟨%d9, %f9, -, H9⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.Kernel.Point

end
-- ==== Proof.BitsLaunch.lean ====
/-
  The launch: the pipeline's proof data over the point's run, the body obligation at every grid point, and the run of
  the whole program.

  The grid has eight points, one image each. At every point the six input windows' staging buffers hold their blocks
  (the image block fetched there, the five filter arrays fetched once and unchanged since), the body runs as one point
  does, and leaves in the output window's buffer the block its stores cover it with; the three scratch buffers and
  the generator register are the region's invariant, borrowed at each point at whatever they hold and returned at
  something. The library's launch theorem then gives: every weakly fair execution of the program terminates, nothing
  faulting; the output array ends at the blocks written back; every other unscoped buffer as the region found it.
-/
import proofs.«416126_j12043088298095_3_alg».proof.Proof.BitsEntry
import proofs.«416126_j12043088298095_3_alg».proof.Proof.BitsPointRun

set_option maxRecDepth 16384

noncomputable section

namespace Cert.Kernel.Launch

open Cert.Kernel Cert.Kernel.Gen Cert.Kernel.Entry Cert.Kernel.Point
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The point's run at a grid point -/

/-- Each window's current staging memref at point `t`, as the pipeline passes it to the body, and its wholeness. -/
abbrev ms0 (t : Fin cfg0.N) : Memref sig .tc .vmem S1x64x64x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S9x32x70 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S9x3x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x4 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x10 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x10 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64x64x80 .f32 := win0_6.stage (cfg0.slots t 6)
abbrev hs6 (t : Fin cfg0.N) : (ms6 t).IsWhole := hstage0_6 ((cfg0.slots t 6).cast nbuf0_6)

/-- The body's run at point `t`: on the point's staging memrefs and the three scratch buffers, from the input blocks. -/
abbrev runAt (c : Dev nD) (t : Fin cfg0.N) :=
  pointRun (F := F) c (grid0.coords t) (ms0 t) (hs0 t) (ms1 t) (hs1 t) (ms2 t) (hs2 t) (ms3 t) (hs3 t) (ms4 t) (hs4 t) (ms5 t) (hs5 t) (ms6 t) (hs6 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t)

/-- The run's one store covers the output block. -/
theorem cover6 (c : Dev nD) (t : Fin cfg0.N) (y : S1x64x64x80.Idx) : ∃ pc ∈ (runAt m c t).1, y ∈ pc.1.set :=
  View.cover_of_tiledL (runAt m c t).1 S1x64x64x80.size (by sl_kernel_rfl) y

/-- What point `t` leaves in the output window's staging buffer. -/
def out6 (c : Dev nD) (t : Fin cfg0.N) : Vec F S1x64x64x80 .f32 := View.canon (runAt m c t).1

/-! ## A scratch buffer between the invariant's form and the body's -/

/-- A scratch buffer held whole at something is owned through its whole memref at something, -/
theorem scratch_lend (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole_eq]
  iintro ⟨%f, H⟩
  iexists f; iexists f
  isplitr; · ipureintro; rfl
  iexact H

/-- and back. -/
theorem scratch_return (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole_eq]
  iintro ⟨%d, %f, -, H⟩
  iexists f; iexact H

/-! ## The pipeline's proof data -/

/-- The proof data of the one pipeline on core `c`: the arrays as the region finds them; after the body at point `t`
    each input's buffer at its block and the output's at what the point's stores leave; the invariant the scratch
    buffers and the generator register at something; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 2000000 in
/-- The body at any point: the inputs' memrefs hold their blocks, the scratch buffers and the generator register are
    taken out of the invariant at something, the point's run applies, and the invariant is put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl]
  unfold Pipeline.ΦA
  rw [scopedRest0_eq]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iapply (scratch_lend c cc0_scratch0); iexact S0
  isplitl [S1]; · iapply (scratch_lend c cc0_scratch1); iexact S1
  isplitl [S2]; · iapply (scratch_lend c cc0_scratch2); iexact S2
  iintro ⟨H0, H1, H2, H3, H4, H5, ⟨%e6, H6⟩, S0, S1, S2⟩
  isplitl [S0 S1 S2 Hg]
  · isplitr [Hg]
    · isplitl [S0]; · iapply (scratch_return c cc0_scratch0); iexact S0
      isplitl [S1]; · iapply (scratch_return c cc0_scratch1); iexact S1
      iapply (scratch_return c cc0_scratch2); iexact S2
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; unfold out6; exact View.read_writes_eq_canon _ _ _ (cover6 m c t)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Launch

end
-- ==== Proof.IdealEntry.lean ====
/-
  The program up to its one region, and what the region finds.

  Before the region the program only rearranges the filters: it reshapes the seven linear filter banks to 9×32×10 and
  concatenates them to 9×32×70, pads, reshapes and transposes the eighth bank into three 128-lane groups per offset,
  builds the 128×4 selector of lane groups from an iota, and sums the squares of two banks over their 288 rows. None
  of these operations writes an argument array, so the region finds the nine arguments as launched; each input
  window's staging buffer holds its block of the array the region finds at every grid point; and a run ending in the
  launch theorem's post leaves the nine arguments unchanged.
-/
import proofs.«416126_j12043088298095_3_alg».proof.Proof.Gen.KernelIdeal.Launch
import proofs.«416126_j12043088298095_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after the six stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

/-- The program is the six stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- From a run ending in the launch theorem's post, for proof data whose arrays are the region-entry contents: every
    argument array ends as launched (the image by the staged-input clause, the filter banks — staged by no window —
    by the bypass clause). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

end Cert.KernelIdeal.Entry

end
-- ==== Proof.IdealPointRun.lean ====
/-
  One grid point of the convolution-bank kernel, run once on symbolic whole staging memrefs.

  The point's body pads one image (66×66×32, a zero border around the 64×64×32 block), and for each of the
  nine 3×3 offsets adds to three accumulators: the window's squared norm per pixel, the window's product with
  the 32×70 slab of the seven packed linear filters, and — lane-tiled four times, in three groups — the sum of
  absolute differences against four filters at once through a 0/1 selector product. It then slices the
  accumulators into the eight branches, applies each branch's pointwise function and stores the 64×64×80 block.

  Stated here: from the six input buffers at their contents and the output and scratch buffers at anything, the
  body runs to its return, faulting nowhere, the inputs as they were, the scratch at something, and the output
  buffer overwritten by the pieces the run finds (the witness).
-/
import proofs.«416126_j12043088298095_3_alg».proof.Proof.Gen.KernelIdeal.Launch
import proofs.«416126_j12043088298095_3_alg».proof.Proof.Gen.KernelIdeal.Skeleton
import proofs.«416126_j12043088298095_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Point

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging memref (last first), with the proof that the body
    runs from the inputs at `x0 … x5`, the output and the three scratch buffers at anything. -/
noncomputable def pointRun (c : Dev nD) (i : grid0.Coords) (arg1 : Memref sig .tc .vmem S1x64x64x32 .f32) (harg1 : arg1.IsWhole) (arg2 : Memref sig .tc .vmem S9x32x70 .f32) (harg2 : arg2.IsWhole) (arg3 : Memref sig .tc .vmem S9x3x128 .f32) (harg3 : arg3.IsWhole) (arg4 : Memref sig .tc .vmem S128x4 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S1x64x64x80 .f32) (harg7 : arg7.IsWhole) (arg8 : Memref sig .tc .vmem S66x66x32 .f32) (harg8 : arg8.IsWhole) (arg9 : Memref sig .tc .vmem S64x64x70 .f32) (harg9 : arg9.IsWhole) (arg10 : Memref sig .tc .vmem S64x64x12 .f32) (harg10 : arg10.IsWhole)
    (x0 : Vec F S1x64x64x32 .f32) (x1 : Vec F S9x32x70 .f32) (x2 : Vec F S9x3x128 .f32) (x3 : Vec F S128x4 .f32) (x4 : Vec F S1x10 .f32) (x5 : Vec F S1x10 .f32) :
    { L7 : List (View.Piece (Elt F) S1x64x64x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7)
                ∗ (∃ d, owns (c : Thread nD τ) arg8 fullShare d) ∗ (∃ d, owns (c : Thread nD τ) arg9 fullShare d)
                ∗ (∃ d, owns (c : Thread nD τ) arg10 fullShare d)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%d6, %f6, -, H6⟩, ⟨%d7, %f7, -, H7⟩, ⟨%d8, %f8, -, H8⟩, ⟨%d9, %f9, -, H9⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.KernelIdeal.Point

end
-- ==== Proof.IdealLaunch.lean ====
/-
  The launch: the pipeline's proof data over the point's run, the body obligation at every grid point, and the run of
  the whole program.

  The grid has eight points, one image each. At every point the six input windows' staging buffers hold their blocks
  (the image block fetched there, the five filter arrays fetched once and unchanged since), the body runs as one point
  does, and leaves in the output window's buffer the block its stores cover it with; the three scratch buffers and
  the generator register are the region's invariant, borrowed at each point at whatever they hold and returned at
  something. The library's launch theorem then gives: every weakly fair execution of the program terminates, nothing
  faulting; the output array ends at the blocks written back; every other unscoped buffer as the region found it.
-/
import proofs.«416126_j12043088298095_3_alg».proof.Proof.IdealEntry
import proofs.«416126_j12043088298095_3_alg».proof.Proof.IdealPointRun

set_option maxRecDepth 16384

noncomputable section

namespace Cert.KernelIdeal.Launch

open Cert.KernelIdeal Cert.KernelIdeal.Gen Cert.KernelIdeal.Entry Cert.KernelIdeal.Point
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The point's run at a grid point -/

/-- Each window's current staging memref at point `t`, as the pipeline passes it to the body, and its wholeness. -/
abbrev ms0 (t : Fin cfg0.N) : Memref sig .tc .vmem S1x64x64x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S9x32x70 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S9x3x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x4 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x10 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x10 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64x64x80 .f32 := win0_6.stage (cfg0.slots t 6)
abbrev hs6 (t : Fin cfg0.N) : (ms6 t).IsWhole := hstage0_6 ((cfg0.slots t 6).cast nbuf0_6)

/-- The body's run at point `t`: on the point's staging memrefs and the three scratch buffers, from the input blocks. -/
abbrev runAt (c : Dev nD) (t : Fin cfg0.N) :=
  pointRun (F := F) c (grid0.coords t) (ms0 t) (hs0 t) (ms1 t) (hs1 t) (ms2 t) (hs2 t) (ms3 t) (hs3 t) (ms4 t) (hs4 t) (ms5 t) (hs5 t) (ms6 t) (hs6 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t)

/-- The run's one store covers the output block. -/
theorem cover6 (c : Dev nD) (t : Fin cfg0.N) (y : S1x64x64x80.Idx) : ∃ pc ∈ (runAt m c t).1, y ∈ pc.1.set :=
  View.cover_of_tiledL (runAt m c t).1 S1x64x64x80.size (by sl_kernel_rfl) y

/-- What point `t` leaves in the output window's staging buffer. -/
def out6 (c : Dev nD) (t : Fin cfg0.N) : Vec F S1x64x64x80 .f32 := View.canon (runAt m c t).1

/-! ## A scratch buffer between the invariant's form and the body's -/

/-- A scratch buffer held whole at something is owned through its whole memref at something, -/
theorem scratch_lend (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole_eq]
  iintro ⟨%f, H⟩
  iexists f; iexists f
  isplitr; · ipureintro; rfl
  iexact H

/-- and back. -/
theorem scratch_return (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole_eq]
  iintro ⟨%d, %f, -, H⟩
  iexists f; iexact H

/-! ## The pipeline's proof data -/

/-- The proof data of the one pipeline on core `c`: the arrays as the region finds them; after the body at point `t`
    each input's buffer at its block and the output's at what the point's stores leave; the invariant the scratch
    buffers and the generator register at something; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 2000000 in
/-- The body at any point: the inputs' memrefs hold their blocks, the scratch buffers and the generator register are
    taken out of the invariant at something, the point's run applies, and the invariant is put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl]
  unfold Pipeline.ΦA
  rw [scopedRest0_eq]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iapply (scratch_lend c cc0_scratch0); iexact S0
  isplitl [S1]; · iapply (scratch_lend c cc0_scratch1); iexact S1
  isplitl [S2]; · iapply (scratch_lend c cc0_scratch2); iexact S2
  iintro ⟨H0, H1, H2, H3, H4, H5, ⟨%e6, H6⟩, S0, S1, S2⟩
  isplitl [S0 S1 S2 Hg]
  · isplitr [Hg]
    · isplitl [S0]; · iapply (scratch_return c cc0_scratch0); iexact S0
      isplitl [S1]; · iapply (scratch_return c cc0_scratch1); iexact S1
      iapply (scratch_return c cc0_scratch2); iexact S2
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; unfold out6; exact View.read_writes_eq_canon _ _ _ (cover6 m c t)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Launch

end
-- ==== Proof.ConvSpec.lean ====
/-
  The convolution bank, as mathematics over the extended reals.

  An image is a 64×64×32 array; padded by a one-pixel zero border it is 66×66×32, and its window at offset
  k = 3·i + j (i, j ∈ {0,1,2}) reads the padded image at (h + i, w + j). A filter bank is a 288×10 matrix whose row
  32·k + c multiplies channel c of window k. Eight banks give eighty output channels per pixel:
    bank 1  the plain correlation  Σ_k Σ_c win·f;
    bank 2  the L1 distance        Σ_k Σ_c |win − f|;
    bank 3  the L2 distance        sqrt (max (‖win‖² − 2·(win·f) + ‖f‖²) 0);
    bank 4  tanh of the correlation;
    bank 5  exp (−max (‖win‖² − 2·(win·f) + ‖f‖²) 0);
    banks 6, 7, 8  the cube of (correlation + 1).
  The float literals stay the words the programs print (never evaluated, except the zero word and the exponent 3).
-/
import Idealize.ShloMosaic.PureOps.Ideal
import Idealize.ShloMosaic.Lib.ValueIdx

noncomputable section

namespace Cert.ConvBank

open Idealize.ShloMosaic

/-- One image: row, column, channel. -/
abbrev Img := Fin 64 → Fin 64 → Fin 32 → EReal
/-- One filter bank: row 32·k + c, output channel. -/
abbrev Bank := Fin 288 → Fin 10 → EReal
/-- One filter of a bank laid out by window offset and channel. -/
abbrev Filt := Fin 9 → Fin 32 → EReal

/-- The image with a one-pixel zero border, at padded coordinates `a, b ∈ [0, 66)`. -/
def padAt (x : Img) (a b : ℕ) (c : Fin 32) : EReal :=
  if h : (1 ≤ a ∧ a ≤ 64) ∧ (1 ≤ b ∧ b ≤ 64) then x ⟨a - 1, by omega⟩ ⟨b - 1, by omega⟩ c else 0

/-- Window `k = 3·i + j` of the padded image at pixel `(h, w)`, channel `c`. -/
def win (x : Img) (k : Fin 9) (h w : Fin 64) (c : Fin 32) : EReal :=
  padAt x (h.val + k.val / 3) (w.val + k.val % 3) c

/-- The squared norm of the nine windows at a pixel. -/
def sqSum (x : Img) (h w : Fin 64) : EReal := ∑ k : Fin 9, ∑ c : Fin 32, win x k h w c * win x k h w c

/-- The correlation of the nine windows at a pixel with one filter. -/
def dotW (x : Img) (f : Filt) (h w : Fin 64) : EReal := ∑ k : Fin 9, ∑ c : Fin 32, win x k h w c * f k c

/-- The absolute value as the programs compute it. -/
def absE (t : EReal) : EReal := max t (-t)

/-- The L1 distance of the nine windows at a pixel to one filter. -/
def l1W (x : Img) (f : Filt) (h w : Fin 64) : EReal := ∑ k : Fin 9, ∑ c : Fin 32, absE (win x k h w c - f k c)

/-- Row `32·k + c` of a bank. -/
def row (k : Fin 9) (c : Fin 32) : Fin 288 := ⟨32 * k.val + c.val, by omega⟩

/-- Output channel `j` of a bank as a filter. -/
def col (b : Bank) (j : Fin 10) : Filt := fun k c => b (row k c) j

/-- The squared norm of output channel `j` of a bank. -/
def colSq (b : Bank) (j : Fin 10) : EReal := ∑ r : Fin 288, b r j * b r j

/-- The printed literals: 2.0, 1.0, −1.0, 0.0 and 3.0 as the words the programs carry. -/
def two : EReal := Ideal.ofBits .f32 0x40000000#32
def one : EReal := Ideal.ofBits .f32 0x3F800000#32
def negOne : EReal := Ideal.ofBits .f32 0xBF800000#32
def zeroF : EReal := Ideal.ofBits .f32 0x00000000#32
def three : EReal := Ideal.ofBits .f32 0x40400000#32

/-- The clamped squared distance from its three parts. -/
def sqDist (p l q : EReal) : EReal := max (p - two * l + q) zeroF

/-- The cube as the kernel multiplies it out. -/
def cube (t : EReal) : EReal := t * t * t

/-- Output channel `j` of branch `b` at a pixel, from the pixel's squared norm `p`, its correlation `l` with the
    branch's filter, its L1 distance `d` to it and the filter's squared norm `q` (each branch reads what it needs). -/
def branchOf (b : Fin 8) (p l d q : EReal) : EReal :=
  match b with
  | ⟨0, _⟩ => l
  | ⟨1, _⟩ => d
  | ⟨2, _⟩ => Ideal.sqrt (sqDist p l q)
  | ⟨3, _⟩ => Ideal.tanh l
  | ⟨4, _⟩ => Ideal.exp (negOne * sqDist p l q)
  | _ => cube (l + one)

/-- The eight banks' outputs at a pixel: branch `b`, channel `j`. -/
def outAt (x : Img) (banks : Fin 8 → Bank) (h w : Fin 64) (b : Fin 8) (j : Fin 10) : EReal :=
  branchOf b (sqSum x h w) (dotW x (col (banks b) j) h w) (l1W x (col (banks b) j) h w) (colSq (banks b) j)

/-- Output channel `o ∈ [0, 80)` is channel `o % 10` of branch `o / 10`. -/
def brOf (o : Fin 80) : Fin 8 := ⟨o.val / 10, by omega⟩
def chOf (o : Fin 80) : Fin 10 := ⟨o.val % 10, by omega⟩

/-- Where branch `b`'s channel `j` sits among the seventy packed linear columns: the seven linear banks (branches
    0, 2, 3, 4, 5, 6, 7) are packed in that order, ten columns each; the L1 branch (1) reads none and is given 0 + j. -/
def packedCol (b : Fin 8) (j : Fin 10) : Fin 70 := ⟨10 * (b.val - 1) + j.val, by omega⟩

end Cert.ConvBank

end
-- ==== Proof.IdealWindows.lean ====
/-
  The nine windows the kernel's point reads back from its padded scratch image.

  The scratch image is written by five stores — four zero strips for the border, the 64×64×32 block at offset (1, 1) —
  that tile its 66×66×32 shape; read back at offset (i, j), it is window 3·i + j of the zero-padded block.
-/
import proofs.«416126_j12043088298095_3_alg».proof.Proof.IdealPointRun
import proofs.«416126_j12043088298095_3_alg».proof.Proof.ConvSpec
import Idealize.ShloMosaic.Lib.Pipeline.Value
import Idealize.ShloMosaic.Lib.ValueLayout
import Idealize.ShloMosaic.PureOps.Ideal.Laws

set_option maxRecDepth 16384

noncomputable section

namespace Cert.KernelIdeal.Point

open Cert.KernelIdeal Cert.KernelIdeal.Gen Cert.ConvBank
open Idealize.ShloMosaic Idealize.ShloMosaic.TcCoe Idealize.ShloMosaic.ValueIdx Idealize.SL.Sem

variable (c : Dev nD) (arg1 : Memref sig .tc .vmem S1x64x64x32 .f32) (harg1 : arg1.IsWhole) (arg2 : Memref sig .tc .vmem S9x32x70 .f32) (harg2 : arg2.IsWhole)
  (arg3 : Memref sig .tc .vmem S9x3x128 .f32) (harg3 : arg3.IsWhole) (arg4 : Memref sig .tc .vmem S128x4 .f32) (harg4 : arg4.IsWhole)
  (arg5 : Memref sig .tc .vmem S1x10 .f32) (harg5 : arg5.IsWhole) (arg6 : Memref sig .tc .vmem S1x10 .f32) (harg6 : arg6.IsWhole)
  (arg7 : Memref sig .tc .vmem S1x64x64x80 .f32) (harg7 : arg7.IsWhole) (arg8 : Memref sig .tc .vmem S66x66x32 .f32) (harg8 : arg8.IsWhole)
  (arg9 : Memref sig .tc .vmem S64x64x70 .f32) (harg9 : arg9.IsWhole) (arg10 : Memref sig .tc .vmem S64x64x12 .f32) (harg10 : arg10.IsWhole)
  (X : Vec Ideal S1x64x64x32 .f32) (WL : Vec Ideal S9x32x70 .f32) (WP : Vec Ideal S9x3x128 .f32) (SEL : Vec Ideal S128x4 .f32)
  (Q3 Q5 : Vec Ideal S1x10 .f32)

/-- The block's image: the staged 1×64×64×32 block without its unit axis. -/
def imgOf (X : Vec Ideal S1x64x64x32 .f32) : Img := fun h w c => X (ix4 0 h w c)

/-- Inside the border the padded image is the image, one pixel up and left. -/
theorem padAt_inside (x : Img) (a b : ℕ) (h w : Fin 64) (ch ch' : Fin 32)
    (ha : a = h.val + 1) (hb : b = w.val + 1) (hc : ch = ch') : padAt x a b ch = x h w ch' := by
  subst ha hb hc
  unfold padAt
  rw [dif_pos ⟨⟨by omega, by omega⟩, ⟨by omega, by omega⟩⟩]
  rfl

/-- On the border the padded image is zero. -/
theorem padAt_outside (x : Img) (a b : ℕ) (ch : Fin 32)
    (h : ¬ ((1 ≤ a ∧ a ≤ 64) ∧ (1 ≤ b ∧ b ≤ 64))) : padAt x a b ch = 0 := by
  unfold padAt
  rw [dif_neg h]

/-- The padded image as one function of the scratch buffer's index. -/
def padFn (X : Vec Ideal S1x64x64x32 .f32) : S66x66x32.Idx → EReal :=
  fun y => padAt (imgOf X) (y 0).val (y 1).val (y 2)

theorem padFn_ix3 (a b : Fin 66) (ch : Fin 32) : padFn X (ix3 a b ch) = padAt (imgOf X) a.val b.val ch := rfl

/-- The staged block without its unit axis, at a pixel and channel. -/
theorem pay6_apply (h w : Fin 64) (ch : Fin 32) :
    k0_pay6 (F := Ideal) (View.readAt (Elt Ideal) arg1.view
          (Rect.unit ![0, 0, 0, 0] S1x64x64x32.size inb_S1x64x64x32_S1x64x64x32_0_0_0_0).toLoadRect
          (harg1.unread X)) (ix3 h w ch) = X (ix4 0 h w ch) := by
  unfold k0_pay6
  refine (shapeCast_apply _ _ (ix3 h w ch) (ix3 h w ch) rfl).trans ?_
  refine (shapeCast_1abc_abc_apply _ _ h w ch).trans ?_
  rw [View.readAt_eq_ld, harg1.read_unread, View.ld_unit_zero (S := S1x64x64x32) (by funext a; fin_cases a <;> rfl)]

/-- The four border strips are zero. -/
theorem pay5_apply (x : S64x1x32.Idx) : k0_pay5 (F := Ideal) x = 0 := by
  unfold k0_pay5
  refine (shapeCast_apply _ _ x x rfl).trans ?_
  exact Ideal.ofBits_zero_f32
theorem pay4_apply (x : S64x1x32.Idx) : k0_pay4 (F := Ideal) x = 0 := by
  unfold k0_pay4
  refine (shapeCast_apply _ _ x x rfl).trans ?_
  exact Ideal.ofBits_zero_f32
theorem pay3_apply (x : S1x66x32.Idx) : k0_pay3 (F := Ideal) x = 0 := by
  unfold k0_pay3
  refine (shapeCast_apply _ _ x x rfl).trans ?_
  exact Ideal.ofBits_zero_f32
theorem pay2_apply (x : S1x66x32.Idx) : k0_pay2 (F := Ideal) x = 0 := by
  unfold k0_pay2
  refine (shapeCast_apply _ _ x x rfl).trans ?_
  exact Ideal.ofBits_zero_f32

/-- The five stores are blocks of the padded image, and they cover the scratch buffer. -/
theorem canon_pad (a b : Fin 66) (ch : Fin 32) :
    View.canon (pointRun.sl.H7_5 (F := Ideal) c arg1 harg1 X) (ix3 a b ch) = padAt (imgOf X) a.val b.val ch := by
  rw [← padFn_ix3]
  unfold pointRun.sl.H7_5
  refine View.canon_apply_of_pieces (Val := Elt Ideal) (S := S66x66x32) (e := .f32) (padFn X) _ ?_ _ ?_
  · intro p hp
    simp only [List.mem_cons, List.mem_singleton, List.not_mem_nil, or_false] at hp
    rcases hp with rfl | rfl | rfl | rfl | rfl
    · intro x
      obtain ⟨h, w, k, rfl⟩ : ∃ (h w : Fin 64) (k : Fin 32), x = ix3 h w k := ⟨x 0, x 1, x 2, eq_ix3 x⟩
      refine (pay6_apply arg1 harg1 X h w k).trans ?_
      refine (padAt_inside (imgOf X) _ _ h w _ k ?_ ?_ ?_).symm
      · show 1 + 1 * h.val = h.val + 1; omega
      · show 1 + 1 * w.val = w.val + 1; omega
      · exact Fin.ext (show 0 + 1 * k.val = k.val by omega)
    · intro x
      refine (pay5_apply x).trans ?_
      refine (padAt_outside (imgOf X) _ _ _ ?_).symm
      show ¬ ((1 ≤ 1 + 1 * (x 0).val ∧ 1 + 1 * (x 0).val ≤ 64) ∧ (1 ≤ 65 + 1 * (x 1).val ∧ 65 + 1 * (x 1).val ≤ 64))
      omega
    · intro x
      refine (pay4_apply x).trans ?_
      refine (padAt_outside (imgOf X) _ _ _ ?_).symm
      have h1 : (x 1).val < 1 := (x 1).isLt
      show ¬ ((1 ≤ 1 + 1 * (x 0).val ∧ 1 + 1 * (x 0).val ≤ 64) ∧ (1 ≤ 0 + 1 * (x 1).val ∧ 0 + 1 * (x 1).val ≤ 64))
      omega
    · intro x
      refine (pay3_apply x).trans ?_
      refine (padAt_outside (imgOf X) _ _ _ ?_).symm
      show ¬ ((1 ≤ 65 + 1 * (x 0).val ∧ 65 + 1 * (x 0).val ≤ 64) ∧ (1 ≤ 0 + 1 * (x 1).val ∧ 0 + 1 * (x 1).val ≤ 64))
      omega
    · intro x
      refine (pay2_apply x).trans ?_
      refine (padAt_outside (imgOf X) _ _ _ ?_).symm
      have h0 : (x 0).val < 1 := (x 0).isLt
      show ¬ ((1 ≤ 0 + 1 * (x 0).val ∧ 0 + 1 * (x 0).val ≤ 64) ∧ (1 ≤ 0 + 1 * (x 1).val ∧ 0 + 1 * (x 1).val ≤ 64))
      omega
  · have hmem : ∀ {off size : Fin 3 → ℕ} {inb : ∀ d, off d + size d ≤ S66x66x32.size d},
        (off 0 ≤ a.val ∧ a.val < off 0 + size 0) → (off 1 ≤ b.val ∧ b.val < off 1 + size 1) →
        (off 2 ≤ ch.val ∧ ch.val < off 2 + size 2) →
        (ix3 a b ch : S66x66x32.Idx) ∈ (Rect.unit (s := S66x66x32) off size inb).set :=
      fun h0 h1 h2 => Rect.mem_set_unit.mpr fun d => match d with
        | ⟨0, _⟩ => h0
        | ⟨1, _⟩ => h1
        | ⟨2, _⟩ => h2
    have hch : ch.val < 32 := ch.isLt
    have ha : a.val < 66 := a.isLt
    have hb : b.val < 66 := b.isLt
    by_cases ha0 : a.val = 0
    · refine ⟨_, List.mem_cons_of_mem _ (List.mem_cons_of_mem _ (List.mem_cons_of_mem _ (List.mem_cons_of_mem _ List.mem_cons_self))), ?_⟩
      exact hmem (inb := inb_S66x66x32_S1x66x32_0_0_0) (by show 0 ≤ a.val ∧ a.val < 0 + 1; omega) (by show 0 ≤ b.val ∧ b.val < 0 + 66; omega)
        (by show 0 ≤ ch.val ∧ ch.val < 0 + 32; omega)
    by_cases ha65 : a.val = 65
    · refine ⟨_, List.mem_cons_of_mem _ (List.mem_cons_of_mem _ (List.mem_cons_of_mem _ List.mem_cons_self)), ?_⟩
      exact hmem (inb := inb_S66x66x32_S1x66x32_65_0_0) (by show 65 ≤ a.val ∧ a.val < 65 + 1; omega) (by show 0 ≤ b.val ∧ b.val < 0 + 66; omega)
        (by show 0 ≤ ch.val ∧ ch.val < 0 + 32; omega)
    by_cases hb0 : b.val = 0
    · refine ⟨_, List.mem_cons_of_mem _ (List.mem_cons_of_mem _ List.mem_cons_self), ?_⟩
      exact hmem (inb := inb_S66x66x32_S64x1x32_1_0_0) (by show 1 ≤ a.val ∧ a.val < 1 + 64; omega) (by show 0 ≤ b.val ∧ b.val < 0 + 1; omega)
        (by show 0 ≤ ch.val ∧ ch.val < 0 + 32; omega)
    by_cases hb65 : b.val = 65
    · refine ⟨_, List.mem_cons_of_mem _ List.mem_cons_self, ?_⟩
      exact hmem (inb := inb_S66x66x32_S64x1x32_1_65_0) (by show 1 ≤ a.val ∧ a.val < 1 + 64; omega) (by show 65 ≤ b.val ∧ b.val < 65 + 1; omega)
        (by show 0 ≤ ch.val ∧ ch.val < 0 + 32; omega)
    · refine ⟨_, List.mem_cons_self, ?_⟩
      exact hmem (inb := inb_S66x66x32_S64x64x32_1_1_0) (by show 1 ≤ a.val ∧ a.val < 1 + 64; omega) (by show 1 ≤ b.val ∧ b.val < 1 + 64; omega)
        (by show 0 ≤ ch.val ∧ ch.val < 0 + 32; omega)

/-- A 64×64×32 load of the scratch buffer at offset (i, j, 0) reads the padded image shifted by (i, j). -/
theorem readWin (i j : ℕ) (inb : ∀ d, (![i, j, 0] : Fin 3 → ℕ) d + S64x64x32.size d ≤ S66x66x32.size d)
    (h w : Fin 64) (ch : Fin 32) :
    arg8.view.readCov (pointRun.sl.H7_5 (F := Ideal) c arg1 harg1 X)
        (Rect.unit (s := S66x66x32) ![i, j, 0] S64x64x32.size inb).toLoadRect (ix3 h w ch)
      = padAt (imgOf X) (h.val + i) (w.val + j) ch := by
  have hi : i + 64 ≤ 66 := inb 0
  have hj : j + 64 ≤ 66 := inb 1
  rw [View.readCov_eq_canon']
  have hidx : (Rect.unit (s := S66x66x32) ![i, j, 0] S64x64x32.size inb).toLoadRect.idx (ix3 h w ch)
      = ix3 (⟨h.val + i, by omega⟩ : Fin 66) (⟨w.val + j, by omega⟩ : Fin 66) ch :=
    funext fun d => match d with
      | ⟨0, _⟩ => Fin.ext (show i + 1 * h.val = h.val + i by omega)
      | ⟨1, _⟩ => Fin.ext (show j + 1 * w.val = w.val + j by omega)
      | ⟨2, _⟩ => Fin.ext (show 0 + 1 * ch.val = ch.val by omega)
  show View.canon _ ((Rect.unit (s := S66x66x32) ![i, j, 0] S64x64x32.size inb).toLoadRect.idx (ix3 h w ch)) = _
  rw [hidx, canon_pad]

/-- The load at offset (0, 0) is window 0. -/
theorem win0_apply (h w : Fin 64) (ch : Fin 32) :
    pointRun.sl.v33 (F := Ideal) c arg1 harg1 arg8 X (ix3 h w ch) = win (imgOf X) ⟨0, by omega⟩ h w ch := by
  unfold pointRun.sl.v33
  exact (readWin c arg1 harg1 arg8 X 0 0 _ h w ch).trans rfl

/-- The load at offset (0, 1) is window 1. -/
theorem win1_apply (h w : Fin 64) (ch : Fin 32) :
    pointRun.sl.v96 (F := Ideal) c arg1 harg1 arg8 X (ix3 h w ch) = win (imgOf X) ⟨1, by omega⟩ h w ch := by
  unfold pointRun.sl.v96
  exact (readWin c arg1 harg1 arg8 X 0 1 _ h w ch).trans rfl

/-- The load at offset (0, 2) is window 2. -/
theorem win2_apply (h w : Fin 64) (ch : Fin 32) :
    pointRun.sl.v159 (F := Ideal) c arg1 harg1 arg8 X (ix3 h w ch) = win (imgOf X) ⟨2, by omega⟩ h w ch := by
  unfold pointRun.sl.v159
  exact (readWin c arg1 harg1 arg8 X 0 2 _ h w ch).trans rfl

/-- The load at offset (1, 0) is window 3. -/
theorem win3_apply (h w : Fin 64) (ch : Fin 32) :
    pointRun.sl.v222 (F := Ideal) c arg1 harg1 arg8 X (ix3 h w ch) = win (imgOf X) ⟨3, by omega⟩ h w ch := by
  unfold pointRun.sl.v222
  exact (readWin c arg1 harg1 arg8 X 1 0 _ h w ch).trans rfl

/-- The load at offset (1, 1) is window 4. -/
theorem win4_apply (h w : Fin 64) (ch : Fin 32) :
    pointRun.sl.v285 (F := Ideal) c arg1 harg1 arg8 X (ix3 h w ch) = win (imgOf X) ⟨4, by omega⟩ h w ch := by
  unfold pointRun.sl.v285
  exact (readWin c arg1 harg1 arg8 X 1 1 _ h w ch).trans rfl

/-- The load at offset (1, 2) is window 5. -/
theorem win5_apply (h w : Fin 64) (ch : Fin 32) :
    pointRun.sl.v348 (F := Ideal) c arg1 harg1 arg8 X (ix3 h w ch) = win (imgOf X) ⟨5, by omega⟩ h w ch := by
  unfold pointRun.sl.v348
  exact (readWin c arg1 harg1 arg8 X 1 2 _ h w ch).trans rfl

/-- The load at offset (2, 0) is window 6. -/
theorem win6_apply (h w : Fin 64) (ch : Fin 32) :
    pointRun.sl.v411 (F := Ideal) c arg1 harg1 arg8 X (ix3 h w ch) = win (imgOf X) ⟨6, by omega⟩ h w ch := by
  unfold pointRun.sl.v411
  exact (readWin c arg1 harg1 arg8 X 2 0 _ h w ch).trans rfl

/-- The load at offset (2, 1) is window 7. -/
theorem win7_apply (h w : Fin 64) (ch : Fin 32) :
    pointRun.sl.v474 (F := Ideal) c arg1 harg1 arg8 X (ix3 h w ch) = win (imgOf X) ⟨7, by omega⟩ h w ch := by
  unfold pointRun.sl.v474
  exact (readWin c arg1 harg1 arg8 X 2 1 _ h w ch).trans rfl

/-- The load at offset (2, 2) is window 8. -/
theorem win8_apply (h w : Fin 64) (ch : Fin 32) :
    pointRun.sl.v537 (F := Ideal) c arg1 harg1 arg8 X (ix3 h w ch) = win (imgOf X) ⟨8, by omega⟩ h w ch := by
  unfold pointRun.sl.v537
  exact (readWin c arg1 harg1 arg8 X 2 2 _ h w ch).trans rfl

end Cert.KernelIdeal.Point

end
-- ==== Proof.IdealSqNorm.lean ====
/-
  The squared norm of the nine windows, as the point accumulates it: starting from zero, each offset adds the lane sum
  of its window's squares; nine steps give the double sum over offsets and channels.
-/
import proofs.«416126_j12043088298095_3_alg».proof.Proof.IdealWindows
import Idealize.ShloMosaic.PureOps.Ideal.Laws

set_option maxRecDepth 16384

noncomputable section

namespace Cert.KernelIdeal.Point

open Cert.KernelIdeal Cert.KernelIdeal.Gen Cert.ConvBank
open Idealize.ShloMosaic Idealize.ShloMosaic.TcCoe Idealize.ShloMosaic.ValueIdx Idealize.SL.Sem

variable (c : Dev nD) (arg1 : Memref sig .tc .vmem S1x64x64x32 .f32) (harg1 : arg1.IsWhole) (arg2 : Memref sig .tc .vmem S9x32x70 .f32) (harg2 : arg2.IsWhole)
  (arg3 : Memref sig .tc .vmem S9x3x128 .f32) (harg3 : arg3.IsWhole) (arg4 : Memref sig .tc .vmem S128x4 .f32) (harg4 : arg4.IsWhole)
  (arg5 : Memref sig .tc .vmem S1x10 .f32) (harg5 : arg5.IsWhole) (arg6 : Memref sig .tc .vmem S1x10 .f32) (harg6 : arg6.IsWhole)
  (arg7 : Memref sig .tc .vmem S1x64x64x80 .f32) (harg7 : arg7.IsWhole) (arg8 : Memref sig .tc .vmem S66x66x32 .f32) (harg8 : arg8.IsWhole)
  (arg9 : Memref sig .tc .vmem S64x64x70 .f32) (harg9 : arg9.IsWhole) (arg10 : Memref sig .tc .vmem S64x64x12 .f32) (harg10 : arg10.IsWhole)
  (X : Vec Ideal S1x64x64x32 .f32) (WL : Vec Ideal S9x32x70 .f32) (WP : Vec Ideal S9x3x128 .f32) (SEL : Vec Ideal S128x4 .f32)
  (Q3 Q5 : Vec Ideal S1x10 .f32)

/-- One step of the running squared norm: the lane sum of a window's squares, added at a pixel. -/
theorem sqStep (acc : FVec Ideal S64x64x1 .f32) (v : FVec Ideal S64x64x32 .f32) (h w : Fin 64) :
    addf acc (shapeCast S64x64x1 (multiReduction .add [2] S64x64 (mulf v v) 0x00000000#32 reduces_S64x64x32_S64x64 (.inl rfl) rfl)
        shapeCasts_S64x64_S64x64x1) (ix3 h w 0)
      = acc (ix3 h w 0) + ∑ k : Fin 32, v (ix3 h w k) * v (ix3 h w k) := by
  show acc (ix3 h w 0) + shapeCast S64x64x1 _ shapeCasts_S64x64_S64x64x1 (ix3 h w 0) = _
  congr 1
  refine (shapeCast_apply _ _ (ix3 h w (0 : Fin 1)) (ix2 h w) ?_).trans ?_
  · rw [Shape.rowMajor_val_two, Shape.rowMajor_val_three]
    show h.val * 64 + w.val = (h.val * 64 + w.val) * 1 + 0
    omega
  · refine (Ideal.multiReduction_add_single (mulf v v) 0x00000000#32 reduces_S64x64x32_S64x64 (.inl rfl) rfl (ix2 h w)).trans ?_
    show ∑ k : Fin 32, mulf v v (reduces_S64x64x32_S64x64.lift (ix2 h w) k) = _
    refine Finset.sum_congr rfl fun k _ => ?_
    have hk : reduces_S64x64x32_S64x64.lift (ix2 h w) k = ix3 h w k :=
      funext fun d => match d with
        | ⟨0, _⟩ => Fin.ext rfl
        | ⟨1, _⟩ => Fin.ext rfl
        | ⟨2, _⟩ => Fin.ext rfl
    rw [hk]
    rfl

/-- The first step starts from zero. -/
theorem pay10_apply (v : FVec Ideal S64x64x32 .f32) (h w : Fin 64) :
    k0_pay10 (F := Ideal) v (ix3 h w 0) = ∑ k : Fin 32, v (ix3 h w k) * v (ix3 h w k) := by
  unfold k0_pay10
  refine (sqStep _ v h w).trans ?_
  show (Ideal.ofBits .f32 0x00000000#32 : EReal) + _ = _
  rw [Ideal.ofBits_zero_f32, zero_add]

/-- Each later step adds its window's lane sum to the running value. -/
theorem pay18_apply (acc : FVec Ideal S64x64x1 .f32) (v : FVec Ideal S64x64x32 .f32) (h w : Fin 64) :
    k0_pay18 (F := Ideal) acc v (ix3 h w 0) = acc (ix3 h w 0) + ∑ k : Fin 32, v (ix3 h w k) * v (ix3 h w k) := by
  unfold k0_pay18
  exact sqStep acc v h w

theorem pay25_apply (acc : FVec Ideal S64x64x1 .f32) (v : FVec Ideal S64x64x32 .f32) (h w : Fin 64) :
    k0_pay25 (F := Ideal) acc v (ix3 h w 0) = acc (ix3 h w 0) + ∑ k : Fin 32, v (ix3 h w k) * v (ix3 h w k) := by
  unfold k0_pay25
  exact sqStep acc v h w

theorem pay31_apply (acc : FVec Ideal S64x64x1 .f32) (v : FVec Ideal S64x64x32 .f32) (h w : Fin 64) :
    k0_pay31 (F := Ideal) acc v (ix3 h w 0) = acc (ix3 h w 0) + ∑ k : Fin 32, v (ix3 h w k) * v (ix3 h w k) := by
  unfold k0_pay31
  exact sqStep acc v h w

theorem pay38_apply (acc : FVec Ideal S64x64x1 .f32) (v : FVec Ideal S64x64x32 .f32) (h w : Fin 64) :
    k0_pay38 (F := Ideal) acc v (ix3 h w 0) = acc (ix3 h w 0) + ∑ k : Fin 32, v (ix3 h w k) * v (ix3 h w k) := by
  unfold k0_pay38
  exact sqStep acc v h w

theorem pay46_apply (acc : FVec Ideal S64x64x1 .f32) (v : FVec Ideal S64x64x32 .f32) (h w : Fin 64) :
    k0_pay46 (F := Ideal) acc v (ix3 h w 0) = acc (ix3 h w 0) + ∑ k : Fin 32, v (ix3 h w k) * v (ix3 h w k) := by
  unfold k0_pay46
  exact sqStep acc v h w

theorem pay54_apply (acc : FVec Ideal S64x64x1 .f32) (v : FVec Ideal S64x64x32 .f32) (h w : Fin 64) :
    k0_pay54 (F := Ideal) acc v (ix3 h w 0) = acc (ix3 h w 0) + ∑ k : Fin 32, v (ix3 h w k) * v (ix3 h w k) := by
  unfold k0_pay54
  exact sqStep acc v h w

theorem pay62_apply (acc : FVec Ideal S64x64x1 .f32) (v : FVec Ideal S64x64x32 .f32) (h w : Fin 64) :
    k0_pay62 (F := Ideal) acc v (ix3 h w 0) = acc (ix3 h w 0) + ∑ k : Fin 32, v (ix3 h w k) * v (ix3 h w k) := by
  unfold k0_pay62
  exact sqStep acc v h w

theorem pay70_apply (acc : FVec Ideal S64x64x1 .f32) (v : FVec Ideal S64x64x32 .f32) (h w : Fin 64) :
    k0_pay70 (F := Ideal) acc v (ix3 h w 0) = acc (ix3 h w 0) + ∑ k : Fin 32, v (ix3 h w k) * v (ix3 h w k) := by
  unfold k0_pay70
  exact sqStep acc v h w

/-- After the ninth offset the running squared norm is the whole double sum. -/
theorem sqnorm_apply (h w : Fin 64) :
    pointRun.sl.r_30 (F := Ideal) c arg1 harg1 arg8 X (ix3 h w 0) = sqSum (imgOf X) h w := by
  unfold sqSum
  rw [Fin.sum_univ_castSucc, Fin.sum_univ_eight]
  unfold pointRun.sl.r_30
  rw [pay70_apply]
  unfold pointRun.sl.r_26
  rw [pay62_apply]
  unfold pointRun.sl.r_22
  rw [pay54_apply]
  unfold pointRun.sl.r_18
  rw [pay46_apply]
  unfold pointRun.sl.r_14
  rw [pay38_apply]
  unfold pointRun.sl.r_11
  rw [pay31_apply]
  unfold pointRun.sl.r_8
  rw [pay25_apply]
  unfold pointRun.sl.r_5
  rw [pay18_apply]
  unfold pointRun.sl.r_1
  rw [pay10_apply]
  simp only [win0_apply, win1_apply, win2_apply, win3_apply, win4_apply, win5_apply, win6_apply, win7_apply,
    win8_apply]
  rfl

end Cert.KernelIdeal.Point

end
-- ==== Proof.IdealCorr.lean ====
/-
  The packed correlations, as the point accumulates them in its 64×64×70 scratch: zeroed, then for each offset the
  scratch is loaded, the window's 4096×32 by 32×70 product added, and stored back whole; the final load is, for each of
  the seventy packed filter columns, the correlation of the nine windows with that column.
-/
import proofs.«416126_j12043088298095_3_alg».proof.Proof.IdealWindows
import Idealize.ShloMosaic.PureOps.Ideal.Laws
import Idealize.ShloMosaic.Lib.WholeRead

set_option maxRecDepth 16384

noncomputable section

namespace Cert.KernelIdeal.Point

open Cert.KernelIdeal Cert.KernelIdeal.Gen Cert.ConvBank
open Idealize.ShloMosaic Idealize.ShloMosaic.TcCoe Idealize.ShloMosaic.ValueIdx Idealize.SL.Sem

variable (c : Dev nD) (arg1 : Memref sig .tc .vmem S1x64x64x32 .f32) (harg1 : arg1.IsWhole) (arg2 : Memref sig .tc .vmem S9x32x70 .f32) (harg2 : arg2.IsWhole)
  (arg3 : Memref sig .tc .vmem S9x3x128 .f32) (harg3 : arg3.IsWhole) (arg4 : Memref sig .tc .vmem S128x4 .f32) (harg4 : arg4.IsWhole)
  (arg5 : Memref sig .tc .vmem S1x10 .f32) (harg5 : arg5.IsWhole) (arg6 : Memref sig .tc .vmem S1x10 .f32) (harg6 : arg6.IsWhole)
  (arg7 : Memref sig .tc .vmem S1x64x64x80 .f32) (harg7 : arg7.IsWhole) (arg8 : Memref sig .tc .vmem S66x66x32 .f32) (harg8 : arg8.IsWhole)
  (arg9 : Memref sig .tc .vmem S64x64x70 .f32) (harg9 : arg9.IsWhole) (arg10 : Memref sig .tc .vmem S64x64x12 .f32) (harg10 : arg10.IsWhole)
  (X : Vec Ideal S1x64x64x32 .f32) (WL : Vec Ideal S9x32x70 .f32) (WP : Vec Ideal S9x3x128 .f32) (SEL : Vec Ideal S128x4 .f32)
  (Q3 Q5 : Vec Ideal S1x10 .f32)

/-! ## The 4096×32 by 32×70 product at an element

The product's dimension numbers contract the left operand's axis 1 with the right operand's axis 0; the four axis
facts below read the two operand indices of output element (r, o) at contraction position q: (r, q) and (q, o). -/

theorem corr_lhs_0 (i : S4096x70.Idx) (q : dot_S4096x32_S32x70_S4096x70_1_0_0_1_n_n.contr.Idx) :
    (dot_S4096x32_S32x70_S4096x70_1_0_0_1_n_n.lhsIdx i q 0).val = (i 0).val := by
  unfold DotDims.lhsIdx
  rw [dif_neg (show ¬(0 : Fin S4096x32.rank) ∈ dot_S4096x32_S32x70_S4096x70_1_0_0_1_n_n.lhsBatch by decide), dif_pos (show (0 : Fin S4096x32.rank) ∈ dot_S4096x32_S32x70_S4096x70_1_0_0_1_n_n.lhsNonContracting by decide)]
  rfl
theorem corr_lhs_1 (i : S4096x70.Idx) (q : dot_S4096x32_S32x70_S4096x70_1_0_0_1_n_n.contr.Idx) :
    (dot_S4096x32_S32x70_S4096x70_1_0_0_1_n_n.lhsIdx i q 1).val = (q ⟨0, by decide⟩).val :=
  dot_S4096x32_S32x70_S4096x70_1_0_0_1_n_n.lhsIdx_val_of_single rfl i q
theorem corr_rhs_0 (i : S4096x70.Idx) (q : dot_S4096x32_S32x70_S4096x70_1_0_0_1_n_n.contr.Idx) :
    (dot_S4096x32_S32x70_S4096x70_1_0_0_1_n_n.rhsIdx i q 0).val = (q ⟨0, by decide⟩).val :=
  dot_S4096x32_S32x70_S4096x70_1_0_0_1_n_n.rhsIdx_val_of_single rfl i q
theorem corr_rhs_1 (i : S4096x70.Idx) (q : dot_S4096x32_S32x70_S4096x70_1_0_0_1_n_n.contr.Idx) :
    (dot_S4096x32_S32x70_S4096x70_1_0_0_1_n_n.rhsIdx i q 1).val = (i 1).val := by
  unfold DotDims.rhsIdx
  rw [dif_neg (show ¬(1 : Fin S32x70.rank) ∈ dot_S4096x32_S32x70_S4096x70_1_0_0_1_n_n.rhsBatch by decide), dif_pos (show (1 : Fin S32x70.rank) ∈ dot_S4096x32_S32x70_S4096x70_1_0_0_1_n_n.rhsNonContracting by decide)]
  rfl

/-- Pixel (h, w) is row 64·h + w of the 4096-row matrices. -/
def corrPix (h w : Fin 64) : Fin 4096 := ⟨64 * h.val + w.val, by omega⟩

/-- The product of the window (as 4096×32) with the filter slab (as 32×70), at pixel (h, w) and column o: the sum
    over the 32 channels. The two format changes are the identity on extended reals and the accumulator is zero. -/
theorem corr_prod_apply (W : Vec Ideal S64x64x32 .f32) (S : Vec Ideal S1x32x70 .f32) (h w : Fin 64) (o : Fin 70) :
    k0_pay39 (F := Ideal) W S (ix2 (corrPix h w) o) = ∑ ch : Fin 32, W (ix3 h w ch) * S (ix3 0 ch o) := by
  unfold k0_pay39
  refine (Ideal.matmul_constant_zero_apply dot_S4096x32_S32x70_S4096x70_1_0_0_1_n_n none _ _ _).trans ?_
  rw [← Equiv.sum_comp (contrEquiv1 dot_S4096x32_S32x70_S4096x70_1_0_0_1_n_n 32 rfl rfl).symm]
  refine Finset.sum_congr rfl fun k _ => ?_
  have hk := contrEquiv1_symm_val dot_S4096x32_S32x70_S4096x70_1_0_0_1_n_n 32 rfl rfl k
  have el : dot_S4096x32_S32x70_S4096x70_1_0_0_1_n_n.lhsIdx (ix2 (corrPix h w) o) ((contrEquiv1 dot_S4096x32_S32x70_S4096x70_1_0_0_1_n_n 32 rfl rfl).symm k) = ix2 (corrPix h w) k := funext fun a => Fin.ext (by
    match a with
    | ⟨0, _⟩ => exact corr_lhs_0 _ _
    | ⟨1, _⟩ => exact (corr_lhs_1 _ _).trans hk)
  have er : dot_S4096x32_S32x70_S4096x70_1_0_0_1_n_n.rhsIdx (ix2 (corrPix h w) o) ((contrEquiv1 dot_S4096x32_S32x70_S4096x70_1_0_0_1_n_n 32 rfl rfl).symm k) = ix2 k o := funext fun a => Fin.ext (by
    match a with
    | ⟨0, _⟩ => exact (corr_rhs_0 _ _).trans hk
    | ⟨1, _⟩ => exact corr_rhs_1 _ _)
  rw [el, er]
  refine congrArg₂ (· * ·) ?_ ?_
  · exact shapeCast_apply W shapeCasts_S64x64x32_S4096x32 (ix2 (corrPix h w) k) (ix3 h w k) (by
      rw [Shape.rowMajor_val_three, Shape.rowMajor_val_two]
      show (h.val * 64 + w.val) * 32 + k.val = (64 * h.val + w.val) * 32 + k.val
      omega)
  · exact shapeCast_apply S shapeCasts_S1x32x70_S32x70 (ix2 k o) (ix3 0 k o) (by
      rw [Shape.rowMajor_val_three, Shape.rowMajor_val_two]
      show (0 * 32 + k.val) * 70 + o.val = k.val * 70 + o.val
      omega)

/-- The product reshaped to 64×64×70 and added to the loaded accumulator, at pixel (h, w) and column o. -/
theorem corr_add_apply (P : FVec Ideal S4096x70 .f32) (A : Vec Ideal S64x64x70 .f32) (h w : Fin 64) (o : Fin 70) :
    k0_pay40 (F := Ideal) P A (ix3 h w o) = A (ix3 h w o) + P (ix2 (corrPix h w) o) := by
  unfold k0_pay40
  refine (shapeCast_apply _ shapeCasts_S64x64x70_S64x64x70 (ix3 h w o) (ix3 h w o) rfl).trans ?_
  refine congrArg (A (ix3 h w o) + ·) ?_
  exact shapeCast_apply P shapeCasts_S4096x70_S64x64x70 (ix3 h w o) (ix2 (corrPix h w) o) (by
    rw [Shape.rowMajor_val_three, Shape.rowMajor_val_two]
    show (64 * h.val + w.val) * 70 + o.val = (h.val * 64 + w.val) * 70 + o.val
    omega)

/-- One accumulation step at an element: the loaded accumulator plus the sum over the 32 channels. -/
theorem corr_step_apply (W : Vec Ideal S64x64x32 .f32) (S : Vec Ideal S1x32x70 .f32) (A : Vec Ideal S64x64x70 .f32)
    (h w : Fin 64) (o : Fin 70) :
    k0_pay11 (F := Ideal) W S A (ix3 h w o) = A (ix3 h w o) + ∑ ch : Fin 32, W (ix3 h w ch) * S (ix3 0 ch o) := by
  show k0_pay40 (F := Ideal) (k0_pay39 (F := Ideal) W S) A (ix3 h w o) = _
  rw [corr_add_apply, corr_prod_apply]

/-! ## The filter slab of one offset -/

/-- The 1×32×70 load of the packed filters at row offset K reads row K of the filters. -/
theorem corr_slab_apply (K : ℕ) (hK : K < 9) (inb : ∀ a, (![K, 0, 0] : Fin 3 → ℕ) a + S1x32x70.size a ≤ S9x32x70.size a)
    (ch : Fin 32) (o : Fin 70) :
    View.readAt (Elt Ideal) arg2.view (Rect.unit (s := S9x32x70) ![K, 0, 0] S1x32x70.size inb).toLoadRect (harg2.unread WL) (ix3 0 ch o)
      = WL (ix3 ⟨K, hK⟩ ch o) := by
  refine (harg2.readAt_unread WL _ _).trans ?_
  refine congrArg WL (funext fun a => Fin.ext ?_)
  match a with
  | ⟨0, _⟩ => show K + 1 * 0 = K; omega
  | ⟨1, _⟩ => show 0 + 1 * ch.val = ch.val; omega
  | ⟨2, _⟩ => show 0 + 1 * o.val = o.val; omega

/-! ## The accumulator after each offset -/

/-- The correlation of window k with slab k of the packed filters at a pixel and a packed column (zero from the
    ninth on, so that the partial sums are sums over an initial range of the naturals). -/
def corrAt (X : Vec Ideal S1x64x64x32 .f32) (WL : Vec Ideal S9x32x70 .f32) (h w : Fin 64) (o : Fin 70) (k : ℕ) : EReal :=
  if hk : k < 9 then ∑ ch : Fin 32, win (imgOf X) ⟨k, hk⟩ h w ch * WL (ix3 ⟨k, hk⟩ ch o) else 0

/-- One step carries the partial sum over the first n offsets to the partial sum over the first n + 1. -/
theorem corr_step_sum (W : Vec Ideal S64x64x32 .f32) (S : Vec Ideal S1x32x70 .f32) (A : Vec Ideal S64x64x70 .f32)
    (h w : Fin 64) (o : Fin 70) (n : ℕ) (hn : n < 9)
    (hW : ∀ ch, W (ix3 h w ch) = win (imgOf X) ⟨n, hn⟩ h w ch)
    (hS : ∀ ch, S (ix3 0 ch o) = WL (ix3 ⟨n, hn⟩ ch o))
    (hA : A (ix3 h w o) = ∑ k ∈ Finset.range n, corrAt X WL h w o k) :
    k0_pay11 (F := Ideal) W S A (ix3 h w o) = ∑ k ∈ Finset.range (n + 1), corrAt X WL h w o k := by
  rw [corr_step_apply, Finset.sum_range_succ, hA]
  refine congrArg (_ + ·) ?_
  unfold corrAt
  rw [dif_pos hn]
  exact Finset.sum_congr rfl fun ch _ => by rw [hW ch, hS ch]

/-- The zeroed scratch reads zero: the empty partial sum. -/
theorem corr_acc0_apply (h w : Fin 64) (o : Fin 70) :
    pointRun.sl.v44 (F := Ideal) c arg9 (ix3 h w o) = ∑ k ∈ Finset.range 0, corrAt X WL h w o k := by
  unfold pointRun.sl.v44 pointRun.sl.H8_1
  refine (congrFun (View.readCov_cons_toLoadRect arg9.view _ _ _) _).trans ?_
  rw [Finset.sum_range_zero]
  unfold k0_pay7
  refine (shapeCast_apply _ shapeCasts_S64x64x70_S64x64x70 (ix3 h w o) (ix3 h w o) rfl).trans ?_
  exact Ideal.ofBits_zero_f32

/-- The load after the first offset's store: the partial sum over the first 1 offset. -/
theorem corr_acc1_apply (h w : Fin 64) (o : Fin 70) :
    pointRun.sl.v107 (F := Ideal) c arg1 harg1 arg2 harg2 arg8 arg9 X WL (ix3 h w o)
      = ∑ k ∈ Finset.range 1, corrAt X WL h w o k := by
  unfold pointRun.sl.v107 pointRun.sl.H8_2
  refine (congrFun (View.readCov_cons_toLoadRect arg9.view _ _ _) _).trans ?_
  exact corr_step_sum X WL _ _ _ h w o 0 (by omega) (fun ch => win0_apply c arg1 harg1 arg8 X h w ch)
    (fun ch => corr_slab_apply arg2 harg2 WL 0 (by omega) _ ch o) (corr_acc0_apply c arg9 X WL h w o)

/-- The load after the second offset's store: the partial sum over the first 2 offsets. -/
theorem corr_acc2_apply (h w : Fin 64) (o : Fin 70) :
    pointRun.sl.v170 (F := Ideal) c arg1 harg1 arg2 harg2 arg8 arg9 X WL (ix3 h w o)
      = ∑ k ∈ Finset.range 2, corrAt X WL h w o k := by
  unfold pointRun.sl.v170 pointRun.sl.H8_3
  refine (congrFun (View.readCov_cons_toLoadRect arg9.view _ _ _) _).trans ?_
  exact corr_step_sum X WL _ _ _ h w o 1 (by omega) (fun ch => win1_apply c arg1 harg1 arg8 X h w ch)
    (fun ch => corr_slab_apply arg2 harg2 WL 1 (by omega) _ ch o) (corr_acc1_apply c arg1 harg1 arg2 harg2 arg8 arg9 X WL h w o)

/-- The load after the third offset's store: the partial sum over the first 3 offsets. -/
theorem corr_acc3_apply (h w : Fin 64) (o : Fin 70) :
    pointRun.sl.v233 (F := Ideal) c arg1 harg1 arg2 harg2 arg8 arg9 X WL (ix3 h w o)
      = ∑ k ∈ Finset.range 3, corrAt X WL h w o k := by
  unfold pointRun.sl.v233 pointRun.sl.H8_4
  refine (congrFun (View.readCov_cons_toLoadRect arg9.view _ _ _) _).trans ?_
  exact corr_step_sum X WL _ _ _ h w o 2 (by omega) (fun ch => win2_apply c arg1 harg1 arg8 X h w ch)
    (fun ch => corr_slab_apply arg2 harg2 WL 2 (by omega) _ ch o) (corr_acc2_apply c arg1 harg1 arg2 harg2 arg8 arg9 X WL h w o)

/-- The load after the fourth offset's store: the partial sum over the first 4 offsets. -/
theorem corr_acc4_apply (h w : Fin 64) (o : Fin 70) :
    pointRun.sl.v296 (F := Ideal) c arg1 harg1 arg2 harg2 arg8 arg9 X WL (ix3 h w o)
      = ∑ k ∈ Finset.range 4, corrAt X WL h w o k := by
  unfold pointRun.sl.v296 pointRun.sl.H8_5
  refine (congrFun (View.readCov_cons_toLoadRect arg9.view _ _ _) _).trans ?_
  exact corr_step_sum X WL _ _ _ h w o 3 (by omega) (fun ch => win3_apply c arg1 harg1 arg8 X h w ch)
    (fun ch => corr_slab_apply arg2 harg2 WL 3 (by omega) _ ch o) (corr_acc3_apply c arg1 harg1 arg2 harg2 arg8 arg9 X WL h w o)

/-- The load after the fifth offset's store: the partial sum over the first 5 offsets. -/
theorem corr_acc5_apply (h w : Fin 64) (o : Fin 70) :
    pointRun.sl.v359 (F := Ideal) c arg1 harg1 arg2 harg2 arg8 arg9 X WL (ix3 h w o)
      = ∑ k ∈ Finset.range 5, corrAt X WL h w o k := by
  unfold pointRun.sl.v359 pointRun.sl.H8_6 pointRun.sl.r_15
  refine (congrFun (View.readCov_cons_toLoadRect arg9.view _ _ _) _).trans ?_
  exact corr_step_sum X WL _ _ _ h w o 4 (by omega) (fun ch => win4_apply c arg1 harg1 arg8 X h w ch)
    (fun ch => corr_slab_apply arg2 harg2 WL 4 (by omega) _ ch o) (corr_acc4_apply c arg1 harg1 arg2 harg2 arg8 arg9 X WL h w o)

/-- The load after the sixth offset's store: the partial sum over the first 6 offsets. -/
theorem corr_acc6_apply (h w : Fin 64) (o : Fin 70) :
    pointRun.sl.v422 (F := Ideal) c arg1 harg1 arg2 harg2 arg8 arg9 X WL (ix3 h w o)
      = ∑ k ∈ Finset.range 6, corrAt X WL h w o k := by
  unfold pointRun.sl.v422 pointRun.sl.H8_7 pointRun.sl.r_19
  refine (congrFun (View.readCov_cons_toLoadRect arg9.view _ _ _) _).trans ?_
  exact corr_step_sum X WL _ _ _ h w o 5 (by omega) (fun ch => win5_apply c arg1 harg1 arg8 X h w ch)
    (fun ch => corr_slab_apply arg2 harg2 WL 5 (by omega) _ ch o) (corr_acc5_apply c arg1 harg1 arg2 harg2 arg8 arg9 X WL h w o)

/-- The load after the seventh offset's store: the partial sum over the first 7 offsets. -/
theorem corr_acc7_apply (h w : Fin 64) (o : Fin 70) :
    pointRun.sl.v485 (F := Ideal) c arg1 harg1 arg2 harg2 arg8 arg9 X WL (ix3 h w o)
      = ∑ k ∈ Finset.range 7, corrAt X WL h w o k := by
  unfold pointRun.sl.v485 pointRun.sl.H8_8
  refine (congrFun (View.readCov_cons_toLoadRect arg9.view _ _ _) _).trans ?_
  exact corr_step_sum X WL _ _ _ h w o 6 (by omega) (fun ch => win6_apply c arg1 harg1 arg8 X h w ch)
    (fun ch => corr_slab_apply arg2 harg2 WL 6 (by omega) _ ch o) (corr_acc6_apply c arg1 harg1 arg2 harg2 arg8 arg9 X WL h w o)

/-- The load after the eighth offset's store: the partial sum over the first 8 offsets. -/
theorem corr_acc8_apply (h w : Fin 64) (o : Fin 70) :
    pointRun.sl.v548 (F := Ideal) c arg1 harg1 arg2 harg2 arg8 arg9 X WL (ix3 h w o)
      = ∑ k ∈ Finset.range 8, corrAt X WL h w o k := by
  unfold pointRun.sl.v548 pointRun.sl.H8_9
  refine (congrFun (View.readCov_cons_toLoadRect arg9.view _ _ _) _).trans ?_
  exact corr_step_sum X WL _ _ _ h w o 7 (by omega) (fun ch => win7_apply c arg1 harg1 arg8 X h w ch)
    (fun ch => corr_slab_apply arg2 harg2 WL 7 (by omega) _ ch o) (corr_acc7_apply c arg1 harg1 arg2 harg2 arg8 arg9 X WL h w o)

/-- The load after the ninth offset's store: the partial sum over the first 9 offsets. -/
theorem corr_acc9_apply (h w : Fin 64) (o : Fin 70) :
    pointRun.sl.v (F := Ideal) c arg1 harg1 arg2 harg2 arg8 arg9 X WL (ix3 h w o)
      = ∑ k ∈ Finset.range 9, corrAt X WL h w o k := by
  unfold pointRun.sl.v pointRun.sl.H8_10
  refine (congrFun (View.readCov_cons_toLoadRect arg9.view _ _ _) _).trans ?_
  exact corr_step_sum X WL _ _ _ h w o 8 (by omega) (fun ch => win8_apply c arg1 harg1 arg8 X h w ch)
    (fun ch => corr_slab_apply arg2 harg2 WL 8 (by omega) _ ch o) (corr_acc8_apply c arg1 harg1 arg2 harg2 arg8 arg9 X WL h w o)

/-- The final load of the correlation scratch, at pixel (h, w) and packed column `o`. -/
theorem corr_apply (h w : Fin 64) (o : Fin 70) :
    pointRun.sl.v (F := Ideal) c arg1 harg1 arg2 harg2 arg8 arg9 X WL (ix3 h w o)
      = dotW (imgOf X) (fun k ch => WL (ix3 k ch o)) h w := by
  rw [corr_acc9_apply]
  unfold dotW
  rw [← Fin.sum_univ_eq_sum_range (corrAt X WL h w o) 9]
  refine Finset.sum_congr rfl fun k _ => ?_
  unfold corrAt
  rw [dif_pos k.isLt]

end Cert.KernelIdeal.Point

end
-- ==== Proof.IdealL1.lean ====
/-
  The L1 branch, as the point accumulates it in its 64×64×12 scratch: zeroed, then for each offset and each of three
  lane groups the group's 4-lane slice is loaded, the product of |tiled window − packed filters| (4096×128) with the
  128×4 selector added, and the slice stored back; the final load is, per pixel and padded channel 4·g + u, the double
  sum over offsets and the 128 lanes of |window lane − packed filter lane| · selector(lane, u).
-/
import proofs.«416126_j12043088298095_3_alg».proof.Proof.IdealWindows
import Idealize.ShloMosaic.PureOps.Ideal.Laws
import Idealize.ShloMosaic.Lib.Pipeline.Value
import Idealize.ShloMosaic.Lib.ValueIdx
import Mathlib.Algebra.BigOperators.Fin
import Mathlib.Tactic.IntervalCases
import Mathlib.Tactic.FinCases

set_option maxRecDepth 16384

noncomputable section

namespace Cert.KernelIdeal.Point

open Cert.KernelIdeal Cert.KernelIdeal.Gen Cert.ConvBank
open Idealize.ShloMosaic Idealize.ShloMosaic.TcCoe Idealize.ShloMosaic.ValueIdx Idealize.SL.Sem

/-! ## One group's contribution, read at an index -/

theorem l1_lhs_0 (i : S4096x4.Idx) (q : dot_S4096x128_S128x4_S4096x4_1_0_0_1_n_n.contr.Idx) :
    (dot_S4096x128_S128x4_S4096x4_1_0_0_1_n_n.lhsIdx i q 0).val = (i 0).val := by
  unfold DotDims.lhsIdx
  rw [dif_neg (show ¬(0 : Fin S4096x128.rank) ∈ dot_S4096x128_S128x4_S4096x4_1_0_0_1_n_n.lhsBatch by decide), dif_pos (show (0 : Fin S4096x128.rank) ∈ dot_S4096x128_S128x4_S4096x4_1_0_0_1_n_n.lhsNonContracting by decide)]
  rfl
theorem l1_lhs_1 (i : S4096x4.Idx) (q : dot_S4096x128_S128x4_S4096x4_1_0_0_1_n_n.contr.Idx) :
    (dot_S4096x128_S128x4_S4096x4_1_0_0_1_n_n.lhsIdx i q 1).val = (q ⟨0, by decide⟩).val :=
  dot_S4096x128_S128x4_S4096x4_1_0_0_1_n_n.lhsIdx_val_of_single rfl i q
theorem l1_rhs_0 (i : S4096x4.Idx) (q : dot_S4096x128_S128x4_S4096x4_1_0_0_1_n_n.contr.Idx) :
    (dot_S4096x128_S128x4_S4096x4_1_0_0_1_n_n.rhsIdx i q 0).val = (q ⟨0, by decide⟩).val :=
  dot_S4096x128_S128x4_S4096x4_1_0_0_1_n_n.rhsIdx_val_of_single rfl i q
theorem l1_rhs_1 (i : S4096x4.Idx) (q : dot_S4096x128_S128x4_S4096x4_1_0_0_1_n_n.contr.Idx) :
    (dot_S4096x128_S128x4_S4096x4_1_0_0_1_n_n.rhsIdx i q 1).val = (i 1).val := by
  unfold DotDims.rhsIdx
  rw [dif_neg (show ¬(1 : Fin S128x4.rank) ∈ dot_S4096x128_S128x4_S4096x4_1_0_0_1_n_n.rhsBatch by decide), dif_pos (show (1 : Fin S128x4.rank) ∈ dot_S4096x128_S128x4_S4096x4_1_0_0_1_n_n.rhsNonContracting by decide)]
  rfl

/-- The 4096×128 by 128×4 product into the zero accumulator is the plain sum over the 128 lanes. -/
theorem l1_prod_apply (A : FVec Ideal S4096x128 .bf16) (B : FVec Ideal S128x4 .bf16) (p : Fin 4096) (u : Fin 4) :
    matmul dot_S4096x128_S128x4_S4096x4_1_0_0_1_n_n none A B (constant (F := Ideal) S4096x4 .f32 0x00000000#32) (ix2 p u)
      = ∑ l : Fin 128, A (ix2 p l) * B (ix2 l u) := by
  simp only [matmul]
  rw [Ideal.matmul_constant_zero_apply, ← Equiv.sum_comp (ValueIdx.contrEquiv1 dot_S4096x128_S128x4_S4096x4_1_0_0_1_n_n 128 rfl rfl).symm]
  refine Finset.sum_congr rfl fun k _ => ?_
  have hk := ValueIdx.contrEquiv1_symm_val dot_S4096x128_S128x4_S4096x4_1_0_0_1_n_n 128 rfl rfl k
  have el : dot_S4096x128_S128x4_S4096x4_1_0_0_1_n_n.lhsIdx (ix2 p u) ((ValueIdx.contrEquiv1 dot_S4096x128_S128x4_S4096x4_1_0_0_1_n_n 128 rfl rfl).symm k) = ix2 p k := funext fun a => Fin.ext (by
    match a with
    | ⟨0, _⟩ => exact l1_lhs_0 _ _
    | ⟨1, _⟩ => exact (l1_lhs_1 _ _).trans hk)
  have er : dot_S4096x128_S128x4_S4096x4_1_0_0_1_n_n.rhsIdx (ix2 p u) ((ValueIdx.contrEquiv1 dot_S4096x128_S128x4_S4096x4_1_0_0_1_n_n 128 rfl rfl).symm k) = ix2 k u := funext fun a => Fin.ext (by
    match a with
    | ⟨0, _⟩ => exact (l1_rhs_0 _ _).trans hk
    | ⟨1, _⟩ => exact l1_rhs_1 _ _)
  rw [el, er]

/-- The window tiled four times along the lanes: lane l reads channel l mod 32. -/
def l1_tile4 (W : Vec Ideal S64x64x32 .f32) : FVec Ideal S64x64x128 .f32 :=
  concatenate S64x64x128 2 [⟨S64x64x32, W⟩, ⟨S64x64x32, W⟩, ⟨S64x64x32, W⟩, ⟨S64x64x32, W⟩] concatenates_S64x64x32_S64x64x32_S64x64x32_S64x64x32_S64x64x128_d2

theorem l1_tile4_apply (W : Vec Ideal S64x64x32 .f32) (h w : Fin 64) (l : Fin 128) :
    l1_tile4 W (ix3 h w l) = W (ix3 h w ⟨l.val % 32, Nat.mod_lt _ (by decide)⟩) := by
  unfold l1_tile4
  exact concatenate_replicate_apply (t := S64x64x128) (s₁ := S64x64x32) (2 : Fin 3) 4 W
    concatenates_S64x64x32_S64x64x32_S64x64x32_S64x64x32_S64x64x128_d2 rfl (ix3 h w l)
    (ix3 h w ⟨l.val % 32, Nat.mod_lt _ (by decide)⟩) rfl (fun b hb => by
      match b with
      | ⟨0, _⟩ => rfl
      | ⟨1, _⟩ => rfl
      | ⟨2, _⟩ => exact absurd rfl hb)

/-- The group's contribution as the kernel computes it: |tiled window − broadcast filter row| as a 4096×128 matrix,
    times the 128×4 selector, back as 64×64×4. -/
def l1_contrib (Sel : FVec Ideal S128x4 .bf16) (T : FVec Ideal S64x64x128 .f32) (R : Vec Ideal S1x1x128 .f32) : FVec Ideal S64x64x4 .f32 :=
  shapeCast S64x64x4
    (matmul dot_S4096x128_S128x4_S4096x4_1_0_0_1_n_n none
      (truncf .bf16
        (shapeCast S4096x128
          (absf (subf T (broadcastTo S64x64x128 (shapeCast S1x1x128 (shapeCast S128 R shapeCasts_S1x1x128_S128) shapeCasts_S128_S1x1x128)
            broadcasts_S1x1x128_S64x64x128)))
          shapeCasts_S64x64x128_S4096x128)
        bitsLt_bf16_f32)
      Sel (constant S4096x4 .f32 0x00000000#32))
    shapeCasts_S4096x4_S64x64x4

theorem l1_contrib_apply (Sel : FVec Ideal S128x4 .bf16) (T : FVec Ideal S64x64x128 .f32) (R : Vec Ideal S1x1x128 .f32)
    (h w : Fin 64) (u : Fin 4) :
    l1_contrib Sel T R (ix3 h w u) = ∑ l : Fin 128, absE (T (ix3 h w l) - R (ix3 0 0 l)) * Sel (ix2 l u) := by
  unfold l1_contrib
  rw [shapeCast_apply _ shapeCasts_S4096x4_S64x64x4 (ix3 h w u) (ix2 ⟨64 * h.val + w.val, by omega⟩ u)
    (by rw [Shape.rowMajor_val_two, Shape.rowMajor_val_three]; show (64 * h.val + w.val) * 4 + u.val = (h.val * 64 + w.val) * 4 + u.val; omega)]
  rw [l1_prod_apply]
  refine Finset.sum_congr rfl fun l _ => ?_
  rw [truncf_apply, shapeCast_apply _ shapeCasts_S64x64x128_S4096x128 (ix2 ⟨64 * h.val + w.val, by omega⟩ l) (ix3 h w l)
    (by rw [Shape.rowMajor_val_two, Shape.rowMajor_val_three]; show (h.val * 64 + w.val) * 128 + l.val = (64 * h.val + w.val) * 128 + l.val; omega)]
  rw [shapeCast_shapeCast]
  rw [show absf (subf T (broadcastTo S64x64x128 R broadcasts_S1x1x128_S64x64x128)) (ix3 h w l)
      = absE (T (ix3 h w l) - broadcastTo S64x64x128 R broadcasts_S1x1x128_S64x64x128 (ix3 h w l)) from rfl]
  rw [broadcastTo_apply R broadcasts_S1x1x128_S64x64x128 (ix3 h w l) (ix3 0 0 l) (fun a => by
    match a with
    | ⟨0, _⟩ => rfl
    | ⟨1, _⟩ => rfl
    | ⟨2, _⟩ => rfl)]

variable (c : Dev nD) (arg1 : Memref sig .tc .vmem S1x64x64x32 .f32) (harg1 : arg1.IsWhole) (arg2 : Memref sig .tc .vmem S9x32x70 .f32) (harg2 : arg2.IsWhole)
  (arg3 : Memref sig .tc .vmem S9x3x128 .f32) (harg3 : arg3.IsWhole) (arg4 : Memref sig .tc .vmem S128x4 .f32) (harg4 : arg4.IsWhole)
  (arg5 : Memref sig .tc .vmem S1x10 .f32) (harg5 : arg5.IsWhole) (arg6 : Memref sig .tc .vmem S1x10 .f32) (harg6 : arg6.IsWhole)
  (arg7 : Memref sig .tc .vmem S1x64x64x80 .f32) (harg7 : arg7.IsWhole) (arg8 : Memref sig .tc .vmem S66x66x32 .f32) (harg8 : arg8.IsWhole)
  (arg9 : Memref sig .tc .vmem S64x64x70 .f32) (harg9 : arg9.IsWhole) (arg10 : Memref sig .tc .vmem S64x64x12 .f32) (harg10 : arg10.IsWhole)
  (X : Vec Ideal S1x64x64x32 .f32) (WL : Vec Ideal S9x32x70 .f32) (WP : Vec Ideal S9x3x128 .f32) (SEL : Vec Ideal S128x4 .f32)
  (Q3 Q5 : Vec Ideal S1x10 .f32)

/-! ## The scratch's 4-channel slices -/

/-- Slot u of the slice at channel offset c0 is channel c0 + u of the scratch. -/
theorem l1_slice_idx (c0 : Nat) (hc : c0 + 4 ≤ 12) (inb : ∀ a, (![0, 0, c0] : Fin 3 → Nat) a + S64x64x4.size a ≤ S64x64x12.size a)
    (h w : Fin 64) (u : Fin 4) :
    (Rect.unit (s := S64x64x12) ![0, 0, c0] S64x64x4.size inb).toLoadRect.idx (ix3 h w u) = ix3 h w (⟨c0 + u.val, by omega⟩ : Fin 12) := by
  funext a; refine Fin.ext ?_
  match a with
  | ⟨0, _⟩ => show 0 + 1 * h.val = h.val; omega
  | ⟨1, _⟩ => show 0 + 1 * w.val = w.val; omega
  | ⟨2, _⟩ => show c0 + 1 * u.val = c0 + u.val; omega

/-- A load of the slice after the stores L reads what they left there. -/
theorem l1_read_slice (L : List (View.Piece (Elt Ideal) S64x64x12 .f32)) (c0 : Nat) (hc : c0 + 4 ≤ 12)
    (inb : ∀ a, (![0, 0, c0] : Fin 3 → Nat) a + S64x64x4.size a ≤ S64x64x12.size a) (h w : Fin 64) (u : Fin 4) :
    arg10.view.readCov L (Rect.unit (s := S64x64x12) ![0, 0, c0] S64x64x4.size inb).toLoadRect (ix3 h w u)
      = View.canon L (ix3 h w (⟨c0 + u.val, by omega⟩ : Fin 12)) := by
  rw [View.readCov_eq_canon']
  exact congrArg (View.canon L) (l1_slice_idx c0 hc inb h w u)

/-- A store to the slice, last: its payload on the slice's channels, the earlier stores elsewhere. -/
theorem l1_canon_store_slice (L : List (View.Piece (Elt Ideal) S64x64x12 .f32)) (c0 : Nat) (hc : c0 + 4 ≤ 12)
    (inb : ∀ a, (![0, 0, c0] : Fin 3 → Nat) a + S64x64x4.size a ≤ S64x64x12.size a) (P : S64x64x4.Idx → EReal)
    (h w : Fin 64) (o : Fin 12) :
    View.canon ((⟨Rect.unit (s := S64x64x12) ![0, 0, c0] S64x64x4.size inb, P⟩ : View.Piece (Elt Ideal) S64x64x12 .f32) :: L) (ix3 h w o)
      = if hh : c0 ≤ o.val ∧ o.val < c0 + 4 then P (ix3 h w (⟨o.val - c0, by omega⟩ : Fin 4)) else View.canon L (ix3 h w o) := by
  by_cases hh : c0 ≤ o.val ∧ o.val < c0 + 4
  · rw [dif_pos hh]
    have e : ix3 h w o = (Rect.unit (s := S64x64x12) ![0, 0, c0] S64x64x4.size inb).emb (ix3 h w (⟨o.val - c0, by omega⟩ : Fin 4)) := by
      funext a; refine Fin.ext ?_
      match a with
      | ⟨0, _⟩ => show h.val = 0 + 1 * h.val; omega
      | ⟨1, _⟩ => show w.val = 0 + 1 * w.val; omega
      | ⟨2, _⟩ => show o.val = c0 + 1 * (o.val - c0); omega
    rw [e]
    exact View.canon_cons_emb (Rect.unit (s := S64x64x12) ![0, 0, c0] S64x64x4.size inb) P L _
  · rw [dif_neg hh]
    refine View.canon_cons_of_not_mem _ L ?_
    show ix3 h w o ∉ (Rect.unit (s := S64x64x12) ![0, 0, c0] S64x64x4.size inb).set
    rw [Rect.mem_set_unit]
    intro hm
    have h2 := hm 2
    exact hh ⟨h2.1, h2.2⟩

/-- The contribution of offset k to padded channel o at a pixel. -/
def l1_term (X : Vec Ideal S1x64x64x32 .f32) (WP : Vec Ideal S9x3x128 .f32) (SEL : Vec Ideal S128x4 .f32)
    (h w : Fin 64) (o : Fin 12) (k : Fin 9) : EReal :=
  ∑ l : Fin 128, absE (win (imgOf X) k h w ⟨l.val % 32, by omega⟩ - WP (ix3 k ⟨o.val / 4, by omega⟩ l)) * SEL (ix2 l ⟨o.val % 4, by omega⟩)

/-- One step of the accumulation: the slice of group g is loaded, offset k's contribution added, the slice stored back. -/
theorem l1_step_spec (L : List (View.Piece (Elt Ideal) S64x64x12 .f32)) (c0 g k : Nat) (hc0 : c0 = 4 * g) (hg : g < 3) (hk : k < 9)
    (inb : ∀ a, (![0, 0, c0] : Fin 3 → Nat) a + S64x64x4.size a ≤ S64x64x12.size a) (Pay : S64x64x4.Idx → EReal)
    (W : Vec Ideal S64x64x32 .f32) (R : Vec Ideal S1x1x128 .f32) (Sel : FVec Ideal S128x4 .bf16)
    (hPay : Pay = shapeCast S64x64x4 (addf (arg10.view.readCov L (Rect.unit (s := S64x64x12) ![0, 0, c0] S64x64x4.size inb).toLoadRect) (l1_contrib Sel (l1_tile4 W) R))
      shapeCasts_S64x64x4_S64x64x4)
    (hW : ∀ (h w : Fin 64) (ch : Fin 32), W (ix3 h w ch) = win (imgOf X) ⟨k, hk⟩ h w ch)
    (hR : ∀ l : Fin 128, R (ix3 0 0 l) = WP (ix3 (⟨k, hk⟩ : Fin 9) (⟨g, hg⟩ : Fin 3) l))
    (hSel : ∀ (l : Fin 128) (u : Fin 4), Sel (ix2 l u) = SEL (ix2 l u))
    (h w : Fin 64) (o : Fin 12) :
    View.canon ((⟨Rect.unit (s := S64x64x12) ![0, 0, c0] S64x64x4.size inb, Pay⟩ : View.Piece (Elt Ideal) S64x64x12 .f32) :: L) (ix3 h w o)
      = View.canon L (ix3 h w o) + (if o.val / 4 = g then l1_term X WP SEL h w o ⟨k, hk⟩ else 0) := by
  have hc : c0 + 4 ≤ 12 := by omega
  rw [l1_canon_store_slice L c0 hc inb Pay h w o]
  by_cases hh : c0 ≤ o.val ∧ o.val < c0 + 4
  · have hog : o.val / 4 = g := by omega
    rw [dif_pos hh, if_pos hog, hPay, shapeCast_self]
    show arg10.view.readCov L (Rect.unit (s := S64x64x12) ![0, 0, c0] S64x64x4.size inb).toLoadRect (ix3 h w (⟨o.val - c0, by omega⟩ : Fin 4))
        + l1_contrib Sel (l1_tile4 W) R (ix3 h w (⟨o.val - c0, by omega⟩ : Fin 4)) = _
    rw [l1_read_slice arg10 L c0 hc inb, l1_contrib_apply]
    have eo : (⟨c0 + (o.val - c0), by omega⟩ : Fin 12) = o := Fin.ext (by show c0 + (o.val - c0) = o.val; omega)
    rw [eo]
    refine congrArg (View.canon L (ix3 h w o) + ·) ?_
    unfold l1_term
    refine Finset.sum_congr rfl fun l _ => ?_
    rw [l1_tile4_apply, hW, hR, hSel]
    have eg : (⟨g, hg⟩ : Fin 3) = ⟨o.val / 4, by omega⟩ := Fin.ext hog.symm
    have eu : (⟨o.val - c0, by omega⟩ : Fin 4) = ⟨o.val % 4, by omega⟩ := Fin.ext (by show o.val - c0 = o.val % 4; omega)
    rw [eg, eu]
  · have hog : ¬ o.val / 4 = g := by omega
    rw [dif_neg hh, if_neg hog, add_zero]

/-! ## What the steps read -/

theorem l1_hz2 : (![0, 0] : Fin 2 → Nat) = fun _ => 0 := by funext a; fin_cases a <;> rfl
theorem l1_hz3 : (![0, 0, 0] : Fin 3 → Nat) = fun _ => 0 := by funext a; fin_cases a <;> rfl

/-- The packed filter row of offset k and group g, as loaded. -/
theorem l1_row_apply (k g : Nat) (hk : k < 9) (hg : g < 3)
    (inb : ∀ a, (![k, g, 0] : Fin 3 → Nat) a + S1x1x128.size a ≤ S9x3x128.size a) (l : Fin 128) :
    View.readAt (Elt Ideal) arg3.view (Rect.unit (s := S9x3x128) ![k, g, 0] S1x1x128.size inb).toLoadRect (harg3.unread WP) (ix3 0 0 l)
      = WP (ix3 (⟨k, hk⟩ : Fin 9) (⟨g, hg⟩ : Fin 3) l) := by
  rw [View.readAt_eq_ld, Memref.IsWhole.read_unread]
  show WP ((Rect.unit (s := S9x3x128) ![k, g, 0] S1x1x128.size inb).toLoadRect.idx (ix3 0 0 l)) = _
  refine congrArg WP ?_
  funext a; refine Fin.ext ?_
  match a with
  | ⟨0, _⟩ => show k + 1 * 0 = k; omega
  | ⟨1, _⟩ => show g + 1 * 0 = g; omega
  | ⟨2, _⟩ => show 0 + 1 * l.val = l.val; omega

/-- The selector the products use is the loaded selector (its cast to bf16 is the identity on extended reals). -/
theorem l1_sel_apply (l : Fin 128) (u : Fin 4) :
    pointRun.sl.r (F := Ideal) c arg4 harg4 SEL (ix2 l u) = SEL (ix2 l u) := by
  have hX : View.readAt (Elt Ideal) arg4.view (Rect.unit (s := S128x4) ![0, 0] S128x4.size inb_S128x4_S128x4_0_0).toLoadRect (harg4.unread SEL) = SEL := by
    rw [View.readAt_eq_ld, Memref.IsWhole.read_unread, View.ld_unit_zero (S := S128x4) l1_hz2]
  unfold pointRun.sl.r k0_pay9
  exact (congrFun (shapeCast_self (s := S128x4) (α := EReal) _ shapeCasts_S128x4_S128x4) (ix2 l u)).trans (congrFun hX _)

/-- The scratch starts at zero. -/
theorem l1_init_apply (h w : Fin 64) (o : Fin 12) :
    View.canon (pointRun.sl.H9_1 (F := Ideal)) (ix3 h w o) = 0 := by
  unfold pointRun.sl.H9_1
  rw [View.canon_unit_zero (S := S64x64x12) l1_hz3]
  unfold k0_pay8 pointRun.sl.cst_23
  show shapeCast S64x64x12 (broadcast S64x64x12 (FloatOps.ofBits (F := Ideal) FTy.f32 0#32)) shapeCasts_S64x64x12_S64x64x12 (ix3 h w o) = 0
  rw [shapeCast_self]
  exact Ideal.ofBits_zero_f32

/-- The final load reads what the twenty-seven steps left. -/
theorem l1_final_apply (h w : Fin 64) (o : Fin 12) :
    pointRun.sl.v601 (F := Ideal) c arg1 harg1 arg3 harg3 arg4 harg4 arg8 arg10 X WP SEL (ix3 h w o)
      = View.canon (pointRun.sl.H9_28 (F := Ideal) c arg1 harg1 arg3 harg3 arg4 harg4 arg8 arg10 X WP SEL) (ix3 h w o) := by
  unfold pointRun.sl.v601
  rw [View.readCov_eq_canon']
  show View.ld (View.canon (pointRun.sl.H9_28 (F := Ideal) c arg1 harg1 arg3 harg3 arg4 harg4 arg8 arg10 X WP SEL))
    (Rect.unit (s := S64x64x12) ![0, 0, 0] S64x64x12.size inb_S64x64x12_S64x64x12_0_0_0) (ix3 h w o) = _
  rw [View.ld_unit_zero (S := S64x64x12) l1_hz3]

theorem l1_three_groups (a t : EReal) (q : Nat) (hq : q < 3) :
    ((a + (if q = 0 then t else 0)) + (if q = 1 then t else 0)) + (if q = 2 then t else 0) = a + t := by
  interval_cases q <;> simp

theorem l1_sum_fin9 (t : Fin 9 → EReal) :
    ∑ k : Fin 9, t k = 0 + t ⟨0, by omega⟩ + t ⟨1, by omega⟩ + t ⟨2, by omega⟩ + t ⟨3, by omega⟩ + t ⟨4, by omega⟩ + t ⟨5, by omega⟩
      + t ⟨6, by omega⟩ + t ⟨7, by omega⟩ + t ⟨8, by omega⟩ := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_zero]
  rfl

/-! ## The twenty-seven steps -/

theorem l1_st_0_0 (h w : Fin 64) (o : Fin 12) :
    View.canon (pointRun.sl.H9_2 (F := Ideal) c arg1 harg1 arg3 harg3 arg4 harg4 arg8 arg10 X WP SEL) (ix3 h w o)
      = View.canon (pointRun.sl.H9_1 (F := Ideal)) (ix3 h w o) + (if o.val / 4 = 0 then l1_term X WP SEL h w o ⟨0, by omega⟩ else 0) :=
  l1_step_spec arg10 X WP SEL (pointRun.sl.H9_1 (F := Ideal)) 0 0 0 rfl (by omega) (by omega) inb_S64x64x12_S64x64x4_0_0_0 _
    (pointRun.sl.v33 (F := Ideal) c arg1 harg1 arg8 X)
    (View.readAt (Elt Ideal) arg3.view (Rect.unit (s := S9x3x128) ![0, 0, 0] S1x1x128.size inb_S9x3x128_S1x1x128_0_0_0).toLoadRect (harg3.unread WP))
    (pointRun.sl.r (F := Ideal) c arg4 harg4 SEL) rfl
    (win0_apply c arg1 harg1 arg8 X) (l1_row_apply arg3 harg3 WP 0 0 (by omega) (by omega) inb_S9x3x128_S1x1x128_0_0_0)
    (l1_sel_apply c arg4 harg4 SEL) h w o

theorem l1_st_0_1 (h w : Fin 64) (o : Fin 12) :
    View.canon (pointRun.sl.H9_3 (F := Ideal) c arg1 harg1 arg3 harg3 arg4 harg4 arg8 arg10 X WP SEL) (ix3 h w o)
      = View.canon (pointRun.sl.H9_2 (F := Ideal) c arg1 harg1 arg3 harg3 arg4 harg4 arg8 arg10 X WP SEL) (ix3 h w o) + (if o.val / 4 = 1 then l1_term X WP SEL h w o ⟨0, by omega⟩ else 0) :=
  l1_step_spec arg10 X WP SEL (pointRun.sl.H9_2 (F := Ideal) c arg1 harg1 arg3 harg3 arg4 harg4 arg8 arg10 X WP SEL) 4 1 0 rfl (by omega) (by omega) inb_S64x64x12_S64x64x4_0_0_4 _
    (pointRun.sl.v33 (F := Ideal) c arg1 harg1 arg8 X)
    (View.readAt (Elt Ideal) arg3.view (Rect.unit (s := S9x3x128) ![0, 1, 0] S1x1x128.size inb_S9x3x128_S1x1x128_0_1_0).toLoadRect (harg3.unread WP))
    (pointRun.sl.r (F := Ideal) c arg4 harg4 SEL) rfl
    (win0_apply c arg1 harg1 arg8 X) (l1_row_apply arg3 harg3 WP 0 1 (by omega) (by omega) inb_S9x3x128_S1x1x128_0_1_0)
    (l1_sel_apply c arg4 harg4 SEL) h w o

theorem l1_st_0_2 (h w : Fin 64) (o : Fin 12) :
    View.canon (pointRun.sl.H9_4 (F := Ideal) c arg1 harg1 arg3 harg3 arg4 harg4 arg8 arg10 X WP SEL) (ix3 h w o)
      = View.canon (pointRun.sl.H9_3 (F := Ideal) c arg1 harg1 arg3 harg3 arg4 harg4 arg8 arg10 X WP SEL) (ix3 h w o) + (if o.val / 4 = 2 then l1_term X WP SEL h w o ⟨0, by omega⟩ else 0) :=
  l1_step_spec arg10 X WP SEL (pointRun.sl.H9_3 (F := Ideal) c arg1 harg1 arg3 harg3 arg4 harg4 arg8 arg10 X WP SEL) 8 2 0 rfl (by omega) (by omega) inb_S64x64x12_S64x64x4_0_0_8 _
    (pointRun.sl.v33 (F := Ideal) c arg1 harg1 arg8 X)
    (View.readAt (Elt Ideal) arg3.view (Rect.unit (s := S9x3x128) ![0, 2, 0] S1x1x128.size inb_S9x3x128_S1x1x128_0_2_0).toLoadRect (harg3.unread WP))
    (pointRun.sl.r (F := Ideal) c arg4 harg4 SEL) rfl
    (win0_apply c arg1 harg1 arg8 X) (l1_row_apply arg3 harg3 WP 0 2 (by omega) (by omega) inb_S9x3x128_S1x1x128_0_2_0)
    (l1_sel_apply c arg4 harg4 SEL) h w o

theorem l1_st_1_0 (h w : Fin 64) (o : Fin 12) :
    View.canon (pointRun.sl.H9_5 (F := Ideal) c arg1 harg1 arg3 harg3 arg4 harg4 arg8 arg10 X WP SEL) (ix3 h w o)
      = View.canon (pointRun.sl.H9_4 (F := Ideal) c arg1 harg1 arg3 harg3 arg4 harg4 arg8 arg10 X WP SEL) (ix3 h w o) + (if o.val / 4 = 0 then l1_term X WP SEL h w o ⟨1, by omega⟩ else 0) :=
  l1_step_spec arg10 X WP SEL (pointRun.sl.H9_4 (F := Ideal) c arg1 harg1 arg3 harg3 arg4 harg4 arg8 arg10 X WP SEL) 0 0 1 rfl (by omega) (by omega) inb_S64x64x12_S64x64x4_0_0_0 _
    (pointRun.sl.v96 (F := Ideal) c arg1 harg1 arg8 X)
    (View.readAt (Elt Ideal) arg3.view (Rect.unit (s := S9x3x128) ![1, 0, 0] S1x1x128.size inb_S9x3x128_S1x1x128_1_0_0).toLoadRect (harg3.unread WP))
    (pointRun.sl.r (F := Ideal) c arg4 harg4 SEL) rfl
    (win1_apply c arg1 harg1 arg8 X) (l1_row_apply arg3 harg3 WP 1 0 (by omega) (by omega) inb_S9x3x128_S1x1x128_1_0_0)
    (l1_sel_apply c arg4 harg4 SEL) h w o

theorem l1_st_1_1 (h w : Fin 64) (o : Fin 12) :
    View.canon (pointRun.sl.H9_6 (F := Ideal) c arg1 harg1 arg3 harg3 arg4 harg4 arg8 arg10 X WP SEL) (ix3 h w o)
      = View.canon (pointRun.sl.H9_5 (F := Ideal) c arg1 harg1 arg3 harg3 arg4 harg4 arg8 arg10 X WP SEL) (ix3 h w o) + (if o.val / 4 = 1 then l1_term X WP SEL h w o ⟨1, by omega⟩ else 0) :=
  l1_step_spec arg10 X WP SEL (pointRun.sl.H9_5 (F := Ideal) c arg1 harg1 arg3 harg3 arg4 harg4 arg8 arg10 X WP SEL) 4 1 1 rfl (by omega) (by omega) inb_S64x64x12_S64x64x4_0_0_4 _
    (pointRun.sl.v96 (F := Ideal) c arg1 harg1 arg8 X)
    (View.readAt (Elt Ideal) arg3.view (Rect.unit (s := S9x3x128) ![1, 1, 0] S1x1x128.size inb_S9x3x128_S1x1x128_1_1_0).toLoadRect (harg3.unread WP))
    (pointRun.sl.r (F := Ideal) c arg4 harg4 SEL) rfl
    (win1_apply c arg1 harg1 arg8 X) (l1_row_apply arg3 harg3 WP 1 1 (by omega) (by omega) inb_S9x3x128_S1x1x128_1_1_0)
    (l1_sel_apply c arg4 harg4 SEL) h w o

theorem l1_st_1_2 (h w : Fin 64) (o : Fin 12) :
    View.canon (pointRun.sl.H9_7 (F := Ideal) c arg1 harg1 arg3 harg3 arg4 harg4 arg8 arg10 X WP SEL) (ix3 h w o)
      = View.canon (pointRun.sl.H9_6 (F := Ideal) c arg1 harg1 arg3 harg3 arg4 harg4 arg8 arg10 X WP SEL) (ix3 h w o) + (if o.val / 4 = 2 then l1_term X WP SEL h w o ⟨1, by omega⟩ else 0) :=
  l1_step_spec arg10 X WP SEL (pointRun.sl.H9_6 (F := Ideal) c arg1 harg1 arg3 harg3 arg4 harg4 arg8 arg10 X WP SEL) 8 2 1 rfl (by omega) (by omega) inb_S64x64x12_S64x64x4_0_0_8 _
    (pointRun.sl.v96 (F := Ideal) c arg1 harg1 arg8 X)
    (View.readAt (Elt Ideal) arg3.view (Rect.unit (s := S9x3x128) ![1, 2, 0] S1x1x128.size inb_S9x3x128_S1x1x128_1_2_0).toLoadRect (harg3.unread WP))
    (pointRun.sl.r (F := Ideal) c arg4 harg4 SEL) rfl
    (win1_apply c arg1 harg1 arg8 X) (l1_row_apply arg3 harg3 WP 1 2 (by omega) (by omega) inb_S9x3x128_S1x1x128_1_2_0)
    (l1_sel_apply c arg4 harg4 SEL) h w o

theorem l1_st_2_0 (h w : Fin 64) (o : Fin 12) :
    View.canon (pointRun.sl.H9_8 (F := Ideal) c arg1 harg1 arg3 harg3 arg4 harg4 arg8 arg10 X WP SEL) (ix3 h w o)
      = View.canon (pointRun.sl.H9_7 (F := Ideal) c arg1 harg1 arg3 harg3 arg4 harg4 arg8 arg10 X WP SEL) (ix3 h w o) + (if o.val / 4 = 0 then l1_term X WP SEL h w o ⟨2, by omega⟩ else 0) :=
  l1_step_spec arg10 X WP SEL (pointRun.sl.H9_7 (F := Ideal) c arg1 harg1 arg3 harg3 arg4 harg4 arg8 arg10 X WP SEL) 0 0 2 rfl (by omega) (by omega) inb_S64x64x12_S64x64x4_0_0_0 _
    (pointRun.sl.v159 (F := Ideal) c arg1 harg1 arg8 X)
    (View.readAt (Elt Ideal) arg3.view (Rect.unit (s := S9x3x128) ![2, 0, 0] S1x1x128.size inb_S9x3x128_S1x1x128_2_0_0).toLoadRect (harg3.unread WP))
    (pointRun.sl.r (F := Ideal) c arg4 harg4 SEL) rfl
    (win2_apply c arg1 harg1 arg8 X) (l1_row_apply arg3 harg3 WP 2 0 (by omega) (by omega) inb_S9x3x128_S1x1x128_2_0_0)
    (l1_sel_apply c arg4 harg4 SEL) h w o

theorem l1_st_2_1 (h w : Fin 64) (o : Fin 12) :
    View.canon (pointRun.sl.H9_9 (F := Ideal) c arg1 harg1 arg3 harg3 arg4 harg4 arg8 arg10 X WP SEL) (ix3 h w o)
      = View.canon (pointRun.sl.H9_8 (F := Ideal) c arg1 harg1 arg3 harg3 arg4 harg4 arg8 arg10 X WP SEL) (ix3 h w o) + (if o.val / 4 = 1 then l1_term X WP SEL h w o ⟨2, by omega⟩ else 0) :=
  l1_step_spec arg10 X WP SEL (pointRun.sl.H9_8 (F := Ideal) c arg1 harg1 arg3 harg3 arg4 harg4 arg8 arg10 X WP SEL) 4 1 2 rfl (by omega) (by omega) inb_S64x64x12_S64x64x4_0_0_4 _
    (pointRun.sl.v159 (F := Ideal) c arg1 harg1 arg8 X)
    (View.readAt (Elt Ideal) arg3.view (Rect.unit (s := S9x3x128) ![2, 1, 0] S1x1x128.size inb_S9x3x128_S1x1x128_2_1_0).toLoadRect (harg3.unread WP))
    (pointRun.sl.r (F := Ideal) c arg4 harg4 SEL) rfl
    (win2_apply c arg1 harg1 arg8 X) (l1_row_apply arg3 harg3 WP 2 1 (by omega) (by omega) inb_S9x3x128_S1x1x128_2_1_0)
    (l1_sel_apply c arg4 harg4 SEL) h w o

theorem l1_st_2_2 (h w : Fin 64) (o : Fin 12) :
    View.canon (pointRun.sl.H9_10 (F := Ideal) c arg1 harg1 arg3 harg3 arg4 harg4 arg8 arg10 X WP SEL) (ix3 h w o)
      = View.canon (pointRun.sl.H9_9 (F := Ideal) c arg1 harg1 arg3 harg3 arg4 harg4 arg8 arg10 X WP SEL) (ix3 h w o) + (if o.val / 4 = 2 then l1_term X WP SEL h w o ⟨2, by omega⟩ else 0) :=
  l1_step_spec arg10 X WP SEL (pointRun.sl.H9_9 (F := Ideal) c arg1 harg1 arg3 harg3 arg4 harg4 arg8 arg10 X WP SEL) 8 2 2 rfl (by omega) (by omega) inb_S64x64x12_S64x64x4_0_0_8 _
    (pointRun.sl.v159 (F := Ideal) c arg1 harg1 arg8 X)
    (View.readAt (Elt Ideal) arg3.view (Rect.unit (s := S9x3x128) ![2, 2, 0] S1x1x128.size inb_S9x3x128_S1x1x128_2_2_0).toLoadRect (harg3.unread WP))
    (pointRun.sl.r (F := Ideal) c arg4 harg4 SEL) rfl
    (win2_apply c arg1 harg1 arg8 X) (l1_row_apply arg3 harg3 WP 2 2 (by omega) (by omega) inb_S9x3x128_S1x1x128_2_2_0)
    (l1_sel_apply c arg4 harg4 SEL) h w o

theorem l1_st_3_0 (h w : Fin 64) (o : Fin 12) :
    View.canon (pointRun.sl.H9_11 (F := Ideal) c arg1 harg1 arg3 harg3 arg4 harg4 arg8 arg10 X WP SEL) (ix3 h w o)
      = View.canon (pointRun.sl.H9_10 (F := Ideal) c arg1 harg1 arg3 harg3 arg4 harg4 arg8 arg10 X WP SEL) (ix3 h w o) + (if o.val / 4 = 0 then l1_term X WP SEL h w o ⟨3, by omega⟩ else 0) :=
  l1_step_spec arg10 X WP SEL (pointRun.sl.H9_10 (F := Ideal) c arg1 harg1 arg3 harg3 arg4 harg4 arg8 arg10 X WP SEL) 0 0 3 rfl (by omega) (by omega) inb_S64x64x12_S64x64x4_0_0_0 _
    (pointRun.sl.v222 (F := Ideal) c arg1 harg1 arg8 X)
    (View.readAt (Elt Ideal) arg3.view (Rect.unit (s := S9x3x128) ![3, 0, 0] S1x1x128.size inb_S9x3x128_S1x1x128_3_0_0).toLoadRect (harg3.unread WP))
    (pointRun.sl.r (F := Ideal) c arg4 harg4 SEL) rfl
    (win3_apply c arg1 harg1 arg8 X) (l1_row_apply arg3 harg3 WP 3 0 (by omega) (by omega) inb_S9x3x128_S1x1x128_3_0_0)
    (l1_sel_apply c arg4 harg4 SEL) h w o

theorem l1_st_3_1 (h w : Fin 64) (o : Fin 12) :
    View.canon (pointRun.sl.H9_12 (F := Ideal) c arg1 harg1 arg3 harg3 arg4 harg4 arg8 arg10 X WP SEL) (ix3 h w o)
      = View.canon (pointRun.sl.H9_11 (F := Ideal) c arg1 harg1 arg3 harg3 arg4 harg4 arg8 arg10 X WP SEL) (ix3 h w o) + (if o.val / 4 = 1 then l1_term X WP SEL h w o ⟨3, by omega⟩ else 0) :=
  l1_step_spec arg10 X WP SEL (pointRun.sl.H9_11 (F := Ideal) c arg1 harg1 arg3 harg3 arg4 harg4 arg8 arg10 X WP SEL) 4 1 3 rfl (by omega) (by omega) inb_S64x64x12_S64x64x4_0_0_4 _
    (pointRun.sl.v222 (F := Ideal) c arg1 harg1 arg8 X)
    (View.readAt (Elt Ideal) arg3.view (Rect.unit (s := S9x3x128) ![3, 1, 0] S1x1x128.size inb_S9x3x128_S1x1x128_3_1_0).toLoadRect (harg3.unread WP))
    (pointRun.sl.r (F := Ideal) c arg4 harg4 SEL) rfl
    (win3_apply c arg1 harg1 arg8 X) (l1_row_apply arg3 harg3 WP 3 1 (by omega) (by omega) inb_S9x3x128_S1x1x128_3_1_0)
    (l1_sel_apply c arg4 harg4 SEL) h w o

theorem l1_st_3_2 (h w : Fin 64) (o : Fin 12) :
    View.canon (pointRun.sl.H9_13 (F := Ideal) c arg1 harg1 arg3 harg3 arg4 harg4 arg8 arg10 X WP SEL) (ix3 h w o)
      = View.canon (pointRun.sl.H9_12 (F := Ideal) c arg1 harg1 arg3 harg3 arg4 harg4 arg8 arg10 X WP SEL) (ix3 h w o) + (if o.val / 4 = 2 then l1_term X WP SEL h w o ⟨3, by omega⟩ else 0) :=
  l1_step_spec arg10 X WP SEL (pointRun.sl.H9_12 (F := Ideal) c arg1 harg1 arg3 harg3 arg4 harg4 arg8 arg10 X WP SEL) 8 2 3 rfl (by omega) (by omega) inb_S64x64x12_S64x64x4_0_0_8 _
    (pointRun.sl.v222 (F := Ideal) c arg1 harg1 arg8 X)
    (View.readAt (Elt Ideal) arg3.view (Rect.unit (s := S9x3x128) ![3, 2, 0] S1x1x128.size inb_S9x3x128_S1x1x128_3_2_0).toLoadRect (harg3.unread WP))
    (pointRun.sl.r (F := Ideal) c arg4 harg4 SEL) rfl
    (win3_apply c arg1 harg1 arg8 X) (l1_row_apply arg3 harg3 WP 3 2 (by omega) (by omega) inb_S9x3x128_S1x1x128_3_2_0)
    (l1_sel_apply c arg4 harg4 SEL) h w o

theorem l1_st_4_0 (h w : Fin 64) (o : Fin 12) :
    View.canon (pointRun.sl.H9_14 (F := Ideal) c arg1 harg1 arg3 harg3 arg4 harg4 arg8 arg10 X WP SEL) (ix3 h w o)
      = View.canon (pointRun.sl.H9_13 (F := Ideal) c arg1 harg1 arg3 harg3 arg4 harg4 arg8 arg10 X WP SEL) (ix3 h w o) + (if o.val / 4 = 0 then l1_term X WP SEL h w o ⟨4, by omega⟩ else 0) :=
  l1_step_spec arg10 X WP SEL (pointRun.sl.H9_13 (F := Ideal) c arg1 harg1 arg3 harg3 arg4 harg4 arg8 arg10 X WP SEL) 0 0 4 rfl (by omega) (by omega) inb_S64x64x12_S64x64x4_0_0_0 _
    (pointRun.sl.v285 (F := Ideal) c arg1 harg1 arg8 X)
    (View.readAt (Elt Ideal) arg3.view (Rect.unit (s := S9x3x128) ![4, 0, 0] S1x1x128.size inb_S9x3x128_S1x1x128_4_0_0).toLoadRect (harg3.unread WP))
    (pointRun.sl.r (F := Ideal) c arg4 harg4 SEL) rfl
    (win4_apply c arg1 harg1 arg8 X) (l1_row_apply arg3 harg3 WP 4 0 (by omega) (by omega) inb_S9x3x128_S1x1x128_4_0_0)
    (l1_sel_apply c arg4 harg4 SEL) h w o

theorem l1_st_4_1 (h w : Fin 64) (o : Fin 12) :
    View.canon (pointRun.sl.H9_15 (F := Ideal) c arg1 harg1 arg3 harg3 arg4 harg4 arg8 arg10 X WP SEL) (ix3 h w o)
      = View.canon (pointRun.sl.H9_14 (F := Ideal) c arg1 harg1 arg3 harg3 arg4 harg4 arg8 arg10 X WP SEL) (ix3 h w o) + (if o.val / 4 = 1 then l1_term X WP SEL h w o ⟨4, by omega⟩ else 0) :=
  l1_step_spec arg10 X WP SEL (pointRun.sl.H9_14 (F := Ideal) c arg1 harg1 arg3 harg3 arg4 harg4 arg8 arg10 X WP SEL) 4 1 4 rfl (by omega) (by omega) inb_S64x64x12_S64x64x4_0_0_4 _
    (pointRun.sl.v285 (F := Ideal) c arg1 harg1 arg8 X)
    (View.readAt (Elt Ideal) arg3.view (Rect.unit (s := S9x3x128) ![4, 1, 0] S1x1x128.size inb_S9x3x128_S1x1x128_4_1_0).toLoadRect (harg3.unread WP))
    (pointRun.sl.r (F := Ideal) c arg4 harg4 SEL) rfl
    (win4_apply c arg1 harg1 arg8 X) (l1_row_apply arg3 harg3 WP 4 1 (by omega) (by omega) inb_S9x3x128_S1x1x128_4_1_0)
    (l1_sel_apply c arg4 harg4 SEL) h w o

theorem l1_st_4_2 (h w : Fin 64) (o : Fin 12) :
    View.canon (pointRun.sl.H9_16 (F := Ideal) c arg1 harg1 arg3 harg3 arg4 harg4 arg8 arg10 X WP SEL) (ix3 h w o)
      = View.canon (pointRun.sl.H9_15 (F := Ideal) c arg1 harg1 arg3 harg3 arg4 harg4 arg8 arg10 X WP SEL) (ix3 h w o) + (if o.val / 4 = 2 then l1_term X WP SEL h w o ⟨4, by omega⟩ else 0) :=
  l1_step_spec arg10 X WP SEL (pointRun.sl.H9_15 (F := Ideal) c arg1 harg1 arg3 harg3 arg4 harg4 arg8 arg10 X WP SEL) 8 2 4 rfl (by omega) (by omega) inb_S64x64x12_S64x64x4_0_0_8 _
    (pointRun.sl.v285 (F := Ideal) c arg1 harg1 arg8 X)
    (View.readAt (Elt Ideal) arg3.view (Rect.unit (s := S9x3x128) ![4, 2, 0] S1x1x128.size inb_S9x3x128_S1x1x128_4_2_0).toLoadRect (harg3.unread WP))
    (pointRun.sl.r (F := Ideal) c arg4 harg4 SEL) rfl
    (win4_apply c arg1 harg1 arg8 X) (l1_row_apply arg3 harg3 WP 4 2 (by omega) (by omega) inb_S9x3x128_S1x1x128_4_2_0)
    (l1_sel_apply c arg4 harg4 SEL) h w o

theorem l1_st_5_0 (h w : Fin 64) (o : Fin 12) :
    View.canon (pointRun.sl.H9_17 (F := Ideal) c arg1 harg1 arg3 harg3 arg4 harg4 arg8 arg10 X WP SEL) (ix3 h w o)
      = View.canon (pointRun.sl.H9_16 (F := Ideal) c arg1 harg1 arg3 harg3 arg4 harg4 arg8 arg10 X WP SEL) (ix3 h w o) + (if o.val / 4 = 0 then l1_term X WP SEL h w o ⟨5, by omega⟩ else 0) :=
  l1_step_spec arg10 X WP SEL (pointRun.sl.H9_16 (F := Ideal) c arg1 harg1 arg3 harg3 arg4 harg4 arg8 arg10 X WP SEL) 0 0 5 rfl (by omega) (by omega) inb_S64x64x12_S64x64x4_0_0_0 _
    (pointRun.sl.v348 (F := Ideal) c arg1 harg1 arg8 X)
    (View.readAt (Elt Ideal) arg3.view (Rect.unit (s := S9x3x128) ![5, 0, 0] S1x1x128.size inb_S9x3x128_S1x1x128_5_0_0).toLoadRect (harg3.unread WP))
    (pointRun.sl.r (F := Ideal) c arg4 harg4 SEL) rfl
    (win5_apply c arg1 harg1 arg8 X) (l1_row_apply arg3 harg3 WP 5 0 (by omega) (by omega) inb_S9x3x128_S1x1x128_5_0_0)
    (l1_sel_apply c arg4 harg4 SEL) h w o

theorem l1_st_5_1 (h w : Fin 64) (o : Fin 12) :
    View.canon (pointRun.sl.H9_18 (F := Ideal) c arg1 harg1 arg3 harg3 arg4 harg4 arg8 arg10 X WP SEL) (ix3 h w o)
      = View.canon (pointRun.sl.H9_17 (F := Ideal) c arg1 harg1 arg3 harg3 arg4 harg4 arg8 arg10 X WP SEL) (ix3 h w o) + (if o.val / 4 = 1 then l1_term X WP SEL h w o ⟨5, by omega⟩ else 0) :=
  l1_step_spec arg10 X WP SEL (pointRun.sl.H9_17 (F := Ideal) c arg1 harg1 arg3 harg3 arg4 harg4 arg8 arg10 X WP SEL) 4 1 5 rfl (by omega) (by omega) inb_S64x64x12_S64x64x4_0_0_4 _
    (pointRun.sl.v348 (F := Ideal) c arg1 harg1 arg8 X)
    (View.readAt (Elt Ideal) arg3.view (Rect.unit (s := S9x3x128) ![5, 1, 0] S1x1x128.size inb_S9x3x128_S1x1x128_5_1_0).toLoadRect (harg3.unread WP))
    (pointRun.sl.r (F := Ideal) c arg4 harg4 SEL) rfl
    (win5_apply c arg1 harg1 arg8 X) (l1_row_apply arg3 harg3 WP 5 1 (by omega) (by omega) inb_S9x3x128_S1x1x128_5_1_0)
    (l1_sel_apply c arg4 harg4 SEL) h w o

theorem l1_st_5_2 (h w : Fin 64) (o : Fin 12) :
    View.canon (pointRun.sl.H9_19 (F := Ideal) c arg1 harg1 arg3 harg3 arg4 harg4 arg8 arg10 X WP SEL) (ix3 h w o)
      = View.canon (pointRun.sl.H9_18 (F := Ideal) c arg1 harg1 arg3 harg3 arg4 harg4 arg8 arg10 X WP SEL) (ix3 h w o) + (if o.val / 4 = 2 then l1_term X WP SEL h w o ⟨5, by omega⟩ else 0) :=
  l1_step_spec arg10 X WP SEL (pointRun.sl.H9_18 (F := Ideal) c arg1 harg1 arg3 harg3 arg4 harg4 arg8 arg10 X WP SEL) 8 2 5 rfl (by omega) (by omega) inb_S64x64x12_S64x64x4_0_0_8 _
    (pointRun.sl.v348 (F := Ideal) c arg1 harg1 arg8 X)
    (View.readAt (Elt Ideal) arg3.view (Rect.unit (s := S9x3x128) ![5, 2, 0] S1x1x128.size inb_S9x3x128_S1x1x128_5_2_0).toLoadRect (harg3.unread WP))
    (pointRun.sl.r (F := Ideal) c arg4 harg4 SEL) rfl
    (win5_apply c arg1 harg1 arg8 X) (l1_row_apply arg3 harg3 WP 5 2 (by omega) (by omega) inb_S9x3x128_S1x1x128_5_2_0)
    (l1_sel_apply c arg4 harg4 SEL) h w o

theorem l1_st_6_0 (h w : Fin 64) (o : Fin 12) :
    View.canon (pointRun.sl.H9_20 (F := Ideal) c arg1 harg1 arg3 harg3 arg4 harg4 arg8 arg10 X WP SEL) (ix3 h w o)
      = View.canon (pointRun.sl.H9_19 (F := Ideal) c arg1 harg1 arg3 harg3 arg4 harg4 arg8 arg10 X WP SEL) (ix3 h w o) + (if o.val / 4 = 0 then l1_term X WP SEL h w o ⟨6, by omega⟩ else 0) :=
  l1_step_spec arg10 X WP SEL (pointRun.sl.H9_19 (F := Ideal) c arg1 harg1 arg3 harg3 arg4 harg4 arg8 arg10 X WP SEL) 0 0 6 rfl (by omega) (by omega) inb_S64x64x12_S64x64x4_0_0_0 _
    (pointRun.sl.v411 (F := Ideal) c arg1 harg1 arg8 X)
    (View.readAt (Elt Ideal) arg3.view (Rect.unit (s := S9x3x128) ![6, 0, 0] S1x1x128.size inb_S9x3x128_S1x1x128_6_0_0).toLoadRect (harg3.unread WP))
    (pointRun.sl.r (F := Ideal) c arg4 harg4 SEL) rfl
    (win6_apply c arg1 harg1 arg8 X) (l1_row_apply arg3 harg3 WP 6 0 (by omega) (by omega) inb_S9x3x128_S1x1x128_6_0_0)
    (l1_sel_apply c arg4 harg4 SEL) h w o

theorem l1_st_6_1 (h w : Fin 64) (o : Fin 12) :
    View.canon (pointRun.sl.H9_21 (F := Ideal) c arg1 harg1 arg3 harg3 arg4 harg4 arg8 arg10 X WP SEL) (ix3 h w o)
      = View.canon (pointRun.sl.H9_20 (F := Ideal) c arg1 harg1 arg3 harg3 arg4 harg4 arg8 arg10 X WP SEL) (ix3 h w o) + (if o.val / 4 = 1 then l1_term X WP SEL h w o ⟨6, by omega⟩ else 0) :=
  l1_step_spec arg10 X WP SEL (pointRun.sl.H9_20 (F := Ideal) c arg1 harg1 arg3 harg3 arg4 harg4 arg8 arg10 X WP SEL) 4 1 6 rfl (by omega) (by omega) inb_S64x64x12_S64x64x4_0_0_4 _
    (pointRun.sl.v411 (F := Ideal) c arg1 harg1 arg8 X)
    (View.readAt (Elt Ideal) arg3.view (Rect.unit (s := S9x3x128) ![6, 1, 0] S1x1x128.size inb_S9x3x128_S1x1x128_6_1_0).toLoadRect (harg3.unread WP))
    (pointRun.sl.r (F := Ideal) c arg4 harg4 SEL) rfl
    (win6_apply c arg1 harg1 arg8 X) (l1_row_apply arg3 harg3 WP 6 1 (by omega) (by omega) inb_S9x3x128_S1x1x128_6_1_0)
    (l1_sel_apply c arg4 harg4 SEL) h w o

theorem l1_st_6_2 (h w : Fin 64) (o : Fin 12) :
    View.canon (pointRun.sl.H9_22 (F := Ideal) c arg1 harg1 arg3 harg3 arg4 harg4 arg8 arg10 X WP SEL) (ix3 h w o)
      = View.canon (pointRun.sl.H9_21 (F := Ideal) c arg1 harg1 arg3 harg3 arg4 harg4 arg8 arg10 X WP SEL) (ix3 h w o) + (if o.val / 4 = 2 then l1_term X WP SEL h w o ⟨6, by omega⟩ else 0) :=
  l1_step_spec arg10 X WP SEL (pointRun.sl.H9_21 (F := Ideal) c arg1 harg1 arg3 harg3 arg4 harg4 arg8 arg10 X WP SEL) 8 2 6 rfl (by omega) (by omega) inb_S64x64x12_S64x64x4_0_0_8 _
    (pointRun.sl.v411 (F := Ideal) c arg1 harg1 arg8 X)
    (View.readAt (Elt Ideal) arg3.view (Rect.unit (s := S9x3x128) ![6, 2, 0] S1x1x128.size inb_S9x3x128_S1x1x128_6_2_0).toLoadRect (harg3.unread WP))
    (pointRun.sl.r (F := Ideal) c arg4 harg4 SEL) rfl
    (win6_apply c arg1 harg1 arg8 X) (l1_row_apply arg3 harg3 WP 6 2 (by omega) (by omega) inb_S9x3x128_S1x1x128_6_2_0)
    (l1_sel_apply c arg4 harg4 SEL) h w o

theorem l1_st_7_0 (h w : Fin 64) (o : Fin 12) :
    View.canon (pointRun.sl.H9_23 (F := Ideal) c arg1 harg1 arg3 harg3 arg4 harg4 arg8 arg10 X WP SEL) (ix3 h w o)
      = View.canon (pointRun.sl.H9_22 (F := Ideal) c arg1 harg1 arg3 harg3 arg4 harg4 arg8 arg10 X WP SEL) (ix3 h w o) + (if o.val / 4 = 0 then l1_term X WP SEL h w o ⟨7, by omega⟩ else 0) :=
  l1_step_spec arg10 X WP SEL (pointRun.sl.H9_22 (F := Ideal) c arg1 harg1 arg3 harg3 arg4 harg4 arg8 arg10 X WP SEL) 0 0 7 rfl (by omega) (by omega) inb_S64x64x12_S64x64x4_0_0_0 _
    (pointRun.sl.v474 (F := Ideal) c arg1 harg1 arg8 X)
    (View.readAt (Elt Ideal) arg3.view (Rect.unit (s := S9x3x128) ![7, 0, 0] S1x1x128.size inb_S9x3x128_S1x1x128_7_0_0).toLoadRect (harg3.unread WP))
    (pointRun.sl.r (F := Ideal) c arg4 harg4 SEL) rfl
    (win7_apply c arg1 harg1 arg8 X) (l1_row_apply arg3 harg3 WP 7 0 (by omega) (by omega) inb_S9x3x128_S1x1x128_7_0_0)
    (l1_sel_apply c arg4 harg4 SEL) h w o

theorem l1_st_7_1 (h w : Fin 64) (o : Fin 12) :
    View.canon (pointRun.sl.H9_24 (F := Ideal) c arg1 harg1 arg3 harg3 arg4 harg4 arg8 arg10 X WP SEL) (ix3 h w o)
      = View.canon (pointRun.sl.H9_23 (F := Ideal) c arg1 harg1 arg3 harg3 arg4 harg4 arg8 arg10 X WP SEL) (ix3 h w o) + (if o.val / 4 = 1 then l1_term X WP SEL h w o ⟨7, by omega⟩ else 0) :=
  l1_step_spec arg10 X WP SEL (pointRun.sl.H9_23 (F := Ideal) c arg1 harg1 arg3 harg3 arg4 harg4 arg8 arg10 X WP SEL) 4 1 7 rfl (by omega) (by omega) inb_S64x64x12_S64x64x4_0_0_4 _
    (pointRun.sl.v474 (F := Ideal) c arg1 harg1 arg8 X)
    (View.readAt (Elt Ideal) arg3.view (Rect.unit (s := S9x3x128) ![7, 1, 0] S1x1x128.size inb_S9x3x128_S1x1x128_7_1_0).toLoadRect (harg3.unread WP))
    (pointRun.sl.r (F := Ideal) c arg4 harg4 SEL) rfl
    (win7_apply c arg1 harg1 arg8 X) (l1_row_apply arg3 harg3 WP 7 1 (by omega) (by omega) inb_S9x3x128_S1x1x128_7_1_0)
    (l1_sel_apply c arg4 harg4 SEL) h w o

theorem l1_st_7_2 (h w : Fin 64) (o : Fin 12) :
    View.canon (pointRun.sl.H9_25 (F := Ideal) c arg1 harg1 arg3 harg3 arg4 harg4 arg8 arg10 X WP SEL) (ix3 h w o)
      = View.canon (pointRun.sl.H9_24 (F := Ideal) c arg1 harg1 arg3 harg3 arg4 harg4 arg8 arg10 X WP SEL) (ix3 h w o) + (if o.val / 4 = 2 then l1_term X WP SEL h w o ⟨7, by omega⟩ else 0) :=
  l1_step_spec arg10 X WP SEL (pointRun.sl.H9_24 (F := Ideal) c arg1 harg1 arg3 harg3 arg4 harg4 arg8 arg10 X WP SEL) 8 2 7 rfl (by omega) (by omega) inb_S64x64x12_S64x64x4_0_0_8 _
    (pointRun.sl.v474 (F := Ideal) c arg1 harg1 arg8 X)
    (View.readAt (Elt Ideal) arg3.view (Rect.unit (s := S9x3x128) ![7, 2, 0] S1x1x128.size inb_S9x3x128_S1x1x128_7_2_0).toLoadRect (harg3.unread WP))
    (pointRun.sl.r (F := Ideal) c arg4 harg4 SEL) rfl
    (win7_apply c arg1 harg1 arg8 X) (l1_row_apply arg3 harg3 WP 7 2 (by omega) (by omega) inb_S9x3x128_S1x1x128_7_2_0)
    (l1_sel_apply c arg4 harg4 SEL) h w o

theorem l1_st_8_0 (h w : Fin 64) (o : Fin 12) :
    View.canon (pointRun.sl.H9_26 (F := Ideal) c arg1 harg1 arg3 harg3 arg4 harg4 arg8 arg10 X WP SEL) (ix3 h w o)
      = View.canon (pointRun.sl.H9_25 (F := Ideal) c arg1 harg1 arg3 harg3 arg4 harg4 arg8 arg10 X WP SEL) (ix3 h w o) + (if o.val / 4 = 0 then l1_term X WP SEL h w o ⟨8, by omega⟩ else 0) :=
  l1_step_spec arg10 X WP SEL (pointRun.sl.H9_25 (F := Ideal) c arg1 harg1 arg3 harg3 arg4 harg4 arg8 arg10 X WP SEL) 0 0 8 rfl (by omega) (by omega) inb_S64x64x12_S64x64x4_0_0_0 _
    (pointRun.sl.v537 (F := Ideal) c arg1 harg1 arg8 X)
    (View.readAt (Elt Ideal) arg3.view (Rect.unit (s := S9x3x128) ![8, 0, 0] S1x1x128.size inb_S9x3x128_S1x1x128_8_0_0).toLoadRect (harg3.unread WP))
    (pointRun.sl.r (F := Ideal) c arg4 harg4 SEL) rfl
    (win8_apply c arg1 harg1 arg8 X) (l1_row_apply arg3 harg3 WP 8 0 (by omega) (by omega) inb_S9x3x128_S1x1x128_8_0_0)
    (l1_sel_apply c arg4 harg4 SEL) h w o

theorem l1_st_8_1 (h w : Fin 64) (o : Fin 12) :
    View.canon (pointRun.sl.H9_27 (F := Ideal) c arg1 harg1 arg3 harg3 arg4 harg4 arg8 arg10 X WP SEL) (ix3 h w o)
      = View.canon (pointRun.sl.H9_26 (F := Ideal) c arg1 harg1 arg3 harg3 arg4 harg4 arg8 arg10 X WP SEL) (ix3 h w o) + (if o.val / 4 = 1 then l1_term X WP SEL h w o ⟨8, by omega⟩ else 0) :=
  l1_step_spec arg10 X WP SEL (pointRun.sl.H9_26 (F := Ideal) c arg1 harg1 arg3 harg3 arg4 harg4 arg8 arg10 X WP SEL) 4 1 8 rfl (by omega) (by omega) inb_S64x64x12_S64x64x4_0_0_4 _
    (pointRun.sl.v537 (F := Ideal) c arg1 harg1 arg8 X)
    (View.readAt (Elt Ideal) arg3.view (Rect.unit (s := S9x3x128) ![8, 1, 0] S1x1x128.size inb_S9x3x128_S1x1x128_8_1_0).toLoadRect (harg3.unread WP))
    (pointRun.sl.r (F := Ideal) c arg4 harg4 SEL) rfl
    (win8_apply c arg1 harg1 arg8 X) (l1_row_apply arg3 harg3 WP 8 1 (by omega) (by omega) inb_S9x3x128_S1x1x128_8_1_0)
    (l1_sel_apply c arg4 harg4 SEL) h w o

theorem l1_st_8_2 (h w : Fin 64) (o : Fin 12) :
    View.canon (pointRun.sl.H9_28 (F := Ideal) c arg1 harg1 arg3 harg3 arg4 harg4 arg8 arg10 X WP SEL) (ix3 h w o)
      = View.canon (pointRun.sl.H9_27 (F := Ideal) c arg1 harg1 arg3 harg3 arg4 harg4 arg8 arg10 X WP SEL) (ix3 h w o) + (if o.val / 4 = 2 then l1_term X WP SEL h w o ⟨8, by omega⟩ else 0) :=
  l1_step_spec arg10 X WP SEL (pointRun.sl.H9_27 (F := Ideal) c arg1 harg1 arg3 harg3 arg4 harg4 arg8 arg10 X WP SEL) 8 2 8 rfl (by omega) (by omega) inb_S64x64x12_S64x64x4_0_0_8 _
    (pointRun.sl.v537 (F := Ideal) c arg1 harg1 arg8 X)
    (View.readAt (Elt Ideal) arg3.view (Rect.unit (s := S9x3x128) ![8, 2, 0] S1x1x128.size inb_S9x3x128_S1x1x128_8_2_0).toLoadRect (harg3.unread WP))
    (pointRun.sl.r (F := Ideal) c arg4 harg4 SEL) rfl
    (win8_apply c arg1 harg1 arg8 X) (l1_row_apply arg3 harg3 WP 8 2 (by omega) (by omega) inb_S9x3x128_S1x1x128_8_2_0)
    (l1_sel_apply c arg4 harg4 SEL) h w o

/-- The final load of the L1 scratch, at pixel (h, w) and padded channel `o = 4·g + u`. -/
theorem l1_apply (h w : Fin 64) (o : Fin 12) :
    pointRun.sl.v601 (F := Ideal) c arg1 harg1 arg3 harg3 arg4 harg4 arg8 arg10 X WP SEL (ix3 h w o)
      = ∑ k : Fin 9, ∑ l : Fin 128,
          absE (win (imgOf X) k h w ⟨l.val % 32, by omega⟩ - WP (ix3 k ⟨o.val / 4, by omega⟩ l)) * SEL (ix2 l ⟨o.val % 4, by omega⟩) := by
  rw [l1_final_apply,
    l1_st_8_2, l1_st_8_1, l1_st_8_0, l1_three_groups _ _ _ (by omega),
    l1_st_7_2, l1_st_7_1, l1_st_7_0, l1_three_groups _ _ _ (by omega),
    l1_st_6_2, l1_st_6_1, l1_st_6_0, l1_three_groups _ _ _ (by omega),
    l1_st_5_2, l1_st_5_1, l1_st_5_0, l1_three_groups _ _ _ (by omega),
    l1_st_4_2, l1_st_4_1, l1_st_4_0, l1_three_groups _ _ _ (by omega),
    l1_st_3_2, l1_st_3_1, l1_st_3_0, l1_three_groups _ _ _ (by omega),
    l1_st_2_2, l1_st_2_1, l1_st_2_0, l1_three_groups _ _ _ (by omega),
    l1_st_1_2, l1_st_1_1, l1_st_1_0, l1_three_groups _ _ _ (by omega),
    l1_st_0_2, l1_st_0_1, l1_st_0_0, l1_three_groups _ _ _ (by omega),
    l1_init_apply]
  exact (l1_sum_fin9 (l1_term X WP SEL h w o)).symm

end Cert.KernelIdeal.Point

end
-- ==== Proof.IdealBlockValue.lean ====
/-
  What one point leaves in the output block: the eight branches side by side, each channel the branch's function of
  the pixel's squared norm, its correlation with the branch's packed column, its selector-weighted L1 sum and the
  staged filter norms.
-/
import proofs.«416126_j12043088298095_3_alg».proof.Proof.IdealSqNorm
import proofs.«416126_j12043088298095_3_alg».proof.Proof.IdealCorr
import proofs.«416126_j12043088298095_3_alg».proof.Proof.IdealL1
import Idealize.ShloMosaic.Lib.ValueLayout

set_option maxRecDepth 16384

noncomputable section

namespace Cert.KernelIdeal.Point

open Cert.KernelIdeal Cert.KernelIdeal.Gen Cert.ConvBank
open Idealize.ShloMosaic Idealize.ShloMosaic.TcCoe Idealize.ShloMosaic.ValueIdx Idealize.SL.Sem

variable (c : Dev nD) (arg1 : Memref sig .tc .vmem S1x64x64x32 .f32) (harg1 : arg1.IsWhole) (arg2 : Memref sig .tc .vmem S9x32x70 .f32) (harg2 : arg2.IsWhole)
  (arg3 : Memref sig .tc .vmem S9x3x128 .f32) (harg3 : arg3.IsWhole) (arg4 : Memref sig .tc .vmem S128x4 .f32) (harg4 : arg4.IsWhole)
  (arg5 : Memref sig .tc .vmem S1x10 .f32) (harg5 : arg5.IsWhole) (arg6 : Memref sig .tc .vmem S1x10 .f32) (harg6 : arg6.IsWhole)
  (arg7 : Memref sig .tc .vmem S1x64x64x80 .f32) (harg7 : arg7.IsWhole) (arg8 : Memref sig .tc .vmem S66x66x32 .f32) (harg8 : arg8.IsWhole)
  (arg9 : Memref sig .tc .vmem S64x64x70 .f32) (harg9 : arg9.IsWhole) (arg10 : Memref sig .tc .vmem S64x64x12 .f32) (harg10 : arg10.IsWhole)
  (X : Vec Ideal S1x64x64x32 .f32) (WL : Vec Ideal S9x32x70 .f32) (WP : Vec Ideal S9x3x128 .f32) (SEL : Vec Ideal S128x4 .f32)
  (Q3 Q5 : Vec Ideal S1x10 .f32)

namespace BlockValue

/-! ## Layout operations of the block, read at an index given by coordinates -/

section Layout
variable {α : Type}

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A per-pixel column broadcast over the ten channels reads the pixel's one entry. -/
theorem bcast_col_apply (v : S64x64x1.Idx → α) (h : S64x64x1.Broadcasts S64x64x10) (p q : Fin 64) (r : Fin 10) :
    broadcastTo S64x64x10 v h (ix3 p q r) = v (ix3 p q (0 : Fin 1)) :=
  broadcastTo_apply v h _ _ fun ax => match ax with | ⟨0, _⟩ => rfl | ⟨1, _⟩ => rfl | ⟨2, _⟩ => rfl

/-- A per-channel row broadcast over the pixels reads the channel's one entry. -/
theorem bcast_row_apply (v : S1x1x10.Idx → α) (h : S1x1x10.Broadcasts S64x64x10) (p q : Fin 64) (r : Fin 10) :
    broadcastTo S64x64x10 v h (ix3 p q r) = v (ix3 (0 : Fin 1) (0 : Fin 1) r) :=
  broadcastTo_apply v h _ _ fun ax => match ax with | ⟨0, _⟩ => rfl | ⟨1, _⟩ => rfl | ⟨2, _⟩ => rfl

/-- A vector of ten cast to 1×1×10 reads, at `(u0, u1, r)`, the vector at `r`. -/
theorem cast_a_11a_apply (v : S10.Idx → α) (h : S10.ShapeCasts S1x1x10) (u0 u1 : Fin 1) (r : Fin 10) :
    shapeCast S1x1x10 v h (ix3 u0 u1 r) = v (ix1 r) :=
  shapeCast_apply v h _ _ (by
    have h0 : u0.val = 0 := by omega
    have h1 : u1.val = 0 := by omega
    rw [Shape.rowMajor_val_one, Shape.rowMajor_val_three]
    show r.val = (u0.val * 1 + u1.val) * 10 + r.val
    rw [h0, h1]; omega)

/-- Eight 64×64×10 pieces side by side along the channels: channel `10·b + j` is channel `j` of piece `b`. -/
theorem concat8_apply (x : Fin 8 → S64x64x10.Idx → α)
    (hc : Shape.Concatenates [S64x64x10, S64x64x10, S64x64x10, S64x64x10, S64x64x10, S64x64x10, S64x64x10, S64x64x10] S64x64x80 2)
    (p q : Fin 64) (o : Fin 80) (b : Fin 8) (j : Fin 10) (ho : o.val = 10 * b.val + j.val) :
    concatenate S64x64x80 2 [⟨S64x64x10, x 0⟩, ⟨S64x64x10, x 1⟩, ⟨S64x64x10, x 2⟩, ⟨S64x64x10, x 3⟩, ⟨S64x64x10, x 4⟩,
      ⟨S64x64x10, x 5⟩, ⟨S64x64x10, x 6⟩, ⟨S64x64x10, x 7⟩] hc (ix3 p q o) = x b (ix3 p q j) :=
  concatenate_ofFn_apply (t := S64x64x80) (s₁ := S64x64x10) 2 x hc rfl 10 rfl (ix3 p q o) b
    (by show o.val / 10 = b.val; omega) (ix3 p q j) (by show j.val = o.val % 10; omega)
    (fun a ha => match a with
      | ⟨0, _⟩ => rfl
      | ⟨1, _⟩ => rfl
      | ⟨2, _⟩ => absurd rfl ha)

end Layout

/-! ## The stores, the loads of the staged filter norms, and the pointwise functions at an index -/

theorem hz4 : (![0, 0, 0, 0] : Fin 4 → Nat) = fun _ => 0 := by funext a; fin_cases a <;> rfl

theorem hz2 : (![0, 0] : Fin 2 → Nat) = fun _ => 0 := by funext a; fin_cases a <;> rfl

theorem sqrt_apply' {s : Shape} {φ : FTy} (a : FVec Ideal s φ) (i : s.Idx) :
    Idealize.ShloMosaic.sqrt a i = Ideal.sqrt (a i) := rfl

theorem tanh_apply' {s : Shape} {φ : FTy} (a : FVec Ideal s φ) (i : s.Idx) :
    Idealize.ShloMosaic.tanh a i = Ideal.tanh (a i) := rfl

theorem exp_apply' {s : Shape} {φ : FTy} (a : FVec Ideal s φ) (i : s.Idx) :
    Idealize.ShloMosaic.exp a i = Ideal.exp (a i) := rfl

/-- The point's stores into the output block: one store of the whole block. -/
theorem pointRun_fst (i : grid0.Coords) :
    (pointRun (F := Ideal) c i arg1 harg1 arg2 harg2 arg3 harg3 arg4 harg4 arg5 harg5 arg6 harg6 arg7 harg7 arg8 harg8 arg9 harg9 arg10 harg10 X WL WP SEL Q3 Q5).1
      = [⟨Rect.unit ![0, 0, 0, 0] S1x64x64x80.size inb_S1x64x64x80_S1x64x64x80_0_0_0_0,
          k0_pay1 (pointRun.sl.r_33 c arg1 harg1 arg3 harg3 arg4 harg4 arg8 arg10 X WP SEL)
            (pointRun.sl.r_34 c arg1 harg1 arg2 harg2 arg8 arg9 X WL)
            (pointRun.sl.r_35 c arg1 harg1 arg2 harg2 arg5 harg5 arg8 arg9 X WL Q3)
            (pointRun.sl.r_36 c arg1 harg1 arg2 harg2 arg8 arg9 X WL)
            (pointRun.sl.r_37 c arg1 harg1 arg2 harg2 arg6 harg6 arg8 arg9 X WL Q5)
            (pointRun.sl.r_38 c arg1 harg1 arg2 harg2 arg8 arg9 X WL)
            (pointRun.sl.r_39 c arg1 harg1 arg2 harg2 arg8 arg9 X WL)
            (pointRun.sl.r_40 c arg1 harg1 arg2 harg2 arg8 arg9 X WL)
            (pointRun.sl.r_41 c arg1 harg1 arg2 harg2 arg8 arg9 X WL)⟩] := rfl

/-- A whole staged row of ten filter norms, loaded, is the row. -/
theorem load_norms (m : Memref sig .tc .vmem S1x10 .f32) (hm : m.IsWhole) (Q : Vec Ideal S1x10 .f32) :
    View.readAt (Elt Ideal) m.view (Rect.unit ![0, 0] S1x10.size inb_S1x10_S1x10_0_0).toLoadRect (hm.unread Q) = Q := by
  rw [View.readAt_eq_ld, Memref.IsWhole.read_unread]
  exact View.ld_unit_zero hz2 _ Q

/-- Ten of the seventy packed correlations cut out at the offset of branch `b`: channel `j` is the correlation with packed
    column `packedCol b j`. -/
theorem lin_slice_apply (V : Vec Ideal S64x64x70 .f32)
    (hV : ∀ (h w : Fin 64) (o : Fin 70), V (ix3 h w o) = dotW (imgOf X) (fun k ch => WL (ix3 k ch o)) h w)
    (off : Nat) (hs : S64x64x70.Slices ![0, 0, off] S64x64x10) (b : Fin 8) (hoff : off = 10 * (b.val - 1))
    (h w : Fin 64) (j : Fin 10) :
    extractStridedSlice S64x64x10 ![0, 0, off] V hs (ix3 h w j)
      = dotW (imgOf X) (fun k ch => WL (ix3 k ch (packedCol b j))) h w := by
  refine (slice3_axis2_apply off V hs h w j (packedCol b j) ?_).trans (hV h w (packedCol b j))
  show 10 * (b.val - 1) + j.val = off + j.val
  omega

end BlockValue

/-- The selector-weighted L1 sum at a pixel and channel `j` (group `j / 4`, lane slot `j % 4`). -/
def kL1 (X : Vec Ideal S1x64x64x32 .f32) (WP : Vec Ideal S9x3x128 .f32) (SEL : Vec Ideal S128x4 .f32) (h w : Fin 64) (j : Fin 10) : EReal :=
  ∑ k : Fin 9, ∑ l : Fin 128,
    absE (win (imgOf X) k h w ⟨l.val % 32, by omega⟩ - WP (ix3 k ⟨j.val / 4, by omega⟩ l)) * SEL (ix2 l ⟨j.val % 4, by omega⟩)

/-- One point's output at pixel (h, w), branch `b`, channel `j`, from the staged blocks. -/
def kBlock (X : Vec Ideal S1x64x64x32 .f32) (WL : Vec Ideal S9x32x70 .f32) (WP : Vec Ideal S9x3x128 .f32) (SEL : Vec Ideal S128x4 .f32)
    (Q3 Q5 : Vec Ideal S1x10 .f32) (h w : Fin 64) (b : Fin 8) (j : Fin 10) : EReal :=
  branchOf b (sqSum (imgOf X) h w) (dotW (imgOf X) (fun k ch => WL (ix3 k ch (packedCol b j))) h w) (kL1 X WP SEL h w j)
    (if b.val = 2 then Q3 (ix2 0 j) else Q5 (ix2 0 j))

namespace BlockValue

/-! ## The eight branches at a pixel and channel -/

/-- Branch 0: the plain correlation. -/
theorem piece0_apply (h w : Fin 64) (j : Fin 10) :
    pointRun.sl.r_34 (F := Ideal) c arg1 harg1 arg2 harg2 arg8 arg9 X WL (ix3 h w j)
      = dotW (imgOf X) (fun k ch => WL (ix3 k ch (packedCol ⟨0, by omega⟩ j))) h w := by
  unfold pointRun.sl.r_34 k0_pay78
  exact lin_slice_apply X WL (pointRun.sl.v (F := Ideal) c arg1 harg1 arg2 harg2 arg8 arg9 X WL) (corr_apply c arg1 harg1 arg2 harg2 arg8 arg9 X WL) 0 slices_S64x64x70_o0_0_0_S64x64x10 ⟨0, by omega⟩ rfl h w j

/-- Branch 1: the selector-weighted L1 sum, the first ten of its twelve channels. -/
theorem piece1_apply (h w : Fin 64) (j : Fin 10) :
    pointRun.sl.r_33 (F := Ideal) c arg1 harg1 arg3 harg3 arg4 harg4 arg8 arg10 X WP SEL (ix3 h w j) = kL1 X WP SEL h w j := by
  unfold pointRun.sl.r_33 k0_pay77
  refine (slice3_axis2_apply 0 (pointRun.sl.v601 (F := Ideal) c arg1 harg1 arg3 harg3 arg4 harg4 arg8 arg10 X WP SEL : Vec Ideal S64x64x12 .f32)
    slices_S64x64x12_o0_0_0_S64x64x10 h w j ⟨j.val, by omega⟩ (Nat.zero_add _).symm).trans ?_
  exact l1_apply c arg1 harg1 arg3 harg3 arg4 harg4 arg8 arg10 X WP SEL h w ⟨j.val, by omega⟩

/-- Branch 2: the square root of the clamped squared distance. -/
theorem piece2_apply (h w : Fin 64) (j : Fin 10) :
    pointRun.sl.r_35 (F := Ideal) c arg1 harg1 arg2 harg2 arg5 harg5 arg8 arg9 X WL Q3 (ix3 h w j)
      = Ideal.sqrt (sqDist (sqSum (imgOf X) h w) (dotW (imgOf X) (fun k ch => WL (ix3 k ch (packedCol ⟨2, by omega⟩ j))) h w)
          (Q3 (ix2 0 j))) := by
  unfold pointRun.sl.r_35 k0_pay79
  simp only [sqrt_apply', maximumf_apply, addf_apply, subf_apply, mulf_apply, broadcast_apply]
  rw [bcast_col_apply, bcast_row_apply, cast_a_11a_apply, shapeCast_1a_a_apply, load_norms,
    lin_slice_apply X WL (pointRun.sl.v (F := Ideal) c arg1 harg1 arg2 harg2 arg8 arg9 X WL) (corr_apply c arg1 harg1 arg2 harg2 arg8 arg9 X WL) 10 slices_S64x64x70_o0_0_10_S64x64x10 ⟨2, by omega⟩ rfl, sqnorm_apply]
  rfl

/-- Branch 3: the hyperbolic tangent of the correlation. -/
theorem piece3_apply (h w : Fin 64) (j : Fin 10) :
    pointRun.sl.r_36 (F := Ideal) c arg1 harg1 arg2 harg2 arg8 arg9 X WL (ix3 h w j)
      = Ideal.tanh (dotW (imgOf X) (fun k ch => WL (ix3 k ch (packedCol ⟨3, by omega⟩ j))) h w) := by
  unfold pointRun.sl.r_36 k0_pay80
  simp only [tanh_apply']
  rw [lin_slice_apply X WL (pointRun.sl.v (F := Ideal) c arg1 harg1 arg2 harg2 arg8 arg9 X WL) (corr_apply c arg1 harg1 arg2 harg2 arg8 arg9 X WL) 20 slices_S64x64x70_o0_0_20_S64x64x10 ⟨3, by omega⟩ rfl]

/-- Branch 4: the exponential of minus the clamped squared distance. -/
theorem piece4_apply (h w : Fin 64) (j : Fin 10) :
    pointRun.sl.r_37 (F := Ideal) c arg1 harg1 arg2 harg2 arg6 harg6 arg8 arg9 X WL Q5 (ix3 h w j)
      = Ideal.exp (negOne * sqDist (sqSum (imgOf X) h w) (dotW (imgOf X) (fun k ch => WL (ix3 k ch (packedCol ⟨4, by omega⟩ j))) h w)
          (Q5 (ix2 0 j))) := by
  unfold pointRun.sl.r_37 k0_pay81
  simp only [exp_apply', maximumf_apply, addf_apply, subf_apply, mulf_apply, broadcast_apply]
  rw [bcast_col_apply, bcast_row_apply, cast_a_11a_apply, shapeCast_1a_a_apply, load_norms,
    lin_slice_apply X WL (pointRun.sl.v (F := Ideal) c arg1 harg1 arg2 harg2 arg8 arg9 X WL) (corr_apply c arg1 harg1 arg2 harg2 arg8 arg9 X WL) 30 slices_S64x64x70_o0_0_30_S64x64x10 ⟨4, by omega⟩ rfl, sqnorm_apply]
  rfl

/-- Branch 5: the cube of the correlation plus one. -/
theorem piece5_apply (h w : Fin 64) (j : Fin 10) :
    pointRun.sl.r_38 (F := Ideal) c arg1 harg1 arg2 harg2 arg8 arg9 X WL (ix3 h w j)
      = cube (dotW (imgOf X) (fun k ch => WL (ix3 k ch (packedCol ⟨5, by omega⟩ j))) h w + one) := by
  unfold pointRun.sl.r_38 k0_pay82
  simp only [addf_apply, mulf_apply, broadcast_apply]
  rw [lin_slice_apply X WL (pointRun.sl.v (F := Ideal) c arg1 harg1 arg2 harg2 arg8 arg9 X WL) (corr_apply c arg1 harg1 arg2 harg2 arg8 arg9 X WL) 40 slices_S64x64x70_o0_0_40_S64x64x10 ⟨5, by omega⟩ rfl]
  rfl

/-- Branch 6: the same cube, of the next ten columns. -/
theorem piece6_apply (h w : Fin 64) (j : Fin 10) :
    pointRun.sl.r_39 (F := Ideal) c arg1 harg1 arg2 harg2 arg8 arg9 X WL (ix3 h w j)
      = cube (dotW (imgOf X) (fun k ch => WL (ix3 k ch (packedCol ⟨6, by omega⟩ j))) h w + one) := by
  unfold pointRun.sl.r_39 k0_pay83
  simp only [addf_apply, mulf_apply, broadcast_apply]
  rw [lin_slice_apply X WL (pointRun.sl.v (F := Ideal) c arg1 harg1 arg2 harg2 arg8 arg9 X WL) (corr_apply c arg1 harg1 arg2 harg2 arg8 arg9 X WL) 50 slices_S64x64x70_o0_0_50_S64x64x10 ⟨6, by omega⟩ rfl]
  rfl

/-- Branch 7: the same cube of the last ten columns, multiplied out as the square times the value. -/
theorem piece7_apply (h w : Fin 64) (j : Fin 10) :
    mulf (pointRun.sl.r_41 (F := Ideal) c arg1 harg1 arg2 harg2 arg8 arg9 X WL) (pointRun.sl.r_40 (F := Ideal) c arg1 harg1 arg2 harg2 arg8 arg9 X WL) (ix3 h w j)
      = cube (dotW (imgOf X) (fun k ch => WL (ix3 k ch (packedCol ⟨7, by omega⟩ j))) h w + one) := by
  unfold pointRun.sl.r_41 pointRun.sl.r_40 k0_pay85 k0_pay84
  simp only [addf_apply, mulf_apply, broadcast_apply]
  rw [lin_slice_apply X WL (pointRun.sl.v (F := Ideal) c arg1 harg1 arg2 harg2 arg8 arg9 X WL) (corr_apply c arg1 harg1 arg2 harg2 arg8 arg9 X WL) 60 slices_S64x64x70_o0_0_60_S64x64x10 ⟨7, by omega⟩ rfl]
  rfl

/-! ## The block -/

/-- The eight pieces in channel order, read at a pixel and channel, are the eight branches. -/
theorem piece_value (b : Fin 8) (h w : Fin 64) (j : Fin 10) :
    (![pointRun.sl.r_34 (F := Ideal) c arg1 harg1 arg2 harg2 arg8 arg9 X WL,
       pointRun.sl.r_33 (F := Ideal) c arg1 harg1 arg3 harg3 arg4 harg4 arg8 arg10 X WP SEL,
       pointRun.sl.r_35 (F := Ideal) c arg1 harg1 arg2 harg2 arg5 harg5 arg8 arg9 X WL Q3,
       pointRun.sl.r_36 (F := Ideal) c arg1 harg1 arg2 harg2 arg8 arg9 X WL,
       pointRun.sl.r_37 (F := Ideal) c arg1 harg1 arg2 harg2 arg6 harg6 arg8 arg9 X WL Q5,
       pointRun.sl.r_38 (F := Ideal) c arg1 harg1 arg2 harg2 arg8 arg9 X WL,
       pointRun.sl.r_39 (F := Ideal) c arg1 harg1 arg2 harg2 arg8 arg9 X WL,
       mulf (pointRun.sl.r_41 (F := Ideal) c arg1 harg1 arg2 harg2 arg8 arg9 X WL) (pointRun.sl.r_40 (F := Ideal) c arg1 harg1 arg2 harg2 arg8 arg9 X WL)]
        : Fin 8 → FVec Ideal S64x64x10 .f32) b (ix3 h w j)
      = kBlock X WL WP SEL Q3 Q5 h w b j := by
  match b with
  | ⟨0, _⟩ => exact piece0_apply c arg1 harg1 arg2 harg2 arg8 arg9 X WL h w j
  | ⟨1, _⟩ => exact piece1_apply c arg1 harg1 arg3 harg3 arg4 harg4 arg8 arg10 X WP SEL h w j
  | ⟨2, _⟩ => exact piece2_apply c arg1 harg1 arg2 harg2 arg5 harg5 arg8 arg9 X WL Q3 h w j
  | ⟨3, _⟩ => exact piece3_apply c arg1 harg1 arg2 harg2 arg8 arg9 X WL h w j
  | ⟨4, _⟩ => exact piece4_apply c arg1 harg1 arg2 harg2 arg6 harg6 arg8 arg9 X WL Q5 h w j
  | ⟨5, _⟩ => exact piece5_apply c arg1 harg1 arg2 harg2 arg8 arg9 X WL h w j
  | ⟨6, _⟩ => exact piece6_apply c arg1 harg1 arg2 harg2 arg8 arg9 X WL h w j
  | ⟨7, _⟩ => exact piece7_apply c arg1 harg1 arg2 harg2 arg8 arg9 X WL h w j
  | ⟨n + 8, hn⟩ => exact absurd hn (by omega)

end BlockValue

open BlockValue in
/-- The block the point's stores leave, read at pixel (h, w) and output channel `o`. -/
theorem block_value (i : grid0.Coords) (h w : Fin 64) (o : Fin 80) :
    View.canon (pointRun (F := Ideal) c i arg1 harg1 arg2 harg2 arg3 harg3 arg4 harg4 arg5 harg5 arg6 harg6 arg7 harg7 arg8 harg8 arg9 harg9 arg10 harg10 X WL WP SEL Q3 Q5).1 (ix4 0 h w o)
      = kBlock X WL WP SEL Q3 Q5 h w (brOf o) (chOf o) := by
  rw [pointRun_fst, View.canon_unit_zero hz4]
  unfold k0_pay1
  refine (shapeCast_abc_1abc_apply _ _ 0 h w o).trans ?_
  refine (concat8_apply _ _ h w o (brOf o) (chOf o) ?_).trans
    (piece_value c arg1 harg1 arg2 harg2 arg3 harg3 arg4 harg4 arg5 harg5 arg6 harg6 arg8 arg9 arg10 X WL WP SEL Q3 Q5 (brOf o) h w (chOf o))
  show o.val = 10 * (o.val / 10) + o.val % 10
  omega

end Cert.KernelIdeal.Point

end
-- ==== Proof.ConvLaws.lean ====
/-
  The laws that join the two programs' arrangements of the same sums.

  A sum over the 288 rows of a bank is the double sum over nine offsets and thirty-two channels; a lane sum against
  the 0/1 selector of lane groups keeps one group of thirty-two lanes; the third power as the reference's `pow` is the
  product the kernel multiplies out; and the zero word is zero.
-/
import proofs.«416126_j12043088298095_3_alg».proof.Proof.ConvSpec
import Mathlib.Analysis.SpecialFunctions.Pow.Real
import Mathlib.Algebra.BigOperators.Fin

noncomputable section

namespace Cert.ConvBank

open Idealize.ShloMosaic

/-- Rows by offset and channel. -/
theorem sum_rows (f : Fin 288 → EReal) : ∑ r : Fin 288, f r = ∑ k : Fin 9, ∑ c : Fin 32, f (row k c) := by
  rw [← Fintype.sum_prod_type' (f := fun k c => f (row k c))]
  symm
  refine Fintype.sum_equiv
    ⟨fun p => row p.1 p.2, fun r => (⟨r.val / 32, by omega⟩, ⟨r.val % 32, by omega⟩), ?_, ?_⟩ _ _ (fun p => rfl)
  · rintro ⟨k, c⟩
    ext
    · simp only [row]; omega
    · simp only [row]; omega
  · intro r
    ext
    simp only [row]; omega

/-- The zero word denotes zero. -/
theorem zeroF_eq : zeroF = 0 := by
  simp [zeroF, Ideal.ofBits, Ideal.ieee]

/-- The word of the exponent denotes the real three. -/
theorem three_eq : three = ((3 : ℝ) : EReal) := by
  simp [three, Ideal.ofBits, Ideal.ieee, -EReal.coe_mul]; norm_num

/-- The reference's third power is the kernel's product, on every extended real. -/
theorem pow_three (t : EReal) : Ideal.pow t three = cube t := by
  rw [three_eq]
  induction t using EReal.rec with
  | bot => simp [cube, EReal.bot_mul_bot, EReal.top_mul_bot]
  | top => simp [cube, EReal.top_mul_top]
  | coe x =>
    rw [Ideal.pow_coe_coe]
    have h3 : (3 : ℝ) = ((3 : ℕ) : ℝ) := by norm_num
    show ((Real.rpow x 3 : ℝ) : EReal) = (x : EReal) * x * x
    rw [← EReal.coe_mul, ← EReal.coe_mul]
    congr 1
    show x ^ (3 : ℝ) = x * x * x
    rw [h3, Real.rpow_natCast]
    ring

/-- Against the selector of lane group `u` a sum over the 128 lanes keeps the group's 32 lanes. -/
theorem select_lanes (a : Fin 128 → EReal) (u : Fin 4) :
    ∑ l : Fin 128, a l * (if l.val / 32 = u.val then (1 : EReal) else 0) = ∑ ch : Fin 32, a ⟨32 * u.val + ch.val, by omega⟩ := by
  simp only [mul_ite, mul_one, mul_zero]
  rw [← Finset.sum_filter]
  symm
  refine Finset.sum_bij (fun ch _ => (⟨32 * u.val + ch.val, by omega⟩ : Fin 128)) ?_ ?_ ?_ ?_
  · intro ch _
    simp only [Finset.mem_filter, Finset.mem_univ, true_and]
    omega
  · intro c₁ _ c₂ _ h
    ext
    have := congrArg Fin.val h
    simp only at this
    omega
  · intro l hl
    simp only [Finset.mem_filter, Finset.mem_univ, true_and] at hl
    refine ⟨⟨l.val % 32, by omega⟩, Finset.mem_univ _, ?_⟩
    ext
    simp only
    omega
  · intro ch _
    rfl

/-- A branch reads only what it needs: the correlation off branch 1, the L1 distance on branch 1, the filter norm on
    branches 2 and 4. -/
theorem branchOf_congr (b : Fin 8) (p l l' d d' q q' : EReal) (hl : b.val ≠ 1 → l = l') (hd : b.val = 1 → d = d')
    (hq : b.val = 2 ∨ b.val = 4 → q = q') : branchOf b p l d q = branchOf b p l' d' q' := by
  match b with
  | ⟨0, _⟩ => show l = l'; exact hl (by simp)
  | ⟨1, _⟩ => exact hd rfl
  | ⟨2, _⟩ =>
    show Ideal.sqrt (sqDist p l q) = Ideal.sqrt (sqDist p l' q')
    rw [hl (by simp), hq (Or.inl rfl)]
  | ⟨3, _⟩ => show Ideal.tanh l = Ideal.tanh l'; rw [hl (by simp)]
  | ⟨4, _⟩ =>
    show Ideal.exp (negOne * sqDist p l q) = Ideal.exp (negOne * sqDist p l' q')
    rw [hl (by simp), hq (Or.inr rfl)]
  | ⟨5, _⟩ => show cube (l + one) = cube (l' + one); rw [hl (by simp)]
  | ⟨6, _⟩ => show cube (l + one) = cube (l' + one); rw [hl (by simp)]
  | ⟨7, _⟩ => show cube (l + one) = cube (l' + one); rw [hl (by simp)]

end Cert.ConvBank

end
-- ==== Proof.IdealMeets.lean ====
/-
  The point's block, with the staged filter arrays at what the host prefix makes of the eight banks, is the
  convolution bank of the specification: the packed columns are the banks' columns, the lane-packed L1 bank against
  the 0/1 selector of lane groups keeps, of the 128 lanes, the 32 of the channel's own filter, and the staged norms are
  the banks' column norms.
-/
import proofs.«416126_j12043088298095_3_alg».proof.Proof.IdealBlockValue
import proofs.«416126_j12043088298095_3_alg».proof.Proof.ConvLaws

set_option maxRecDepth 16384

noncomputable section

namespace Cert.KernelIdeal.Point

open Cert.KernelIdeal Cert.ConvBank
open Idealize.ShloMosaic Idealize.ShloMosaic.ValueIdx

/-- The selector-weighted lane sum is the L1 distance to channel `j` of the lane-packed bank: slot `j % 4` of group
    `j / 4` keeps lanes `32·(j % 4) + ch`, whose packed entry is row `(k, ch)` of channel `4·(j / 4) + j % 4 = j`. -/
theorem kL1_eq_l1W (X : Vec Ideal S1x64x64x32 .f32) (WP : Vec Ideal S9x3x128 .f32) (SEL : Vec Ideal S128x4 .f32) (B1 : Bank)
    (hWP : ∀ (k : Fin 9) (g : Fin 3) (l : Fin 128), WP (ix3 k g l)
      = if hlt : 4 * g.val + l.val / 32 < 10 then B1 (row k ⟨l.val % 32, by omega⟩) ⟨4 * g.val + l.val / 32, hlt⟩ else 0)
    (hSEL : ∀ (l : Fin 128) (u : Fin 4), SEL (ix2 l u) = if l.val / 32 = u.val then (1 : EReal) else 0)
    (h w : Fin 64) (j : Fin 10) :
    kL1 X WP SEL h w j = l1W (imgOf X) (col B1 j) h w := by
  unfold kL1 l1W
  refine Finset.sum_congr rfl fun k _ => ?_
  simp only [hSEL]
  rw [select_lanes (fun l => absE (win (imgOf X) k h w ⟨l.val % 32, by omega⟩ - WP (ix3 k ⟨j.val / 4, by omega⟩ l))) ⟨j.val % 4, by omega⟩]
  refine Finset.sum_congr rfl fun ch _ => ?_
  simp only
  rw [hWP]
  have hlt : 4 * (j.val / 4) + (32 * (j.val % 4) + ch.val) / 32 < 10 := by omega
  rw [dif_pos hlt]
  have e1 : (⟨(32 * (j.val % 4) + ch.val) % 32, by omega⟩ : Fin 32) = ch := by ext; simp only; omega
  have e2 : (⟨4 * (j.val / 4) + (32 * (j.val % 4) + ch.val) / 32, hlt⟩ : Fin 10) = j := by ext; simp only; omega
  rw [e1, e2]
  rfl

/-- One point's output equals the specification's, given what the staged arrays hold. -/
theorem kBlock_eq_outAt (X : Vec Ideal S1x64x64x32 .f32) (WL : Vec Ideal S9x32x70 .f32) (WP : Vec Ideal S9x3x128 .f32) (SEL : Vec Ideal S128x4 .f32)
    (Q3 Q5 : Vec Ideal S1x10 .f32) (B : Fin 8 → Bank)
    (hWL : ∀ (k : Fin 9) (ch : Fin 32) (b : Fin 8), b.val ≠ 1 → ∀ j : Fin 10, WL (ix3 k ch (packedCol b j)) = B b (row k ch) j)
    (hWP : ∀ (k : Fin 9) (g : Fin 3) (l : Fin 128), WP (ix3 k g l)
      = if hlt : 4 * g.val + l.val / 32 < 10 then B ⟨1, by omega⟩ (row k ⟨l.val % 32, by omega⟩) ⟨4 * g.val + l.val / 32, hlt⟩ else 0)
    (hSEL : ∀ (l : Fin 128) (u : Fin 4), SEL (ix2 l u) = if l.val / 32 = u.val then (1 : EReal) else 0)
    (hQ3 : ∀ j : Fin 10, Q3 (ix2 0 j) = colSq (B ⟨2, by omega⟩) j) (hQ5 : ∀ j : Fin 10, Q5 (ix2 0 j) = colSq (B ⟨4, by omega⟩) j)
    (h w : Fin 64) (b : Fin 8) (j : Fin 10) :
    kBlock X WL WP SEL Q3 Q5 h w b j = outAt (imgOf X) B h w b j := by
  unfold kBlock outAt
  apply branchOf_congr
  · intro hb
    congr 1
    funext k ch
    exact hWL k ch b hb j
  · intro hb
    have hb' : b = ⟨1, by decide⟩ := Fin.ext hb
    subst hb'
    exact kL1_eq_l1W X WP SEL (B ⟨1, by omega⟩) hWP hSEL h w j
  · rintro (hb | hb)
    · have hb' : b = ⟨2, by decide⟩ := Fin.ext hb
      subst hb'
      rw [if_pos rfl, hQ3]
    · have hb' : b = ⟨4, by decide⟩ := Fin.ext hb
      subst hb'
      rw [if_neg (by decide), hQ5]

end Cert.KernelIdeal.Point

end
-- ==== Proof.IdealSelector.lean ====
/-
  The selector of lane groups, as the host prefix computes it: lane numbers 0 … 127 floor-divided by 32 (floor division as
  the program spells it: truncating quotient, corrected by one where the signs differ and the remainder is not zero — never the case
  for these non-negative lanes), compared for equality with the slot numbers 0 … 3, the truth value converted to a
  float: 1 where lane / 32 = slot, else 0.
-/
import proofs.«416126_j12043088298095_3_alg».proof.Proof.IdealEntry
import proofs.«416126_j12043088298095_3_alg».proof.Proof.ConvSpec
import Idealize.ShloMosaic.Lib.Pipeline.Value
import Idealize.ShloMosaic.Lib.ValueLayout
import Idealize.ShloMosaic.Lib.StableHlo.Run
import Idealize.ShloMosaic.Lib.StableHlo.Predicate

set_option maxRecDepth 16384

noncomputable section

namespace Cert.KernelIdeal.Entry

open Cert.KernelIdeal Cert.KernelIdeal.Gen Cert.ConvBank
open Idealize.ShloMosaic Idealize.ShloMosaic.TcCoe Idealize.ShloMosaic.ValueIdx Idealize.SL.Sem

variable (m : (ℓ : Loc nD τ sig) → Buf (Elt Ideal) ℓ) (c : Dev nD)

/-- The sign of a 32-bit word read as a two's-complement integer: -1, 0 or 1. -/
def sgnW (x : BitVec 32) : BitVec 32 := if x = 0 then 0 else if x.msb then -1 else 1

/-- Floor division by 32 on one 32-bit word, as the host spells it: the truncating quotient, less one where the signs of
    dividend and divisor differ and the remainder is not zero. -/
def fdivW (x : BitVec 32) : BitVec 32 :=
  Scalar.select
    (IntOp.andi (IntOp.cmpi .ne (sgnW x) (sgnW 32#32)) (IntOp.cmpi .ne (IntOp.remsi .host x 32#32) 0#32))
    (IntOp.subi (IntOp.divsi .host x 32#32) 1#32)
    (IntOp.divsi .host x 32#32)

/-- On the lanes 0 … 127 it is the plain quotient, and it equals a slot number 0 … 3 exactly when lane / 32 is the slot. -/
theorem selW : ∀ (l : Fin 128) (u : Fin 4),
    IntOp.cmpi .eq (fdivW (BitVec.ofNat 32 l.val)) (BitVec.ofNat 32 u.val) = if l.val / 32 = u.val then 1#1 else 0#1 := by
  decide +kernel

/-- Lane numbers floor-divided by 32, as the host operations compute it. -/
def fdivTerm : IVec S128 32 :=
  have I : IVec S128 32 := iotaInDim S128 32 0
  have c32 : IVec S_ 32 := constantI S_ 32 32#32
  have v0 : IVec S_ 32 := id c32
  have v1 : IVec S128 32 := broadcastInDim S128 ![] bcast_S_S128 v0
  have v2 : IVec S128 32 := Host.divsi I v1
  have v3 : IVec S128 32 := signi I
  have v4 : IVec S_ 32 := signi v0
  have v5 : IVec S128 32 := broadcastInDim S128 ![] bcast_S_S128 v4
  have v6 : IVec S128 1 := cmpi .ne v3 v5
  have v7 : IVec S128 32 := broadcastInDim S128 ![] bcast_S_S128 v0
  have v8 : IVec S128 32 := Host.remsi I v7
  have cz : IVec S_ 32 := constantI S_ 32 0#32
  have v9 : IVec S128 32 := broadcastInDim S128 ![] bcast_S_S128 cz
  have v10 : IVec S128 1 := cmpi .ne v8 v9
  have v11 : IVec S128 1 := andi v6 v10
  have c1 : IVec S_ 32 := constantI S_ 32 1#32
  have v12 : IVec S128 32 := broadcastInDim S128 ![] bcast_S_S128 c1
  have v13 : IVec S128 32 := subi v2 v12
  select v11 v13 v2

theorem fdivTerm_apply (j : S128.Idx) : fdivTerm j = fdivW (BitVec.ofNat 32 (j 0).val) := by
  unfold fdivTerm fdivW sgnW
  rfl

/-- The selector as the host operations compute it. -/
def selTerm : S128x4.Idx → EReal :=
  have w0 : IVec S128x1 32 := broadcastInDim S128x1 ![0] bcast_S128_S128x1_0 fdivTerm
  have w1 : IVec S1x4 32 := iotaInDim S1x4 32 1
  have w2 : IVec S128x4 32 := broadcastInDim S128x4 ![0, 1] bcast_S128x1_S128x4_0_1 w0
  have w3 : IVec S128x4 32 := broadcastInDim S128x4 ![0, 1] bcast_S1x4_S128x4_0_1 w1
  have w4 : IVec S128x4 1 := cmpi .eq w2 w3
  uitofp (F := Ideal) .f32 w4

open Idealize.ShloMosaic.StableHlo.Predicate in
theorem selTerm_apply (l : Fin 128) (u : Fin 4) :
    selTerm (ix2 l u) = if l.val / 32 = u.val then (1 : EReal) else 0 := by
  have hij : (ix2 l u : S128x4.Idx) = ij l u := funext fun d => match d with
    | ⟨0, _⟩ => rfl
    | ⟨1, _⟩ => rfl
  unfold selTerm
  show (((IntOp.cmpi .eq
      (broadcastInDim S128x4 ![0, 1] bcast_S128x1_S128x4_0_1 (broadcastInDim S128x1 ![0] bcast_S128_S128x1_0 fdivTerm) (ix2 l u))
      (broadcastInDim S128x4 ![0, 1] bcast_S1x4_S128x4_0_1 (iotaInDim S1x4 32 1) (ix2 l u))).toNat : ℝ) : EReal) = _
  rw [hij, bcast_rows, bcast_of_row, fdivTerm_apply]
  show (((IntOp.cmpi .eq (fdivW (BitVec.ofNat 32 l.val)) (BitVec.ofNat 32 u.val)).toNat : ℝ) : EReal) = _
  rw [selW l u]
  by_cases h : l.val / 32 = u.val
  · rw [if_pos h, if_pos h]; norm_num
  · rw [if_neg h, if_neg h]; norm_num

set_option maxHeartbeats 2000000 in
/-- The host prefix leaves the selector in its buffer. -/
theorem V_selTerm_eq : (V m c main_v15 : S128x4.Idx → EReal) = selTerm := by
  dsimp only [V]
  simp only [hostOps0, hostOps0_1, hostOps0_2, hostOps0_3, hostOps0_4, hostOps0_5, List.flatten_cons, List.flatten_nil,
    List.append_nil, List.cons_append, List.nil_append, StableHlo.TRef.nullary, StableHlo.TRef.unary, StableHlo.TRef.binary,
    StableHlo.TRef.ternary]
  after_results_simp
  rfl

/-- The selector's entry at lane `l`, slot `u`. -/
theorem selector_value (l : Fin 128) (u : Fin 4) :
    V m c main_v15 (ix2 l u) = if l.val / 32 = u.val then (1 : EReal) else 0 := by
  rw [V_selTerm_eq]
  exact selTerm_apply l u

end Cert.KernelIdeal.Entry

end
-- ==== Proof.IdealHostValues.lean ====
/-
  What the region finds in the arrays the host prefix computes.

  The seven linear banks, each reshaped 288×10 → 9×32×10, are concatenated along the last axis into the 9×32×70 packed
  bank; the L1 bank is reshaped, padded by two zero columns to 9×32×12, split 3×4, transposed and flattened so that
  lane 32·u + c of group g holds row (k, c), column 4·g + u (zero for the two padded columns); the selector's entry
  (lane, u) is 1 when the lane lies in group u, that is lane / 32 = u, else 0; and the two norm rows are the column
  sums of squares of banks 3 and 5.
-/
import proofs.«416126_j12043088298095_3_alg».proof.Proof.IdealEntry
import proofs.«416126_j12043088298095_3_alg».proof.Proof.ConvSpec
import proofs.«416126_j12043088298095_3_alg».proof.Proof.IdealSelector
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.KernelIdeal.Entry

open Cert.KernelIdeal Cert.KernelIdeal.Gen Cert.ConvBank
open Idealize.ShloMosaic Idealize.ShloMosaic.TcCoe Idealize.ShloMosaic.ValueIdx Idealize.SL.Sem

variable (m : (ℓ : Loc nD τ sig) → Buf (Elt Ideal) ℓ) (c : Dev nD)

/-- The eight filter banks of the launch memory, branch by branch (arguments 1 … 8). -/
def banks : Fin 8 → Bank
  | ⟨0, _⟩ => fun r j => m ((c.tc : Thread nD τ).loc main_arg1) (ix2 r j)
  | ⟨1, _⟩ => fun r j => m ((c.tc : Thread nD τ).loc main_arg2) (ix2 r j)
  | ⟨2, _⟩ => fun r j => m ((c.tc : Thread nD τ).loc main_arg3) (ix2 r j)
  | ⟨3, _⟩ => fun r j => m ((c.tc : Thread nD τ).loc main_arg4) (ix2 r j)
  | ⟨4, _⟩ => fun r j => m ((c.tc : Thread nD τ).loc main_arg5) (ix2 r j)
  | ⟨5, _⟩ => fun r j => m ((c.tc : Thread nD τ).loc main_arg6) (ix2 r j)
  | ⟨6, _⟩ => fun r j => m ((c.tc : Thread nD τ).loc main_arg7) (ix2 r j)
  | _ => fun r j => m ((c.tc : Thread nD τ).loc main_arg8) (ix2 r j)

/-! ## The packed linear bank -/

/-- The packed bank as the region finds it: the seven linear banks, each reshaped 288×10 → 9×32×10, joined along the last axis. -/
theorem V_main_v7_eq : (V m c main_v7 : S9x32x70.Idx → EReal)
    = concatenate S9x32x70 2
        [⟨S9x32x10, shapeCast S9x32x10 (m ((c.tc : Thread nD τ).loc main_arg1)) shapeCasts_S288x10_S9x32x10⟩,
         ⟨S9x32x10, shapeCast S9x32x10 (m ((c.tc : Thread nD τ).loc main_arg3)) shapeCasts_S288x10_S9x32x10⟩,
         ⟨S9x32x10, shapeCast S9x32x10 (m ((c.tc : Thread nD τ).loc main_arg4)) shapeCasts_S288x10_S9x32x10⟩,
         ⟨S9x32x10, shapeCast S9x32x10 (m ((c.tc : Thread nD τ).loc main_arg5)) shapeCasts_S288x10_S9x32x10⟩,
         ⟨S9x32x10, shapeCast S9x32x10 (m ((c.tc : Thread nD τ).loc main_arg6)) shapeCasts_S288x10_S9x32x10⟩,
         ⟨S9x32x10, shapeCast S9x32x10 (m ((c.tc : Thread nD τ).loc main_arg7)) shapeCasts_S288x10_S9x32x10⟩,
         ⟨S9x32x10, shapeCast S9x32x10 (m ((c.tc : Thread nD τ).loc main_arg8)) shapeCasts_S288x10_S9x32x10⟩]
        concatenates_S9x32x10_S9x32x10_S9x32x10_S9x32x10_S9x32x10_S9x32x10_S9x32x10_S9x32x70_d2 := by
  dsimp only [V]
  simp only [hostOps0, hostOps0_1, hostOps0_2, hostOps0_3, hostOps0_4, hostOps0_5, List.flatten_cons, List.flatten_nil, List.append_nil, List.cons_append, List.nil_append]
  after_results
  simp (disch := decide) only [Matrix.cons_val, StableHlo.reshape_result', StableHlo.reshape_result_ne']
  rfl

/-- A 288×10 bank reshaped to 9×32×10 reads, at (k, ch, j), row 32·k + ch, column j. -/
theorem reshapeBank_apply {α : Type} (x : S288x10.Idx → α) (k : Fin 9) (ch : Fin 32) (j : Fin 10) :
    shapeCast S9x32x10 x shapeCasts_S288x10_S9x32x10 (ix3 k ch j) = x (ix2 (row k ch) j) :=
  shapeCast_apply x _ _ _ (by
    rw [Shape.rowMajor_val_two, Shape.rowMajor_val_three]
    show (32 * k.val + ch.val) * 10 + j.val = (k.val * 32 + ch.val) * 10 + j.val
    omega)

/-- Seven 9×32×10 arrays joined along the last axis: column 10·n + j of the result is column j of piece n. -/
theorem packed_apply {α : Type} (x0 x1 x2 x3 x4 x5 x6 : S9x32x10.Idx → α) (n : Fin 7) (k : Fin 9) (ch : Fin 32) (j : Fin 10)
    (col : Fin 70) (hcol : col.val = 10 * n.val + j.val) :
    concatenate S9x32x70 2 [⟨S9x32x10, x0⟩, ⟨S9x32x10, x1⟩, ⟨S9x32x10, x2⟩, ⟨S9x32x10, x3⟩, ⟨S9x32x10, x4⟩, ⟨S9x32x10, x5⟩, ⟨S9x32x10, x6⟩]
        concatenates_S9x32x10_S9x32x10_S9x32x10_S9x32x10_S9x32x10_S9x32x10_S9x32x10_S9x32x70_d2 (ix3 k ch col)
      = (![x0, x1, x2, x3, x4, x5, x6] n) (ix3 k ch j) := by
  refine concatenate_apply_piece (2 : Fin 3) _ _ (ix3 k ch col) n.val (by simp) S9x32x10 (![x0, x1, x2, x3, x4, x5, x6] n)
    (by fin_cases n <;> rfl) rfl (10 * n.val) (by fin_cases n <;> rfl) (ix3 k ch j) (fun b hb => ?_) ?_
  · match b, hb with
    | ⟨0, _⟩, _ => rfl
    | ⟨1, _⟩, _ => rfl
    | ⟨2, _⟩, hb => exact absurd rfl hb
  · show 10 * n.val + j.val = col.val
    exact hcol.symm

/-! ## The lane-packed L1 bank -/

/-- The lane-packed bank as the region finds it: bank 1 reshaped 288×10 → 9×32×10, padded by two columns of the integer 0
    converted to a float, split 12 = 3×4, the channel axis moved last, flattened to 9×3×128. -/
theorem V_main_v12_eq : (V m c main_v12 : S9x3x128.Idx → EReal)
    = shapeCast S9x3x128
        (transpose S9x3x4x32 [0, 2, 3, 1]
          (shapeCast S9x32x3x4
            (pad S9x32x12 ![0, 0, 0] ![0, 0, 2] ![0, 0, 0]
              (shapeCast S9x32x10 (m ((c.tc : Thread nD τ).loc main_arg2)) shapeCasts_S288x10_S9x32x10)
              (sitofp (F := Ideal) .f32 (constantI S_ 32 0#32)) pads_S9x32x10_S9x32x12_000_000_020 h_S_)
            shapeCasts_S9x32x12_S9x32x3x4)
          transposes_S9x32x3x4_S9x3x4x32_0_2_3_1)
        shapeCasts_S9x3x4x32_S9x3x128 := by
  dsimp only [V]
  simp only [hostOps0, hostOps0_1, hostOps0_2, hostOps0_3, hostOps0_4, hostOps0_5, List.flatten_cons, List.flatten_nil, List.append_nil, List.cons_append, List.nil_append]
  after_results
  simp only [StableHlo.TRef.ofBuf, StableHlo.TRef.toBuf, cast_eq]
  rfl

/-- Padding the last axis of a 9×32×10 array by two columns: a column below 10 reads the array there … -/
theorem padCols_apply_lt {α : Type} (x : S9x32x10.Idx → α) (v : S_.Idx → α) (k : Fin 9) (ch : Fin 32) (col : Fin 12)
    (h : col.val < 10) :
    pad S9x32x12 ![0, 0, 0] ![0, 0, 2] ![0, 0, 0] x v pads_S9x32x10_S9x32x12_000_000_020 h_S_ (ix3 k ch col)
      = x (ix3 k ch ⟨col.val, h⟩) := by
  unfold pad
  split
  · next hin =>
    refine congrArg x (funext fun a => Fin.ext ?_)
    match a with
    | ⟨0, _⟩ => show (k.val - 0) / 1 = k.val; omega
    | ⟨1, _⟩ => show (ch.val - 0) / 1 = ch.val; omega
    | ⟨2, _⟩ => show (col.val - 0) / 1 = col.val; omega
  · next hin =>
    refine absurd (fun a => ?_) hin
    match a with
    | ⟨0, _⟩ => exact ⟨Nat.zero_le _, by show (k.val - 0) % 1 = 0; omega, by show (k.val - 0) / 1 < 9; omega⟩
    | ⟨1, _⟩ => exact ⟨Nat.zero_le _, by show (ch.val - 0) % 1 = 0; omega, by show (ch.val - 0) / 1 < 32; omega⟩
    | ⟨2, _⟩ => exact ⟨Nat.zero_le _, by show (col.val - 0) % 1 = 0; omega, by show (col.val - 0) / 1 < 10; omega⟩

/-- … and a column from 10 on reads the padding value. -/
theorem padCols_apply_ge {α : Type} (x : S9x32x10.Idx → α) (v : S_.Idx → α) (k : Fin 9) (ch : Fin 32) (col : Fin 12)
    (h : 10 ≤ col.val) :
    pad S9x32x12 ![0, 0, 0] ![0, 0, 2] ![0, 0, 0] x v pads_S9x32x10_S9x32x12_000_000_020 h_S_ (ix3 k ch col)
      = v (Shape.Idx.first h_S_) := by
  unfold pad
  split
  · next hin =>
    have h2 := (hin ⟨2, by decide⟩).2.2
    have h2' : (col.val - 0) / 1 < 10 := h2
    omega
  · rfl

/-- The padded bank split 3×4 along its columns, the lane axis brought last and flattened: lane l of group g at
    offset k is row (k, l % 32), column 4·g + l / 32 of the bank, the padding value from column 10 on. -/
theorem lanes_apply {α : Type} (x : S288x10.Idx → α) (v : S_.Idx → α) (k : Fin 9) (g : Fin 3) (l : Fin 128) :
    shapeCast S9x3x128
        (transpose S9x3x4x32 [0, 2, 3, 1]
          (shapeCast S9x32x3x4
            (pad S9x32x12 ![0, 0, 0] ![0, 0, 2] ![0, 0, 0] (shapeCast S9x32x10 x shapeCasts_S288x10_S9x32x10) v
              pads_S9x32x10_S9x32x12_000_000_020 h_S_)
            shapeCasts_S9x32x12_S9x32x3x4)
          transposes_S9x32x3x4_S9x3x4x32_0_2_3_1)
        shapeCasts_S9x3x4x32_S9x3x128 (ix3 k g l)
      = if hlt : 4 * g.val + l.val / 32 < 10 then x (ix2 (row k ⟨l.val % 32, by omega⟩) ⟨4 * g.val + l.val / 32, hlt⟩)
        else v (Shape.Idx.first h_S_) := by
  have hl := l.isLt
  have hg := g.isLt
  have hk := k.isLt
  refine (shapeCast_apply _ shapeCasts_S9x3x4x32_S9x3x128 (ix3 k g l)
    (ix4 k g (⟨l.val / 32, by omega⟩ : Fin 4) (⟨l.val % 32, by omega⟩ : Fin 32)) ?_).trans ?_
  · rw [Shape.rowMajor_val_four, Shape.rowMajor_val_three]
    show ((k.val * 3 + g.val) * 4 + l.val / 32) * 32 + l.val % 32 = (k.val * 3 + g.val) * 128 + l.val
    omega
  refine (transpose_apply _ _ transposes_S9x32x3x4_S9x3x4x32_0_2_3_1 _
    (ix4 k (⟨l.val % 32, by omega⟩ : Fin 32) g (⟨l.val / 32, by omega⟩ : Fin 4))
    (fun b => by match b with | ⟨0, _⟩ => rfl | ⟨1, _⟩ => rfl | ⟨2, _⟩ => rfl | ⟨3, _⟩ => rfl)).trans ?_
  refine (shapeCast_apply _ shapeCasts_S9x32x12_S9x32x3x4 _
    (ix3 k (⟨l.val % 32, by omega⟩ : Fin 32) (⟨4 * g.val + l.val / 32, by omega⟩ : Fin 12)) ?_).trans ?_
  · rw [Shape.rowMajor_val_three, Shape.rowMajor_val_four]
    show (k.val * 32 + l.val % 32) * 12 + (4 * g.val + l.val / 32) = ((k.val * 32 + l.val % 32) * 3 + g.val) * 4 + l.val / 32
    omega
  by_cases hlt : 4 * g.val + l.val / 32 < 10
  · rw [dif_pos hlt]
    refine (padCols_apply_lt _ v k _ _ hlt).trans ?_
    exact reshapeBank_apply x k _ _
  · rw [dif_neg hlt]
    exact padCols_apply_ge _ v k _ _ (by show 10 ≤ 4 * g.val + l.val / 32; omega)

/-! ## The two norm rows -/

/-- The sum of squares over the 288 rows, from a zero initial value, reshaped to one row: entry (0, j) is the sum over
    the rows of the squares of column j. -/
theorem normRow_apply (x : FVec Ideal S288x10 .f32) (j : Fin 10) :
    shapeCast S1x10 (Host.reduceAdd (F := Ideal) (mulf x x) (constant (F := Ideal) S_ .f32 0x00000000#32)
        reducesTo_S288x10_S10_d0 h_S_) shapeCasts_S10_S1x10 (ix2 (0 : Fin 1) j)
      = ∑ r : Fin 288, x (ix2 r j) * x (ix2 r j) := by
  refine (shapeCast_a_1a_apply _ shapeCasts_S10_S1x10 (0 : Fin 1) j).trans ?_
  generalize hy : mulf x x = y
  simp only [Host.reduceAdd, Ideal.hostReduceAdd_def]
  rw [Ideal.hostReduceAdd_single reducesTo_S288x10_S10_d0 (by decide)]
  rw [show (constant (F := Ideal) S_ .f32 0x00000000#32) (Shape.Idx.first h_S_) = (0 : EReal) from Ideal.ofBits_zero_f32, zero_add]
  refine Finset.sum_congr rfl fun r _ => ?_
  subst hy
  refine (mulf_apply x x _).trans ?_
  have e : (Shape.Reduces.lift (by decide : S288x10.Reduces [0] S10) (ix1 j) r) = ix2 r j :=
    funext fun a => Fin.ext (by match a with | ⟨0, _⟩ => rfl | ⟨1, _⟩ => rfl)
  rw [e]; rfl

/-- The first norm row as the region finds it: the column sums of the squares of argument 3, as one row. -/
theorem V_main_v18_eq : (V m c main_v18 : S1x10.Idx → EReal)
    = shapeCast S1x10 (Host.reduceAdd (F := Ideal) (mulf (m ((c.tc : Thread nD τ).loc main_arg3)) (m ((c.tc : Thread nD τ).loc main_arg3)))
        (constant (F := Ideal) S_ .f32 0x00000000#32) reducesTo_S288x10_S10_d0 h_S_) shapeCasts_S10_S1x10 := by
  dsimp only [V]
  simp only [hostOps0, hostOps0_1, hostOps0_2, hostOps0_3, hostOps0_4, hostOps0_5, List.flatten_cons, List.flatten_nil, List.append_nil, List.cons_append, List.nil_append]
  after_results
  rfl

/-- The second norm row as the region finds it: the column sums of the squares of argument 5, as one row. -/
theorem V_main_v21_eq : (V m c main_v21 : S1x10.Idx → EReal)
    = shapeCast S1x10 (Host.reduceAdd (F := Ideal) (mulf (m ((c.tc : Thread nD τ).loc main_arg5)) (m ((c.tc : Thread nD τ).loc main_arg5)))
        (constant (F := Ideal) S_ .f32 0x00000000#32) reducesTo_S288x10_S10_d0 h_S_) shapeCasts_S10_S1x10 := by
  dsimp only [V]
  simp only [hostOps0, hostOps0_1, hostOps0_2, hostOps0_3, hostOps0_4, hostOps0_5, List.flatten_cons, List.flatten_nil, List.append_nil, List.cons_append, List.nil_append]
  after_results
  rfl

/-- The packed linear bank: column `packedCol b j` of offset `k`, channel `ch` is bank `b`'s entry (row k ch, j). -/
theorem V_packed (k : Fin 9) (ch : Fin 32) (b : Fin 8) (hb : b.val ≠ 1) (j : Fin 10) :
    V m c main_v7 (ix3 k ch (packedCol b j)) = banks m c b (row k ch) j := by
  refine (congrFun (V_main_v7_eq m c) _).trans ?_
  match b, hb with
  | ⟨0, _⟩, _ => exact (packed_apply _ _ _ _ _ _ _ 0 k ch j _ rfl).trans (reshapeBank_apply _ k ch j)
  | ⟨1, _⟩, hb => exact absurd rfl hb
  | ⟨2, _⟩, _ => exact (packed_apply _ _ _ _ _ _ _ 1 k ch j _ rfl).trans (reshapeBank_apply _ k ch j)
  | ⟨3, _⟩, _ => exact (packed_apply _ _ _ _ _ _ _ 2 k ch j _ rfl).trans (reshapeBank_apply _ k ch j)
  | ⟨4, _⟩, _ => exact (packed_apply _ _ _ _ _ _ _ 3 k ch j _ rfl).trans (reshapeBank_apply _ k ch j)
  | ⟨5, _⟩, _ => exact (packed_apply _ _ _ _ _ _ _ 4 k ch j _ rfl).trans (reshapeBank_apply _ k ch j)
  | ⟨6, _⟩, _ => exact (packed_apply _ _ _ _ _ _ _ 5 k ch j _ rfl).trans (reshapeBank_apply _ k ch j)
  | ⟨7, _⟩, _ => exact (packed_apply _ _ _ _ _ _ _ 6 k ch j _ rfl).trans (reshapeBank_apply _ k ch j)

/-- The lane-packed L1 bank: lane `l` of group `g` at offset `k` is bank 1's entry (row k (l % 32), 4·g + l / 32), zero for
    the two padded columns. -/
theorem V_lanes (k : Fin 9) (g : Fin 3) (l : Fin 128) :
    V m c main_v12 (ix3 k g l)
      = if hlt : 4 * g.val + l.val / 32 < 10 then banks m c ⟨1, by omega⟩ (row k ⟨l.val % 32, by omega⟩) ⟨4 * g.val + l.val / 32, hlt⟩ else 0 := by
  refine (congrFun (V_main_v12_eq m c) _).trans ?_
  refine (lanes_apply _ _ k g l).trans ?_
  by_cases hlt : 4 * g.val + l.val / 32 < 10
  · rw [dif_pos hlt, dif_pos hlt]
    rfl
  · rw [dif_neg hlt, dif_neg hlt]
    show (((0#32 : BitVec 32).toInt : ℝ) : EReal) = 0
    simp

/-- The selector of lane groups. -/
theorem V_selector (l : Fin 128) (u : Fin 4) :
    V m c main_v15 (ix2 l u) = if l.val / 32 = u.val then (1 : EReal) else 0 := by
  exact selector_value m c l u

/-- The staged squared norms of banks 3 and 5. -/
theorem V_norm3 (j : Fin 10) : V m c main_v18 (ix2 0 j) = colSq (banks m c ⟨2, by omega⟩) j := by
  exact (congrFun (V_main_v18_eq m c) (ix2 0 j)).trans (normRow_apply _ j)
theorem V_norm5 (j : Fin 10) : V m c main_v21 (ix2 0 j) = colSq (banks m c ⟨4, by omega⟩) j := by
  exact (congrFun (V_main_v21_eq m c) (ix2 0 j)).trans (normRow_apply _ j)

end Cert.KernelIdeal.Entry

end
-- ==== Proof.IdealArray.lean ====
/-
  The kernel's result array, index by index, is the convolution bank of the specification.

  Point t of the grid stages image t of the batch and the whole of each filter array the host prefix prepared, and
  writes back block t of the result: rows (t, ·, ·, ·). What it writes is the point's block of the staged blocks, which —
  the staged arrays being what the prefix makes of the eight banks — is the specification's output for image t. The
  eight blocks tile the result array, so the array ends at the specification's array; the arguments end as launched.
-/
import proofs.«416126_j12043088298095_3_alg».proof.Proof.IdealLaunch
import proofs.«416126_j12043088298095_3_alg».proof.Proof.IdealMeets
import proofs.«416126_j12043088298095_3_alg».proof.Proof.IdealHostValues

set_option maxRecDepth 16384

noncomputable section

namespace Cert.KernelIdeal.Whole

open Cert.KernelIdeal Cert.KernelIdeal.Gen Cert.KernelIdeal.Entry Cert.KernelIdeal.Point Cert.KernelIdeal.Launch Cert.ConvBank
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- A grid point is an image's number. -/
theorem point_lt (t : Fin cfg0.N) : t.val < 8 := lt_of_lt_of_eq t.isLt N_0

/-- Image `n` of the batch. -/
def image (c : Dev nD) (n : Fin 8) : Img := fun h w ch => m ((c.tc : Thread nD τ).loc main_arg0) (ix4 n h w ch)

/-- The specification's result array. -/
def result (c : Dev nD) : Buf (Elt Ideal) ((c.tc : Thread nD τ).loc main_v22) :=
  fun i : S8x64x64x80.Idx => outAt (image m c (i 0)) (banks m c) (i 1) (i 2) (brOf (i 3)) (chOf (i 3))

/-- The printed index maps, decided over the grid: the image and result windows move with the point along the batch
    axis; the five filter windows stay at block zero. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_6.index t (0 : Fin 4) = t.val ∧ win0_6.index t (1 : Fin 4) = 0 ∧ win0_6.index t (2 : Fin 4) = 0 ∧ win0_6.index t (3 : Fin 4) = 0)
    ∧ (∀ a : Fin 3, win0_1.index t a = 0) ∧ (∀ a : Fin 3, win0_2.index t a = 0) ∧ (∀ a : Fin 2, win0_3.index t a = 0)
    ∧ (∀ a : Fin 2, win0_4.index t a = 0) ∧ (∀ a : Fin 2, win0_5.index t a = 0) :=
  (by decide +kernel : ∀ t : Fin grid0.N, _)

/-- The image window's block at point `t` is image `t`. -/
theorem image_block (c : Dev nD) (t : Fin cfg0.N) (x : S1x64x64x32.Idx) (k : S8x64x64x32.Idx)
    (h0 : (k 0).val = t.val) (h1 : (k 1).val = (x 1).val) (h2 : (k 2).val = (x 2).val) (h3 : (k 3).val = (x 3).val) :
    (iblk m c 0 t : Vec Ideal S1x64x64x32 .f32) x = (m ((c.tc : Thread nD τ).loc main_arg0) : S8x64x64x32.Idx → EReal) k := by
  obtain ⟨⟨e0, e1, e2, e3⟩, -⟩ := idx_facts t
  have hx0 : (x 0).val < 1 := (x 0).isLt
  unfold iblk
  rw [View.read_apply]
  show V m c main_arg0 _ = m (c.tc.loc main_arg0) _
  rw [V_main_arg0 m c]
  congr 1
  funext a
  apply Fin.ext
  match a with
  | ⟨0, _⟩ => show win0_0.index t 0 * 1 + 1 * (x 0).val = (k 0).val; rw [e0, h0]; omega
  | ⟨1, _⟩ => show win0_0.index t 1 * 64 + 1 * (x 1).val = (k 1).val; rw [e1, h1]; omega
  | ⟨2, _⟩ => show win0_0.index t 2 * 64 + 1 * (x 2).val = (k 2).val; rw [e2, h2]; omega
  | ⟨3, _⟩ => show win0_0.index t 3 * 32 + 1 * (x 3).val = (k 3).val; rw [e3, h3]; omega

/-- Window 1 stages its whole array at every point. -/
theorem whole_block1 (c : Dev nD) (t : Fin cfg0.N) (y : S9x32x70.Idx) :
    (iblk m c 1 t : Vec Ideal S9x32x70 .f32) y = (V m c main_v7 : S9x32x70.Idx → EReal) y := by
  obtain ⟨-, -, e1, e2, e3, e4, e5⟩ := idx_facts t
  unfold iblk
  rw [View.read_apply]
  show V m c main_v7 _ = V m c main_v7 _
  congr 1
  funext a
  apply Fin.ext
  match a with
  | ⟨0, _⟩ => show win0_1.index t 0 * 9 + 1 * (y 0).val = (y 0).val; rw [e1 0]; omega
  | ⟨1, _⟩ => show win0_1.index t 1 * 32 + 1 * (y 1).val = (y 1).val; rw [e1 1]; omega
  | ⟨2, _⟩ => show win0_1.index t 2 * 70 + 1 * (y 2).val = (y 2).val; rw [e1 2]; omega

/-- Window 2 stages its whole array at every point. -/
theorem whole_block2 (c : Dev nD) (t : Fin cfg0.N) (y : S9x3x128.Idx) :
    (iblk m c 2 t : Vec Ideal S9x3x128 .f32) y = (V m c main_v12 : S9x3x128.Idx → EReal) y := by
  obtain ⟨-, -, e1, e2, e3, e4, e5⟩ := idx_facts t
  unfold iblk
  rw [View.read_apply]
  show V m c main_v12 _ = V m c main_v12 _
  congr 1
  funext a
  apply Fin.ext
  match a with
  | ⟨0, _⟩ => show win0_2.index t 0 * 9 + 1 * (y 0).val = (y 0).val; rw [e2 0]; omega
  | ⟨1, _⟩ => show win0_2.index t 1 * 3 + 1 * (y 1).val = (y 1).val; rw [e2 1]; omega
  | ⟨2, _⟩ => show win0_2.index t 2 * 128 + 1 * (y 2).val = (y 2).val; rw [e2 2]; omega

/-- Window 3 stages its whole array at every point. -/
theorem whole_block3 (c : Dev nD) (t : Fin cfg0.N) (y : S128x4.Idx) :
    (iblk m c 3 t : Vec Ideal S128x4 .f32) y = (V m c main_v15 : S128x4.Idx → EReal) y := by
  obtain ⟨-, -, e1, e2, e3, e4, e5⟩ := idx_facts t
  unfold iblk
  rw [View.read_apply]
  show V m c main_v15 _ = V m c main_v15 _
  congr 1
  funext a
  apply Fin.ext
  match a with
  | ⟨0, _⟩ => show win0_3.index t 0 * 128 + 1 * (y 0).val = (y 0).val; rw [e3 0]; omega
  | ⟨1, _⟩ => show win0_3.index t 1 * 4 + 1 * (y 1).val = (y 1).val; rw [e3 1]; omega

/-- Window 4 stages its whole array at every point. -/
theorem whole_block4 (c : Dev nD) (t : Fin cfg0.N) (y : S1x10.Idx) :
    (iblk m c 4 t : Vec Ideal S1x10 .f32) y = (V m c main_v18 : S1x10.Idx → EReal) y := by
  obtain ⟨-, -, e1, e2, e3, e4, e5⟩ := idx_facts t
  unfold iblk
  rw [View.read_apply]
  show V m c main_v18 _ = V m c main_v18 _
  congr 1
  funext a
  apply Fin.ext
  match a with
  | ⟨0, _⟩ => show win0_4.index t 0 * 1 + 1 * (y 0).val = (y 0).val; rw [e4 0]; omega
  | ⟨1, _⟩ => show win0_4.index t 1 * 10 + 1 * (y 1).val = (y 1).val; rw [e4 1]; omega

/-- Window 5 stages its whole array at every point. -/
theorem whole_block5 (c : Dev nD) (t : Fin cfg0.N) (y : S1x10.Idx) :
    (iblk m c 5 t : Vec Ideal S1x10 .f32) y = (V m c main_v21 : S1x10.Idx → EReal) y := by
  obtain ⟨-, -, e1, e2, e3, e4, e5⟩ := idx_facts t
  unfold iblk
  rw [View.read_apply]
  show V m c main_v21 _ = V m c main_v21 _
  congr 1
  funext a
  apply Fin.ext
  match a with
  | ⟨0, _⟩ => show win0_5.index t 0 * 1 + 1 * (y 0).val = (y 0).val; rw [e5 0]; omega
  | ⟨1, _⟩ => show win0_5.index t 1 * 10 + 1 * (y 1).val = (y 1).val; rw [e5 1]; omega

/-- What point `t` writes back is block `t` of the specification's array. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  funext j
  obtain ⟨z, h, w, o, rfl⟩ : ∃ (z : Fin 1) (h w : Fin 64) (o : Fin 80), j = ix4 z h w o := ⟨j 0, j 1, j 2, j 3, eq_ix4 j⟩
  obtain rfl : z = 0 := Subsingleton.elim _ _
  rw [View.read_apply]
  have hemb : ((cfg0.win 6).blk t).view.emb (ix4 (0 : Fin 1) h w o) = (ix4 (⟨t.val, point_lt t⟩ : Fin 8) h w o : S8x64x64x80.Idx) := by
    obtain ⟨-, ⟨e0, e1, e2, e3⟩, -⟩ := idx_facts t
    funext a
    apply Fin.ext
    match a with
    | ⟨0, _⟩ => show win0_6.index t 0 * 1 + 1 * 0 = t.val; rw [e0]; omega
    | ⟨1, _⟩ => show win0_6.index t 1 * 64 + 1 * h.val = h.val; rw [e1]; omega
    | ⟨2, _⟩ => show win0_6.index t 2 * 64 + 1 * w.val = w.val; rw [e2]; omega
    | ⟨3, _⟩ => show win0_6.index t 3 * 80 + 1 * o.val = o.val; rw [e3]; omega
  rw [hemb]
  show View.canon (runAt m c t).1 (ix4 0 h w o) = outAt (image m c ⟨t.val, point_lt t⟩) (banks m c) h w (brOf o) (chOf o)
  rw [block_value c (ms0 t) (hs0 t) (ms1 t) (hs1 t) (ms2 t) (hs2 t) (ms3 t) (hs3 t) (ms4 t) (hs4 t) (ms5 t) (hs5 t) (ms6 t) (hs6 t)
      (Memref.whole cc0_scratch0) (Memref.isWhole_whole _) (Memref.whole cc0_scratch1) (Memref.isWhole_whole _) (Memref.whole cc0_scratch2) (Memref.isWhole_whole _)
      (iblk m c 0 t) (iblk m c 1 t) (iblk m c 2 t) (iblk m c 3 t) (iblk m c 4 t) (iblk m c 5 t) (grid0.coords t) h w o,
    kBlock_eq_outAt (iblk m c 0 t) (iblk m c 1 t) (iblk m c 2 t) (iblk m c 3 t) (iblk m c 4 t) (iblk m c 5 t) (banks m c)
      (fun k ch b hb j => (whole_block1 m c t _).trans (V_packed m c k ch b hb j))
      (fun k g l => (whole_block2 m c t _).trans (V_lanes m c k g l))
      (fun l u => (whole_block3 m c t _).trans (V_selector m c l u))
      (fun j => (whole_block4 m c t _).trans (V_norm3 m c j))
      (fun j => (whole_block5 m c t _).trans (V_norm5 m c j)) h w (brOf o) (chOf o)]
  congr 1
  funext h' w' ch
  exact image_block m c t _ _ rfl rfl rfl rfl

/-- The eight blocks tile the result array, so it ends at the specification's array. -/
theorem final6 (c : Dev nD) : (dats m 0 c).arrAt 6 cfg0.N = result m c :=
  (dats m 0 c).arrAt_eq_of_cover 6 (result m c) (fun t _ => flushed_eq m c t) fun i => by
    have hi0 : (i 0).val < 8 := (i 0).isLt
    have hi1 : (i 1).val < 64 := (i 1).isLt
    have hi2 : (i 2).val < 64 := (i 2).isLt
    have hi3 : (i 3).val < 80 := (i 3).isLt
    obtain ⟨t, ht⟩ : ∃ t : Fin cfg0.N, t.val = (i 0).val := ⟨⟨(i 0).val, lt_of_lt_of_eq hi0 N_0.symm⟩, rfl⟩
    refine ⟨t, flush0_6 t, ?_⟩
    obtain ⟨-, ⟨e0, e1, e2, e3⟩, -⟩ := idx_facts t
    show i ∈ ((View.whole main_v22).slice (win0_6.rect t)).set
    rw [View.set_slice_whole, Rect.mem_set_unit]
    intro a
    match a with
    | ⟨0, _⟩ => show win0_6.index t 0 * 1 ≤ (i 0).val ∧ (i 0).val < win0_6.index t 0 * 1 + 1; rw [e0]; omega
    | ⟨1, _⟩ => show win0_6.index t 1 * 64 ≤ (i 1).val ∧ (i 1).val < win0_6.index t 1 * 64 + 64; rw [e1]; omega
    | ⟨2, _⟩ => show win0_6.index t 2 * 64 ≤ (i 2).val ∧ (i 2).val < win0_6.index t 2 * 64 + 64; rw [e2]; omega
    | ⟨3, _⟩ => show win0_6.index t 3 * 80 ≤ (i 3).val ∧ (i 3).val < win0_6.index t 3 * 80 + 80; rw [e3]; omega

/-- The kernel's run, read: the result array at the specification's array, the nine arguments unchanged. -/
theorem run : θ_run defs (onTc (τ := τ) (main (F := Ideal))) ⟨m, fun _ => 0, ρ⟩ fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).1 6).trans (final6 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.Whole

end
-- ==== Proof.RefRun.lean ====
/-
  The reference program's run, read at its last stage.

  The reference is eighty-five host operations and nothing else. Every weakly fair execution of it terminates, and
  each buffer ends at the operations' composed value of the launch contents; the result buffer's composed value is the
  last stage of the stage-by-stage reading (the eight branches joined along the channel axis), and no operation writes
  an argument.
-/
import proofs.«416126_j12043088298095_3_alg».proof.Proof.RefRunP
import proofs.«416126_j12043088298095_3_alg».proof.Proof.RefReadP

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The last stage at the launch contents of the nine arguments. -/
abbrev result (m : (ℓ : Loc nD τ sig) → Buf (Elt F) ℓ) (c : Dev nD) : Buf (Elt F) ((c.tc : Thread nD τ).loc main_v67) :=
  val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

set_option maxRecDepth 8192 in
set_option maxHeartbeats 34000000 in
/-- On every device, from any memory with zero counters: every weakly fair execution of the reference terminates with
    the result buffer at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v67).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.RefRun

end
-- ==== Proof.RefStages.lean ====
/-
  The reference program's run and its stages read at an index, gathered for the modules that compare the two programs.
-/
import proofs.«416126_j12043088298095_3_alg».proof.Proof.RefRun
-- ==== Proof.RefValue.lean ====
/-
  The reference program's result, index by index, is the convolution bank of the specification: its patches are the
  nine shifted slices of the zero-padded batch joined along the channel axis (row 32·k + c is window k, channel c), each
  branch a host product, sum or pointwise function of them, and the eight results joined along the last axis.
-/
import proofs.«416126_j12043088298095_3_alg».proof.Proof.RefStages
import proofs.«416126_j12043088298095_3_alg».proof.Proof.ConvLaws
import Idealize.ShloMosaic.Lib.Pipeline.Value
import Idealize.ShloMosaic.Lib.ValueLayout
import Idealize.ShloMosaic.Lib.KernelVsHost
import Idealize.ShloMosaic.PureOps.Ideal.Laws

set_option maxRecDepth 16384

noncomputable section

namespace Cert.ReferenceIdeal.RefValue

open Cert.ReferenceIdeal Cert.ReferenceIdeal.Gen Cert.ConvBank
open Idealize.ShloMosaic Idealize.ShloMosaic.TcCoe Idealize.ShloMosaic.ValueIdx Idealize.SL.Sem

open Cert.ReferenceIdeal.ReadP

/-- Image `n` of a batch. -/
def img (x0 : (⟨S8x64x64x32, .f32⟩ : BufTy).Contents (Elt Ideal)) (n : Fin 8) : Img := fun h w ch => x0 (ix4 n h w ch)

/-- A filter bank from its array. -/
def bank (x : (⟨S288x10, .f32⟩ : BufTy).Contents (Elt Ideal)) : Bank := fun r j => x (ix2 r j)

/-- The pad value is zero. -/
theorem padValue : val_main_call0_v0 (F := Ideal) (Shape.Idx.first h_S_) = 0 := by
  show ((((0#32 : BitVec 32).toInt : ℤ) : ℝ) : EReal) = 0
  simp

/-- The padded batch at padded coordinates. -/
theorem pad_eq (x0 : (⟨S8x64x64x32, .f32⟩ : BufTy).Contents (Elt Ideal)) (n : Fin 8) (a b : Fin 66) (c : Fin 32) :
    val_main_v0 (F := Ideal) x0 (ix4 n a b c) = padAt (img x0 n) a.val b.val c := by
  unfold val_main_v0 padAt
  split
  · next hin =>
    exact pad_apply_of_inside _ _ _ x0 _ pads_S8x64x64x32_S8x66x66x32_000_110_110_000 h_S_ (ix4 n a b c)
      (ix4 n ⟨a.val - 1, by omega⟩ ⟨b.val - 1, by omega⟩ c) (fun ax => match ax with
        | ⟨0, _⟩ => by show n.val = 0 + n.val * (0 + 1); omega
        | ⟨1, _⟩ => by show a.val = 1 + (a.val - 1) * (0 + 1); omega
        | ⟨2, _⟩ => by show b.val = 1 + (b.val - 1) * (0 + 1); omega
        | ⟨3, _⟩ => by show c.val = 0 + c.val * (0 + 1); omega)
  · next hout =>
    by_cases ha : 1 ≤ a.val ∧ a.val ≤ 64
    · have hb : ¬(1 ≤ b.val ∧ b.val ≤ 64) := fun hb => hout ⟨ha, hb⟩
      rw [pad_apply_of_not_inside _ _ _ x0 _ pads_S8x64x64x32_S8x66x66x32_000_110_110_000 h_S_ (ix4 n a b c) 2 (by
        show ¬(1 ≤ b.val ∧ (b.val - 1) % (0 + 1) = 0 ∧ (b.val - 1) / (0 + 1) < 64); omega)]
      exact padValue
    · rw [pad_apply_of_not_inside _ _ _ x0 _ pads_S8x64x64x32_S8x66x66x32_000_110_110_000 h_S_ (ix4 n a b c) 1 (by
        show ¬(1 ≤ a.val ∧ (a.val - 1) % (0 + 1) = 0 ∧ (a.val - 1) / (0 + 1) < 64); omega)]
      exact padValue

/-- A slice of the padded batch at a pixel is the padded image at the shifted pixel. -/
theorem slice_eq (x0 : (⟨S8x64x64x32, .f32⟩ : BufTy).Contents (Elt Ideal)) (n : Fin 8) (h w : Fin 64) (c : Fin 32)
    (i : S8x66x66x32.Idx) (di dj : ℕ) (hdi : di ≤ 2) (hdj : dj ≤ 2)
    (h0 : (i 0).val = n.val) (h1 : (i 1).val = di + h.val) (h2 : (i 2).val = dj + w.val) (h3 : (i 3).val = c.val) :
    val_main_v0 (F := Ideal) x0 i = padAt (img x0 n) (h.val + di) (w.val + dj) c := by
  have e : i = ix4 n (⟨h.val + di, by omega⟩ : Fin 66) (⟨w.val + dj, by omega⟩ : Fin 66) c :=
    funext fun a => Fin.ext (by
      match a with
      | ⟨0, _⟩ => exact h0
      | ⟨1, _⟩ => show (i 1).val = h.val + di; omega
      | ⟨2, _⟩ => show (i 2).val = w.val + dj; omega
      | ⟨3, _⟩ => exact h3)
  rw [e]
  exact pad_eq x0 n _ _ c

/-- Window k = 3·i + j reads the padded image at (h + i, w + j). -/
theorem win_at (x : Img) (k : Fin 9) (h w : Fin 64) (c : Fin 32) (di dj : ℕ) (hk : k.val = 3 * di + dj) (hdj : dj < 3) :
    win x k h w c = padAt x (h.val + di) (w.val + dj) c := by
  unfold win
  rw [show k.val / 3 = di by omega, show k.val % 3 = dj by omega]

/-- The patch: row 32·k + c of the joined slices is window k, channel c. -/
theorem patch (x0 : (⟨S8x64x64x32, .f32⟩ : BufTy).Contents (Elt Ideal)) (n : Fin 8) (h w : Fin 64) (k : Fin 9) (c : Fin 32) :
    val_main_v10 (F := Ideal) x0 (ix4 n h w (row k c)) = win (img x0 n) k h w c := by
  unfold val_main_v10
  match k with
  | ⟨0, _⟩ =>
    refine (concatenate_apply_piece _ _ _ (ix4 n h w (row ⟨0, by omega⟩ c)) 0 (by show (0 : ℕ) < 9; omega) S8x64x64x32 _ rfl rfl (32 * 0) rfl
      (ix4 n h w c) (fun b hb => by
        match b, hb with
        | ⟨0, _⟩, _ => rfl
        | ⟨1, _⟩, _ => rfl
        | ⟨2, _⟩, _ => rfl
        | ⟨3, _⟩, hb => exact absurd rfl hb) rfl).trans ?_
    rw [val_main_v1_apply]
    exact (slice_eq x0 n h w c (idx_main_v1 (ix4 n h w c)) 0 0 (by omega) (by omega) rfl (Nat.zero_add _).symm (Nat.zero_add _).symm rfl).trans (win_at _ _ h w c 0 0 rfl (by omega)).symm
  | ⟨1, _⟩ =>
    refine (concatenate_apply_piece _ _ _ (ix4 n h w (row ⟨1, by omega⟩ c)) 1 (by show (1 : ℕ) < 9; omega) S8x64x64x32 _ rfl rfl (32 * 1) rfl
      (ix4 n h w c) (fun b hb => by
        match b, hb with
        | ⟨0, _⟩, _ => rfl
        | ⟨1, _⟩, _ => rfl
        | ⟨2, _⟩, _ => rfl
        | ⟨3, _⟩, hb => exact absurd rfl hb) rfl).trans ?_
    rw [val_main_v2_apply]
    exact (slice_eq x0 n h w c (idx_main_v2 (ix4 n h w c)) 0 1 (by omega) (by omega) rfl (Nat.zero_add _).symm rfl rfl).trans (win_at _ _ h w c 0 1 rfl (by omega)).symm
  | ⟨2, _⟩ =>
    refine (concatenate_apply_piece _ _ _ (ix4 n h w (row ⟨2, by omega⟩ c)) 2 (by show (2 : ℕ) < 9; omega) S8x64x64x32 _ rfl rfl (32 * 2) rfl
      (ix4 n h w c) (fun b hb => by
        match b, hb with
        | ⟨0, _⟩, _ => rfl
        | ⟨1, _⟩, _ => rfl
        | ⟨2, _⟩, _ => rfl
        | ⟨3, _⟩, hb => exact absurd rfl hb) rfl).trans ?_
    rw [val_main_v3_apply]
    exact (slice_eq x0 n h w c (idx_main_v3 (ix4 n h w c)) 0 2 (by omega) (by omega) rfl (Nat.zero_add _).symm rfl rfl).trans (win_at _ _ h w c 0 2 rfl (by omega)).symm
  | ⟨3, _⟩ =>
    refine (concatenate_apply_piece _ _ _ (ix4 n h w (row ⟨3, by omega⟩ c)) 3 (by show (3 : ℕ) < 9; omega) S8x64x64x32 _ rfl rfl (32 * 3) rfl
      (ix4 n h w c) (fun b hb => by
        match b, hb with
        | ⟨0, _⟩, _ => rfl
        | ⟨1, _⟩, _ => rfl
        | ⟨2, _⟩, _ => rfl
        | ⟨3, _⟩, hb => exact absurd rfl hb) rfl).trans ?_
    rw [val_main_v4_apply]
    exact (slice_eq x0 n h w c (idx_main_v4 (ix4 n h w c)) 1 0 (by omega) (by omega) rfl rfl (Nat.zero_add _).symm rfl).trans (win_at _ _ h w c 1 0 rfl (by omega)).symm
  | ⟨4, _⟩ =>
    refine (concatenate_apply_piece _ _ _ (ix4 n h w (row ⟨4, by omega⟩ c)) 4 (by show (4 : ℕ) < 9; omega) S8x64x64x32 _ rfl rfl (32 * 4) rfl
      (ix4 n h w c) (fun b hb => by
        match b, hb with
        | ⟨0, _⟩, _ => rfl
        | ⟨1, _⟩, _ => rfl
        | ⟨2, _⟩, _ => rfl
        | ⟨3, _⟩, hb => exact absurd rfl hb) rfl).trans ?_
    rw [val_main_v5_apply]
    exact (slice_eq x0 n h w c (idx_main_v5 (ix4 n h w c)) 1 1 (by omega) (by omega) rfl rfl rfl rfl).trans (win_at _ _ h w c 1 1 rfl (by omega)).symm
  | ⟨5, _⟩ =>
    refine (concatenate_apply_piece _ _ _ (ix4 n h w (row ⟨5, by omega⟩ c)) 5 (by show (5 : ℕ) < 9; omega) S8x64x64x32 _ rfl rfl (32 * 5) rfl
      (ix4 n h w c) (fun b hb => by
        match b, hb with
        | ⟨0, _⟩, _ => rfl
        | ⟨1, _⟩, _ => rfl
        | ⟨2, _⟩, _ => rfl
        | ⟨3, _⟩, hb => exact absurd rfl hb) rfl).trans ?_
    rw [val_main_v6_apply]
    exact (slice_eq x0 n h w c (idx_main_v6 (ix4 n h w c)) 1 2 (by omega) (by omega) rfl rfl rfl rfl).trans (win_at _ _ h w c 1 2 rfl (by omega)).symm
  | ⟨6, _⟩ =>
    refine (concatenate_apply_piece _ _ _ (ix4 n h w (row ⟨6, by omega⟩ c)) 6 (by show (6 : ℕ) < 9; omega) S8x64x64x32 _ rfl rfl (32 * 6) rfl
      (ix4 n h w c) (fun b hb => by
        match b, hb with
        | ⟨0, _⟩, _ => rfl
        | ⟨1, _⟩, _ => rfl
        | ⟨2, _⟩, _ => rfl
        | ⟨3, _⟩, hb => exact absurd rfl hb) rfl).trans ?_
    rw [val_main_v7_apply]
    exact (slice_eq x0 n h w c (idx_main_v7 (ix4 n h w c)) 2 0 (by omega) (by omega) rfl rfl (Nat.zero_add _).symm rfl).trans (win_at _ _ h w c 2 0 rfl (by omega)).symm
  | ⟨7, _⟩ =>
    refine (concatenate_apply_piece _ _ _ (ix4 n h w (row ⟨7, by omega⟩ c)) 7 (by show (7 : ℕ) < 9; omega) S8x64x64x32 _ rfl rfl (32 * 7) rfl
      (ix4 n h w c) (fun b hb => by
        match b, hb with
        | ⟨0, _⟩, _ => rfl
        | ⟨1, _⟩, _ => rfl
        | ⟨2, _⟩, _ => rfl
        | ⟨3, _⟩, hb => exact absurd rfl hb) rfl).trans ?_
    rw [val_main_v8_apply]
    exact (slice_eq x0 n h w c (idx_main_v8 (ix4 n h w c)) 2 1 (by omega) (by omega) rfl rfl rfl rfl).trans (win_at _ _ h w c 2 1 rfl (by omega)).symm
  | ⟨8, _⟩ =>
    refine (concatenate_apply_piece _ _ _ (ix4 n h w (row ⟨8, by omega⟩ c)) 8 (by show (8 : ℕ) < 9; omega) S8x64x64x32 _ rfl rfl (32 * 8) rfl
      (ix4 n h w c) (fun b hb => by
        match b, hb with
        | ⟨0, _⟩, _ => rfl
        | ⟨1, _⟩, _ => rfl
        | ⟨2, _⟩, _ => rfl
        | ⟨3, _⟩, hb => exact absurd rfl hb) rfl).trans ?_
    rw [val_main_v9_apply]
    exact (slice_eq x0 n h w c (idx_main_v9 (ix4 n h w c)) 2 2 (by omega) (by omega) rfl rfl rfl rfl).trans (win_at _ _ h w c 2 2 rfl (by omega)).symm

local macro "idx_rfl1" : term => `(funext fun a => Fin.ext (by match a with | ⟨0, _⟩ => rfl))
local macro "idx_rfl2" : term => `(funext fun a => Fin.ext (by match a with | ⟨0, _⟩ => rfl | ⟨1, _⟩ => rfl))
local macro "idx_rfl3" : term => `(funext fun a => Fin.ext (by match a with | ⟨0, _⟩ => rfl | ⟨1, _⟩ => rfl | ⟨2, _⟩ => rfl))
local macro "idx_rfl4" : term => `(funext fun a => Fin.ext (by match a with | ⟨0, _⟩ => rfl | ⟨1, _⟩ => rfl | ⟨2, _⟩ => rfl | ⟨3, _⟩ => rfl))

/-- The correlation of the patch with one column of a bank. -/
theorem lin_eq (x0 : (⟨S8x64x64x32, .f32⟩ : BufTy).Contents (Elt Ideal)) (x : (⟨S288x10, .f32⟩ : BufTy).Contents (Elt Ideal))
    (n : Fin 8) (h w : Fin 64) (j : Fin 10) :
    ∑ r : Fin 288, val_main_v10 (F := Ideal) x0 (ix4 n h w r) * x (ix2 r j) = dotW (img x0 n) (col (bank x) j) h w := by
  rw [sum_rows]
  unfold dotW col bank
  exact Finset.sum_congr rfl fun k _ => Finset.sum_congr rfl fun c _ => by rw [patch]

/-- The squared norm of the patch. -/
theorem sq12 (x0 : (⟨S8x64x64x32, .f32⟩ : BufTy).Contents (Elt Ideal)) (n : Fin 8) (h w : Fin 64) :
    val_main_v12 (F := Ideal) x0 (ix3 n h w) = sqSum (img x0 n) h w := by
  rw [val_main_v12_apply]
  have z : val_main_cst (F := Ideal) (Shape.Idx.first h_S_) = 0 := Ideal.ofBits_zero_f32
  rw [z, zero_add, sum_rows]
  unfold sqSum
  refine Finset.sum_congr rfl fun k _ => Finset.sum_congr rfl fun c _ => ?_
  rw [val_main_v11_apply, show idx_main_v12 (ix3 n h w) (row k c) = ix4 n h w (row k c) from idx_rfl4, patch]
  rfl

/-- The L1 distance of the patch to one column of a bank. -/
theorem l1_21 (x0 : (⟨S8x64x64x32, .f32⟩ : BufTy).Contents (Elt Ideal)) (x2 : (⟨S288x10, .f32⟩ : BufTy).Contents (Elt Ideal))
    (n : Fin 8) (h w : Fin 64) (j : Fin 10) :
    val_main_v21 (F := Ideal) x0 x2 (ix4 n h w j) = l1W (img x0 n) (col (bank x2) j) h w := by
  rw [val_main_v21_apply]
  have z : val_main_cst_0 (F := Ideal) (Shape.Idx.first h_S_) = 0 := Ideal.ofBits_zero_f32
  rw [z, zero_add, sum_rows]
  unfold l1W col bank
  refine Finset.sum_congr rfl fun k _ => Finset.sum_congr rfl fun c _ => ?_
  rw [val_main_v20_apply, val_main_v19_apply, val_main_v17_apply, val_main_v15_apply, val_main_v18_apply, val_main_v16_apply,
    show idx_main_v15 (idx_main_v17 (idx_main_v21 (ix4 n h w j) (row k c))) = ix4 n h w (row k c) from idx_rfl4,
    show idx_main_v16 (idx_main_v18 (idx_main_v21 (ix4 n h w j) (row k c))) = ix2 (row k c) j from idx_rfl2, patch]
  rfl

/-- The squared norm of one column of bank 3. -/
theorem colsq28 (x : (⟨S288x10, .f32⟩ : BufTy).Contents (Elt Ideal)) (j : Fin 10) :
    val_main_v28 (F := Ideal) x (ix1 j) = colSq (bank x) j := by
  rw [val_main_v28_apply]
  have z : val_main_cst_2 (F := Ideal) (Shape.Idx.first h_S_) = 0 := Ideal.ofBits_zero_f32
  rw [z, zero_add]
  unfold colSq bank
  refine Finset.sum_congr rfl fun r _ => ?_
  rw [val_main_v27_apply, show idx_main_v28 (ix1 j) r = ix2 r j from idx_rfl2]
  rfl

/-- The squared norm of one column of bank 5. -/
theorem colsq43 (x : (⟨S288x10, .f32⟩ : BufTy).Contents (Elt Ideal)) (j : Fin 10) :
    val_main_v43 (F := Ideal) x (ix1 j) = colSq (bank x) j := by
  rw [val_main_v43_apply]
  have z : val_main_cst_5 (F := Ideal) (Shape.Idx.first h_S_) = 0 := Ideal.ofBits_zero_f32
  rw [z, zero_add]
  unfold colSq bank
  refine Finset.sum_congr rfl fun r _ => ?_
  rw [val_main_v42_apply, show idx_main_v43 (ix1 j) r = ix2 r j from idx_rfl2]
  rfl

/-- The seven host products are the correlation. -/
theorem dot14 (x0 : (⟨S8x64x64x32, .f32⟩ : BufTy).Contents (Elt Ideal)) (x : (⟨S288x10, .f32⟩ : BufTy).Contents (Elt Ideal))
    (n : Fin 8) (h w : Fin 64) (j : Fin 10) :
    val_main_v14 (F := Ideal) x0 x (ix4 n h w j) = dotW (img x0 n) (col (bank x) j) h w := by
  rw [val_main_v14_apply]
  refine (Finset.sum_congr rfl fun r _ => ?_).trans (lin_eq x0 x n h w j)
  rw [show lidx_main_v14 (ix4 n h w j) r = ix4 n h w r from idx_rfl4, show ridx_main_v14 (ix4 n h w j) r = ix2 r j from idx_rfl2]

theorem dot22 (x0 : (⟨S8x64x64x32, .f32⟩ : BufTy).Contents (Elt Ideal)) (x : (⟨S288x10, .f32⟩ : BufTy).Contents (Elt Ideal))
    (n : Fin 8) (h w : Fin 64) (j : Fin 10) :
    val_main_v22 (F := Ideal) x0 x (ix4 n h w j) = dotW (img x0 n) (col (bank x) j) h w := by
  rw [val_main_v22_apply]
  refine (Finset.sum_congr rfl fun r _ => ?_).trans (lin_eq x0 x n h w j)
  rw [show lidx_main_v22 (ix4 n h w j) r = ix4 n h w r from idx_rfl4, show ridx_main_v22 (ix4 n h w j) r = ix2 r j from idx_rfl2]

theorem dot35 (x0 : (⟨S8x64x64x32, .f32⟩ : BufTy).Contents (Elt Ideal)) (x : (⟨S288x10, .f32⟩ : BufTy).Contents (Elt Ideal))
    (n : Fin 8) (h w : Fin 64) (j : Fin 10) :
    val_main_v35 (F := Ideal) x0 x (ix4 n h w j) = dotW (img x0 n) (col (bank x) j) h w := by
  rw [val_main_v35_apply]
  refine (Finset.sum_congr rfl fun r _ => ?_).trans (lin_eq x0 x n h w j)
  rw [show lidx_main_v35 (ix4 n h w j) r = ix4 n h w r from idx_rfl4, show ridx_main_v35 (ix4 n h w j) r = ix2 r j from idx_rfl2]

theorem dot37 (x0 : (⟨S8x64x64x32, .f32⟩ : BufTy).Contents (Elt Ideal)) (x : (⟨S288x10, .f32⟩ : BufTy).Contents (Elt Ideal))
    (n : Fin 8) (h w : Fin 64) (j : Fin 10) :
    val_main_v37 (F := Ideal) x0 x (ix4 n h w j) = dotW (img x0 n) (col (bank x) j) h w := by
  rw [val_main_v37_apply]
  refine (Finset.sum_congr rfl fun r _ => ?_).trans (lin_eq x0 x n h w j)
  rw [show lidx_main_v37 (ix4 n h w j) r = ix4 n h w r from idx_rfl4, show ridx_main_v37 (ix4 n h w j) r = ix2 r j from idx_rfl2]

theorem dot52 (x0 : (⟨S8x64x64x32, .f32⟩ : BufTy).Contents (Elt Ideal)) (x : (⟨S288x10, .f32⟩ : BufTy).Contents (Elt Ideal))
    (n : Fin 8) (h w : Fin 64) (j : Fin 10) :
    val_main_v52 (F := Ideal) x0 x (ix4 n h w j) = dotW (img x0 n) (col (bank x) j) h w := by
  rw [val_main_v52_apply]
  refine (Finset.sum_congr rfl fun r _ => ?_).trans (lin_eq x0 x n h w j)
  rw [show lidx_main_v52 (ix4 n h w j) r = ix4 n h w r from idx_rfl4, show ridx_main_v52 (ix4 n h w j) r = ix2 r j from idx_rfl2]

theorem dot57 (x0 : (⟨S8x64x64x32, .f32⟩ : BufTy).Contents (Elt Ideal)) (x : (⟨S288x10, .f32⟩ : BufTy).Contents (Elt Ideal))
    (n : Fin 8) (h w : Fin 64) (j : Fin 10) :
    val_main_v57 (F := Ideal) x0 x (ix4 n h w j) = dotW (img x0 n) (col (bank x) j) h w := by
  rw [val_main_v57_apply]
  refine (Finset.sum_congr rfl fun r _ => ?_).trans (lin_eq x0 x n h w j)
  rw [show lidx_main_v57 (ix4 n h w j) r = ix4 n h w r from idx_rfl4, show ridx_main_v57 (ix4 n h w j) r = ix2 r j from idx_rfl2]

theorem dot62 (x0 : (⟨S8x64x64x32, .f32⟩ : BufTy).Contents (Elt Ideal)) (x : (⟨S288x10, .f32⟩ : BufTy).Contents (Elt Ideal))
    (n : Fin 8) (h w : Fin 64) (j : Fin 10) :
    val_main_v62 (F := Ideal) x0 x (ix4 n h w j) = dotW (img x0 n) (col (bank x) j) h w := by
  rw [val_main_v62_apply]
  refine (Finset.sum_congr rfl fun r _ => ?_).trans (lin_eq x0 x n h w j)
  rw [show lidx_main_v62 (ix4 n h w j) r = ix4 n h w r from idx_rfl4, show ridx_main_v62 (ix4 n h w j) r = ix2 r j from idx_rfl2]

/-- Branch 3: the square root of the clamped squared distance. -/
theorem br2 (x0 : (⟨S8x64x64x32, .f32⟩ : BufTy).Contents (Elt Ideal)) (x : (⟨S288x10, .f32⟩ : BufTy).Contents (Elt Ideal))
    (n : Fin 8) (h w : Fin 64) (j : Fin 10) :
    val_main_v34 (F := Ideal) x0 x (ix4 n h w j)
      = Ideal.sqrt (sqDist (sqSum (img x0 n) h w) (dotW (img x0 n) (col (bank x) j) h w) (colSq (bank x) j)) := by
  rw [val_main_v34_apply, val_main_v33_apply, val_main_v31_apply, val_main_v26_apply, val_main_v25_apply, val_main_v13_apply,
    val_main_v24_apply, val_main_v23_apply, val_main_v30_apply, val_main_v29_apply, val_main_v32_apply, dot22,
    show idx_main_v13 (idx_main_v25 (ix4 n h w j)) = ix3 n h w from idx_rfl3, sq12,
    show idx_main_v29 (idx_main_v30 (ix4 n h w j)) = ix1 j from idx_rfl1, colsq28]
  rfl

/-- Branch 4: tanh of the correlation. -/
theorem br3 (x0 : (⟨S8x64x64x32, .f32⟩ : BufTy).Contents (Elt Ideal)) (x : (⟨S288x10, .f32⟩ : BufTy).Contents (Elt Ideal))
    (n : Fin 8) (h w : Fin 64) (j : Fin 10) :
    val_main_v36 (F := Ideal) x0 x (ix4 n h w j) = Ideal.tanh (dotW (img x0 n) (col (bank x) j) h w) := by
  rw [val_main_v36_apply, dot35]
  rfl

/-- Branch 5: the exponential of minus the clamped squared distance. -/
theorem br4 (x0 : (⟨S8x64x64x32, .f32⟩ : BufTy).Contents (Elt Ideal)) (x : (⟨S288x10, .f32⟩ : BufTy).Contents (Elt Ideal))
    (n : Fin 8) (h w : Fin 64) (j : Fin 10) :
    val_main_v51 (F := Ideal) x0 x (ix4 n h w j)
      = Ideal.exp (negOne * sqDist (sqSum (img x0 n) h w) (dotW (img x0 n) (col (bank x) j) h w) (colSq (bank x) j)) := by
  rw [val_main_v51_apply, val_main_v50_apply, val_main_v49_apply, val_main_v48_apply, val_main_v46_apply, val_main_v41_apply,
    val_main_v40_apply, val_main_v13_apply, val_main_v39_apply, val_main_v38_apply, val_main_v45_apply, val_main_v44_apply,
    val_main_v47_apply, dot37,
    show idx_main_v13 (idx_main_v40 (ix4 n h w j)) = ix3 n h w from idx_rfl3, sq12,
    show idx_main_v44 (idx_main_v45 (ix4 n h w j)) = ix1 j from idx_rfl1, colsq43]
  rfl

/-- Branches 6, 7, 8: the cube of the correlation plus one. -/
theorem br5 (x0 : (⟨S8x64x64x32, .f32⟩ : BufTy).Contents (Elt Ideal)) (x : (⟨S288x10, .f32⟩ : BufTy).Contents (Elt Ideal))
    (n : Fin 8) (h w : Fin 64) (j : Fin 10) :
    val_main_v56 (F := Ideal) x0 x (ix4 n h w j) = cube (dotW (img x0 n) (col (bank x) j) h w + one) := by
  rw [val_main_v56_apply, val_main_v54_apply, val_main_v53_apply, val_main_v55_apply, dot52]
  exact pow_three _

theorem br6 (x0 : (⟨S8x64x64x32, .f32⟩ : BufTy).Contents (Elt Ideal)) (x : (⟨S288x10, .f32⟩ : BufTy).Contents (Elt Ideal))
    (n : Fin 8) (h w : Fin 64) (j : Fin 10) :
    val_main_v61 (F := Ideal) x0 x (ix4 n h w j) = cube (dotW (img x0 n) (col (bank x) j) h w + one) := by
  rw [val_main_v61_apply, val_main_v59_apply, val_main_v58_apply, val_main_v60_apply, dot57]
  exact pow_three _

theorem br7 (x0 : (⟨S8x64x64x32, .f32⟩ : BufTy).Contents (Elt Ideal)) (x : (⟨S288x10, .f32⟩ : BufTy).Contents (Elt Ideal))
    (n : Fin 8) (h w : Fin 64) (j : Fin 10) :
    val_main_v66 (F := Ideal) x0 x (ix4 n h w j) = cube (dotW (img x0 n) (col (bank x) j) h w + one) := by
  rw [val_main_v66_apply, val_main_v64_apply, val_main_v63_apply, val_main_v65_apply, dot62]
  exact pow_three _

/-! The eight results joined along the last axis: channel 10·b + j is result b at channel j. -/

set_option hygiene false in
local macro "read_piece" k:num : tactic => `(tactic|
  exact concatenate_apply_piece _ _ _ (ix4 n h w o) $k (by show ($k : ℕ) < 8; omega) S8x64x64x10 _ rfl rfl (10 * $k) rfl
    (ix4 n h w j) (fun b hb => by
      match b, hb with
      | ⟨0, _⟩, _ => rfl
      | ⟨1, _⟩, _ => rfl
      | ⟨2, _⟩, _ => rfl
      | ⟨3, _⟩, hb => exact absurd rfl hb) ho.symm)

section Joined
variable (x0 : (⟨S8x64x64x32, .f32⟩ : BufTy).Contents (Elt Ideal)) (x1 x2 x3 x4 x5 x6 x7 x8 : (⟨S288x10, .f32⟩ : BufTy).Contents (Elt Ideal))
  (n : Fin 8) (h w : Fin 64) (o : Fin 80) (j : Fin 10)

theorem out_piece0 (ho : o.val = 10 * 0 + j.val) :
    val_main_v67 (F := Ideal) x0 x1 x2 x3 x4 x5 x6 x7 x8 (ix4 n h w o) = val_main_v14 (F := Ideal) x0 x1 (ix4 n h w j) := by
  unfold val_main_v67; read_piece 0

theorem out_piece1 (ho : o.val = 10 * 1 + j.val) :
    val_main_v67 (F := Ideal) x0 x1 x2 x3 x4 x5 x6 x7 x8 (ix4 n h w o) = val_main_v21 (F := Ideal) x0 x2 (ix4 n h w j) := by
  unfold val_main_v67; read_piece 1

theorem out_piece2 (ho : o.val = 10 * 2 + j.val) :
    val_main_v67 (F := Ideal) x0 x1 x2 x3 x4 x5 x6 x7 x8 (ix4 n h w o) = val_main_v34 (F := Ideal) x0 x3 (ix4 n h w j) := by
  unfold val_main_v67; read_piece 2

theorem out_piece3 (ho : o.val = 10 * 3 + j.val) :
    val_main_v67 (F := Ideal) x0 x1 x2 x3 x4 x5 x6 x7 x8 (ix4 n h w o) = val_main_v36 (F := Ideal) x0 x4 (ix4 n h w j) := by
  unfold val_main_v67; read_piece 3

theorem out_piece4 (ho : o.val = 10 * 4 + j.val) :
    val_main_v67 (F := Ideal) x0 x1 x2 x3 x4 x5 x6 x7 x8 (ix4 n h w o) = val_main_v51 (F := Ideal) x0 x5 (ix4 n h w j) := by
  unfold val_main_v67; read_piece 4

theorem out_piece5 (ho : o.val = 10 * 5 + j.val) :
    val_main_v67 (F := Ideal) x0 x1 x2 x3 x4 x5 x6 x7 x8 (ix4 n h w o) = val_main_v56 (F := Ideal) x0 x6 (ix4 n h w j) := by
  unfold val_main_v67; read_piece 5

theorem out_piece6 (ho : o.val = 10 * 6 + j.val) :
    val_main_v67 (F := Ideal) x0 x1 x2 x3 x4 x5 x6 x7 x8 (ix4 n h w o) = val_main_v61 (F := Ideal) x0 x7 (ix4 n h w j) := by
  unfold val_main_v67; read_piece 6

theorem out_piece7 (ho : o.val = 10 * 7 + j.val) :
    val_main_v67 (F := Ideal) x0 x1 x2 x3 x4 x5 x6 x7 x8 (ix4 n h w o) = val_main_v66 (F := Ideal) x0 x8 (ix4 n h w j) := by
  unfold val_main_v67; read_piece 7

end Joined

variable (m : (ℓ : Loc nD τ sig) → Buf (Elt Ideal) ℓ) (c : Dev nD)

/-- The eight filter banks of the reference's launch memory, branch by branch (arguments 1 … 8). -/
def banks : Fin 8 → Bank
  | ⟨0, _⟩ => fun r j => m ((c.tc : Thread nD τ).loc main_arg1) (ix2 r j)
  | ⟨1, _⟩ => fun r j => m ((c.tc : Thread nD τ).loc main_arg2) (ix2 r j)
  | ⟨2, _⟩ => fun r j => m ((c.tc : Thread nD τ).loc main_arg3) (ix2 r j)
  | ⟨3, _⟩ => fun r j => m ((c.tc : Thread nD τ).loc main_arg4) (ix2 r j)
  | ⟨4, _⟩ => fun r j => m ((c.tc : Thread nD τ).loc main_arg5) (ix2 r j)
  | ⟨5, _⟩ => fun r j => m ((c.tc : Thread nD τ).loc main_arg6) (ix2 r j)
  | ⟨6, _⟩ => fun r j => m ((c.tc : Thread nD τ).loc main_arg7) (ix2 r j)
  | _ => fun r j => m ((c.tc : Thread nD τ).loc main_arg8) (ix2 r j)

/-- Image `n` of the batch. -/
def image (n : Fin 8) : Img := fun h w ch => m ((c.tc : Thread nD τ).loc main_arg0) (ix4 n h w ch)

/-- The reference's result at image `n`, pixel (h, w), output channel `o`. -/
theorem ref_value (n : Fin 8) (h w : Fin 64) (o : Fin 80) :
    Cert.ReferenceIdeal.RefRun.result (F := Ideal) m c (ix4 n h w o)
      = outAt (image m c n) (banks m c) h w (brOf o) (chOf o) := by
  show val_main_v67 (F := Ideal) _ _ _ _ _ _ _ _ _ (ix4 n h w o) = _
  have hb : (brOf o).val = o.val / 10 := rfl
  have hj : (chOf o).val = o.val % 10 := rfl
  generalize brOf o = b at hb ⊢
  generalize chOf o = j at hj ⊢
  have ho : o.val = 10 * b.val + j.val := by omega
  match b, ho with
  | ⟨0, _⟩, ho => exact (out_piece0 _ _ _ _ _ _ _ _ _ n h w o j ho).trans (dot14 _ _ n h w j)
  | ⟨1, _⟩, ho => exact (out_piece1 _ _ _ _ _ _ _ _ _ n h w o j ho).trans (l1_21 _ _ n h w j)
  | ⟨2, _⟩, ho => exact (out_piece2 _ _ _ _ _ _ _ _ _ n h w o j ho).trans (br2 _ _ n h w j)
  | ⟨3, _⟩, ho => exact (out_piece3 _ _ _ _ _ _ _ _ _ n h w o j ho).trans (br3 _ _ n h w j)
  | ⟨4, _⟩, ho => exact (out_piece4 _ _ _ _ _ _ _ _ _ n h w o j ho).trans (br4 _ _ n h w j)
  | ⟨5, _⟩, ho => exact (out_piece5 _ _ _ _ _ _ _ _ _ n h w o j ho).trans (br5 _ _ n h w j)
  | ⟨6, _⟩, ho => exact (out_piece6 _ _ _ _ _ _ _ _ _ n h w o j ho).trans (br6 _ _ n h w j)
  | ⟨7, _⟩, ho => exact (out_piece7 _ _ _ _ _ _ _ _ _ n h w o j ho).trans (br7 _ _ n h w j)

end Cert.ReferenceIdeal.RefValue

end
-- ==== Proof.lean ====
/-
  Eight convolution banks over 3×3 patches of a batch of eight 64×64×32 images, kernel against reference, over the
  extended reals.

  The kernel walks the batch one image per grid point. At a point it pads the image by a zero border, and for each of
  the nine patch offsets accumulates the window's squared norm, its product with the seven linear banks packed side by
  side (one 32×70 slab per offset), and — for the L1 bank — the sum of |window − filter| taken four filters at a time
  across 128 lanes and separated again by a 0/1 selector product; then it applies each branch's pointwise function.
  The reference gathers the nine shifted slices of the padded batch into 288-wide patches and computes each bank by one
  host product or sum over the 288 rows.

  The two agree entry by entry: a sum over the 288 rows is the double sum over nine offsets and thirty-two channels;
  the selector product keeps, of the 128 lanes, the 32 lanes of the channel's own filter; the reference's third power is
  the product the kernel multiplies out, on every extended real; every other operation is the same function on both
  sides (a change of float format is the identity here, and the literals are the same words). No law used needs the
  inputs finite, so the precondition is never opened.

  The three frames: both kernel programs run the point's body at each of the eight grid points from whatever the
  scratch buffers hold, every access in bounds, and write only the result array and their own buffers; the host
  operations before the region write none of the nine arguments. The reference is host operations only.
-/
import proofs.«416126_j12043088298095_3_alg».proof.Defs
import proofs.«416126_j12043088298095_3_alg».proof.Proof.Gen.Kernel
import proofs.«416126_j12043088298095_3_alg».proof.Proof.Gen.KernelIdeal
import proofs.«416126_j12043088298095_3_alg».proof.Proof.Gen.ReferenceIdeal
import proofs.«416126_j12043088298095_3_alg».proof.Proof.Gen.Pre_finite_inputs
import proofs.«416126_j12043088298095_3_alg».proof.Proof.BitsLaunch
import proofs.«416126_j12043088298095_3_alg».proof.Proof.IdealArray
import proofs.«416126_j12043088298095_3_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.ConvBank

/-- The word-level kernel runs and leaves its arguments as launched. -/
theorem frame_k : Cert.frame_Kernel := fun m ρ _ => Cert.Kernel.Launch.frame (F := Bits) m ρ

/-- So does the idealized kernel. -/
theorem frame_ki : Cert.frame_KernelIdeal := fun m ρ _ => Cert.KernelIdeal.Launch.frame (F := Ideal) m ρ

/-- The reference, host operations only, runs and leaves its arguments as launched. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the nine arguments the two programs see the same images and the same banks. -/
theorem same_image (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (n : Fin 8) : Cert.ReferenceIdeal.RefValue.image m' c n = Cert.KernelIdeal.Whole.image m c n := by
  funext h w ch
  unfold Cert.ReferenceIdeal.RefValue.image Cert.KernelIdeal.Whole.image
  rw [h0]

theorem same_banks (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.RefValue.banks m' c = Cert.KernelIdeal.Entry.banks m c := by
  funext b
  match b with
  | ⟨0, _⟩ => exact congrArg (fun (A : Cert.ReferenceIdeal.S288x10.Idx → EReal) => (fun r j => A (ix2 r j) : Bank)) h1
  | ⟨1, _⟩ => exact congrArg (fun (A : Cert.ReferenceIdeal.S288x10.Idx → EReal) => (fun r j => A (ix2 r j) : Bank)) h2
  | ⟨2, _⟩ => exact congrArg (fun (A : Cert.ReferenceIdeal.S288x10.Idx → EReal) => (fun r j => A (ix2 r j) : Bank)) h3
  | ⟨3, _⟩ => exact congrArg (fun (A : Cert.ReferenceIdeal.S288x10.Idx → EReal) => (fun r j => A (ix2 r j) : Bank)) h4
  | ⟨4, _⟩ => exact congrArg (fun (A : Cert.ReferenceIdeal.S288x10.Idx → EReal) => (fun r j => A (ix2 r j) : Bank)) h5
  | ⟨5, _⟩ => exact congrArg (fun (A : Cert.ReferenceIdeal.S288x10.Idx → EReal) => (fun r j => A (ix2 r j) : Bank)) h6
  | ⟨6, _⟩ => exact congrArg (fun (A : Cert.ReferenceIdeal.S288x10.Idx → EReal) => (fun r j => A (ix2 r j) : Bank)) h7
  | ⟨7, _⟩ => exact congrArg (fun (A : Cert.ReferenceIdeal.S288x10.Idx → EReal) => (fun r j => A (ix2 r j) : Bank)) h8
  | ⟨n + 8, hn⟩ => exact absurd hn (by omega)

/-- The two idealized programs, from memories agreeing on the arguments, both end, with the result array at the
    specification's array of the shared images and banks. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8⟩ := hagree c
  funext i
  obtain ⟨n, h, w, o, rfl⟩ : ∃ (n : Fin 8) (h w : Fin 64) (o : Fin 80), i = ix4 n h w o := ⟨i 0, i 1, i 2, i 3, eq_ix4 i⟩
  rw [Cert.ReferenceIdeal.RefValue.ref_value m' c n h w o, same_image m m' c a0 n, same_banks m m' c a1 a2 a3 a4 a5 a6 a7 a8]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
